-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S2x128x256 : Shape := ⟨3, ![2, 128, 256]⟩
abbrev S2 : Shape := ⟨1, ![2]⟩
abbrev S_ : Shape := ⟨0, ![]⟩
abbrev S128x256 : Shape := ⟨2, ![128, 256]⟩
abbrev S1x128x256 : Shape := ⟨3, ![1, 128, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S2x128x256, .bf16⟩
  | .local _ .vmem, ⟨3, _⟩ => ⟨S2x128x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v29 : BitVec 32 := Scalar.muli v2 c8_i32_19
  let v30 : BitVec 32 := Scalar.addi c0_i32_20 v29
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_21 : BitVec 32 := 4#32
  let v31 : BitVec 32 := Scalar.muli v9 c4_i32_21
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v33 : BitVec 32 := Scalar.muli v8 c1_i32_22
  let v34 : BitVec 32 := Scalar.addi v32 v33
  v34.toNat
def k0_dev3 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v43 : BitVec 32 := Scalar.muli v2 c8_i32_31
  let v44 : BitVec 32 := Scalar.addi c0_i32_32 v43
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_33 : BitVec 32 := 4#32
  let v45 : BitVec 32 := Scalar.muli v9 c4_i32_33
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v47 : BitVec 32 := Scalar.muli v8 c1_i32_34
  let v48 : BitVec 32 := Scalar.addi v46 v47
  v48.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S128x256_0_0 : ∀ a, (![0, 0] : Fin 2 → Nat) a + S128x256.size a ≤ S256x256.size a
  h_S128x256 : 0 < S128x256.numel
  shapeCasts_S128x256_S128x256 : S128x256.ShapeCasts S128x256
  bitsLt_bf16_f32 : FTy.bits .bf16 < FTy.bits .f32
  inb_S2x128x256_S1x128x256_0_0_0 : ∀ a, (![0, 0, 0] : Fin 3 → Nat) a + S1x128x256.size a ≤ S2x128x256.size a
  h_S1x128x256 : 0 < S1x128x256.numel
  shapeCasts_S1x128x256_S128x256 : S1x128x256.ShapeCasts S128x256
  shapeCasts_S128x256_S1x128x256 : S128x256.ShapeCasts S1x128x256
  packedbf16_S2x128x256_S1x128x256_0_0_0 : (Rect.unit (s := S2x128x256) ![0, 0, 0] S1x128x256.size inb_S2x128x256_S1x128x256_0_0_0).PackedRows (EltTy.packing .bf16)
  inb_S256x256_S128x256_128_0 : ∀ a, (![128, 0] : Fin 2 → Nat) a + S128x256.size a ≤ S256x256.size a
  inb_S2x128x256_S1x128x256_1_0_0 : ∀ a, (![1, 0, 0] : Fin 3 → Nat) a + S1x128x256.size a ≤ S2x128x256.size a
  packedbf16_S2x128x256_S1x128x256_1_0_0 : (Rect.unit (s := S2x128x256) ![1, 0, 0] S1x128x256.size inb_S2x128x256_S1x128x256_1_0_0).PackedRows (EltTy.packing .bf16)
  inb_S2_S1_0 : ∀ a, (![0] : Fin 1 → Nat) a + S1.size a ≤ S2.size a
  squeezes_S1_S_ : S1.Squeezes S_
  squeezes_S1x128x256_S128x256 : S1x128x256.Squeezes S128x256
  wordsbf16_S2x128x256_S1x128x256_0_0_0 : (Rect.unit (s := S2x128x256) ![0, 0, 0] S1x128x256.size inb_S2x128x256_S1x128x256_0_0_0).WholeWords (EltTy.packing .bf16)
  inb_S2_S1_1 : ∀ a, (![1] : Fin 1 → Nat) a + S1.size a ≤ S2.size a
  wordsbf16_S2x128x256_S1x128x256_1_0_0 : (Rect.unit (s := S2x128x256) ![1, 0, 0] S1x128x256.size inb_S2x128x256_S1x128x256_1_0_0).WholeWords (EltTy.packing .bf16)
  hcc0_scratch2 : 2 + S2.numel ≤ 6
  hcc0_scratch3 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel

variable [Facts₀]

class Facts : Prop extends Facts₀ where

variable [Facts]
-- ==== Proof.Exch.lean ====
/-
  The pairwise exchange behind the all-reduce along the mesh's second axis.

  Every device c has one partner p = peer c: the device with the same first and third mesh coordinate and
  the other second coordinate (peer is an involution). Device c signals p's barrier semaphore once, writes its
  block of x, narrowed, into its send buffer (two halves of 128 rows), waits for p's signal on its own barrier
  semaphore, copies each half of its send buffer into the same half of p's receive buffer, and after each
  half of ITS receive buffer has landed adds it, widened, to the same rows of its own block of x.

  This module fixes the vocabulary of the protocol: the partner, the five semaphore cells of a device (barrier,
  two send, two receive), the two halves of the two scratch buffers as element sets, and the schedule of the
  cells: one round, one duty per cell.
-/
import proofs.«900715_g7700000000000716_dist_ar_v7x_xyz2x2x4_y_m256_n256_f32_1_alg».proof.Defs
import proofs.«900715_g7700000000000716_dist_ar_v7x_xyz2x2x4_y_m256_n256_f32_1_alg».proof.Proof.Gen.KernelIdeal
import proofs.«900715_g7700000000000716_dist_ar_v7x_xyz2x2x4_y_m256_n256_f32_1_alg».proof.Proof.Gen.KernelIdeal.Skeleton
import proofs.«900715_g7700000000000716_dist_ar_v7x_xyz2x2x4_y_m256_n256_f32_1_alg».proof.Proof.Gen.KernelIdeal.Launch
import proofs.«900715_g7700000000000716_dist_ar_v7x_xyz2x2x4_y_m256_n256_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (one duty per round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- The partner of device c: the second mesh coordinate flipped. -/
def peer (c : Dev nD) : Dev nD := ⟨(8 * (c.val / 8) + (c.val % 4) + 4) - 4 * ((c.val / 4) % 2), by have h : c.val < 16 := c.isLt; show _ < 16; omega⟩

theorem peer_peer (c : Dev nD) : peer (peer c) = c := by revert c; decide
theorem peer_ne (c : Dev nD) : peer c ≠ c := by revert c; decide

/-- The kernel's three device chains all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .f32 := Memref.whole cc0_stg1_0
abbrev sM : Memref sig .tc .vmem S2x128x256 .bf16 := Memref.whole cc0_scratch0
abbrev rM : Memref sig .tc .vmem S2x128x256 .bf16 := Memref.whole cc0_scratch1

abbrev rc0 : Rect S2x128x256 := Rect.unit (s := S2x128x256) ![0, 0, 0] S1x128x256.size inb_S2x128x256_S1x128x256_0_0_0
abbrev rc1 : Rect S2x128x256 := Rect.unit (s := S2x128x256) ![1, 0, 0] S1x128x256.size inb_S2x128x256_S1x128x256_1_0_0

/-- The two halves of the send buffer and of the receive buffer, as the transfers name them. -/
abbrev sH0 : Memref sig .tc .vmem S128x256 .bf16 := (sM.slice rc0 (fun _ => rfl)).squeeze S128x256 squeezes_S1x128x256_S128x256
abbrev sH1 : Memref sig .tc .vmem S128x256 .bf16 := (sM.slice rc1 (fun _ => rfl)).squeeze S128x256 squeezes_S1x128x256_S128x256
abbrev rH0 : Memref sig .tc .vmem S128x256 .bf16 := (rM.slice rc0 (fun _ => rfl)).squeeze S128x256 squeezes_S1x128x256_S128x256
abbrev rH1 : Memref sig .tc .vmem S128x256 .bf16 := (rM.slice rc1 (fun _ => rfl)).squeeze S128x256 squeezes_S1x128x256_S128x256

/-- The barrier semaphore of collective id 0 (unscoped) and the four DMA semaphores of the scratch arrays. -/
abbrev barS : Sem sig := (SemArray.scalar (sig.barrier 0 rfl) : Sems sig S_).sem
abbrev sendS0 : DmaSem sig := ((cc0_scratch2.slice (Rect.unit (s := S2) ![0] S1.size inb_S2_S1_0)).squeeze S_ squeezes_S1_S_).sem
abbrev sendS1 : DmaSem sig := ((cc0_scratch2.slice (Rect.unit (s := S2) ![1] S1.size inb_S2_S1_1)).squeeze S_ squeezes_S1_S_).sem
abbrev recvS0 : DmaSem sig := ((cc0_scratch3.slice (Rect.unit (s := S2) ![0] S1.size inb_S2_S1_0)).squeeze S_ squeezes_S1_S_).sem
abbrev recvS1 : DmaSem sig := ((cc0_scratch3.slice (Rect.unit (s := S2) ![1] S1.size inb_S2_S1_1)).squeeze S_ squeezes_S1_S_).sem

theorem sendS0_eq : sendS0 = (2 : Fin 6) := by decide
theorem sendS1_eq : sendS1 = (3 : Fin 6) := by decide
theorem recvS0_eq : recvS0 = (4 : Fin 6) := by decide
theorem recvS1_eq : recvS1 = (5 : Fin 6) := by decide

/-- A device's five cells: 0 the barrier, 1 and 2 the send halves, 3 and 4 the receive halves. -/
abbrev csem : Fin 5 → SemLoc sig := fun | 0 => .reg barS | 1 => .dma sendS0 | 2 => .dma sendS1 | 3 => .dma recvS0 | 4 => .dma recvS1
abbrev kcell (ck : Dev nD × Fin 5) : GSem nD τ sig := ((ck.1 : Thread nD τ), csem ck.2)
abbrev barCell (c : Dev nD) : GSem nD τ sig := kcell (c, 0)
abbrev sendCell0 (c : Dev nD) : GSem nD τ sig := kcell (c, 1)
abbrev sendCell1 (c : Dev nD) : GSem nD τ sig := kcell (c, 2)
abbrev recvCell0 (c : Dev nD) : GSem nD τ sig := kcell (c, 3)
abbrev recvCell1 (c : Dev nD) : GSem nD τ sig := kcell (c, 4)

/-- The kernel's own (scoped) semaphores, as the launch indexes them. -/
abbrev osem : Fin 4 → SemLoc sig := fun | 0 => .dma sendS0 | 1 => .dma sendS1 | 2 => .dma recvS0 | 3 => .dma recvS1

theorem csem_injective : Function.Injective csem := by decide

/-- The credit of one half's transfer. -/
abbrev N : ℕ := (rH0 : Memref sig .tc .vmem S128x256 .bf16).view.dmaCredit
theorem N_pos : 0 < N := View.dmaCredit_pos _ (by decide)
theorem N_r1 : (rH1 : Memref sig .tc .vmem S128x256 .bf16).view.dmaCredit = N := rfl
theorem N_s0 : (sH0 : Memref sig .tc .vmem S128x256 .bf16).view.dmaCredit = N := rfl
theorem N_s1 : (sH1 : Memref sig .tc .vmem S128x256 .bf16).view.dmaCredit = N := rfl

/-! ## Contents -/

abbrev rx0 : Rect S256x256 := Rect.unit (s := S256x256) ![0, 0] S128x256.size inb_S256x256_S128x256_0_0
abbrev rx1 : Rect S256x256 := Rect.unit (s := S256x256) ![128, 0] S128x256.size inb_S256x256_S128x256_128_0

/-- Device c's block of x as its staging buffer holds it through the body. -/
def xstg (c : Dev nD) : (cc0_stg0_0 : Ref sig .tc).ty.Contents (Elt F) :=
  (win0_0.blk (0 : Fin 1)).view.read (Elt F) ((s₀ m ρ).mem ((c : Thread nD τ).loc main_arg0))

/-- What device c stores into the two halves of its send buffer: rows 0..127 and rows 128..255 of its block, narrowed. -/
def half0 (c : Dev nD) : FVec F S1x128x256 .bf16 := k0_pay2 ((xM : Memref sig .tc .vmem S256x256 .f32).view.readAt (Elt F) rx0.toLoadRect (xstg m ρ c))
def half1 (c : Dev nD) : FVec F S1x128x256 .bf16 := k0_pay3 ((xM : Memref sig .tc .vmem S256x256 .f32).view.readAt (Elt F) rx1.toLoadRect (xstg m ρ c))

/-- The two halves of the result on device c: its own rows plus the partner's narrowed rows, widened. -/
def sum0 (c : Dev nD) : FVec F S128x256 .f32 := k0_pay4 ((xM : Memref sig .tc .vmem S256x256 .f32).view.readAt (Elt F) rx0.toLoadRect (xstg m ρ c)) (half0 m ρ (peer c))
def sum1 (c : Dev nD) : FVec F S128x256 .f32 := k0_pay1 ((xM : Memref sig .tc .vmem S256x256 .f32).view.readAt (Elt F) rx1.toLoadRect (xstg m ρ c)) (half1 m ρ (peer c))

/-- The result staging buffer after the two stores, over contents g. -/
def outOver (c : Dev nD) (g : (cc0_stg1_0 : Ref sig .tc).ty.Contents (Elt F)) : (cc0_stg1_0 : Ref sig .tc).ty.Contents (Elt F) :=
  ((oM : Memref sig .tc .vmem S256x256 .f32).access rx1).write (Elt F) (((oM : Memref sig .tc .vmem S256x256 .f32).access rx0).write (Elt F) g (sum0 m ρ c) Finset.univ) (sum1 m ρ c) Finset.univ

/-- The kernel's result on device c (the two stores cover the buffer: what it held before does not matter). -/
def outAt (c : Dev nD) : (cc0_stg1_0 : Ref sig .tc).ty.Contents (Elt F) := outOver m ρ c (xstg m ρ c)

end Cert.KernelIdeal.Exch

end
-- ==== Proof.Sched.lean ====
/-
  The schedule of the exchange: the element sets of the buffers' halves, what each cell's one duty hands its
  owner, the amounts, and the per-cell tables.

  A device's barrier cell has one duty, paid by its partner's signal: it hands over the partner's whole receive
  buffer (so that the device may copy into it) and that the partner's two receive cells are at round 0. A receive
  cell's duty is paid by the partner's copy into that half: it hands over the half, holding what the partner
  stored in the same half of its send buffer. A send cell's duty is paid by the device's own copy: it hands the
  half of the send buffer back.
-/
import proofs.«900715_g7700000000000716_dist_ar_v7x_xyz2x2x4_y_m256_n256_f32_1_alg».proof.Proof.Exch

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The halves as element sets -/

theorem sH0_set : (sH0 : Memref sig .tc .vmem S128x256 .bf16).view.set = rc0.set :=
  (View.set_reshape (v := (View.whole cc0_scratch0).slice rc0) _).trans (View.set_slice_whole cc0_scratch0 rc0)
theorem sH1_set : (sH1 : Memref sig .tc .vmem S128x256 .bf16).view.set = rc1.set :=
  (View.set_reshape (v := (View.whole cc0_scratch0).slice rc1) _).trans (View.set_slice_whole cc0_scratch0 rc1)
theorem rH0_set : (rH0 : Memref sig .tc .vmem S128x256 .bf16).view.set = rc0.set :=
  (View.set_reshape (v := (View.whole cc0_scratch1).slice rc0) _).trans (View.set_slice_whole cc0_scratch1 rc0)
theorem rH1_set : (rH1 : Memref sig .tc .vmem S128x256 .bf16).view.set = rc1.set :=
  (View.set_reshape (v := (View.whole cc0_scratch1).slice rc1) _).trans (View.set_slice_whole cc0_scratch1 rc1)

/-- An index of a two-half buffer is in the first half when its leading coordinate is 0, -/
theorem mem_rc0 (i : S2x128x256.Idx) : i ∈ rc0.set ↔ (i 0).val = 0 := by
  rw [Rect.mem_set_unit]
  constructor
  · intro h; have := h 0; simp at this; omega
  · intro h a
    fin_cases a
    · simp; omega
    · have := (i 1).isLt; simp; exact this
    · have := (i 2).isLt; simp; exact this
/-- in the second when it is 1. -/
theorem mem_rc1 (i : S2x128x256.Idx) : i ∈ rc1.set ↔ (i 0).val = 1 := by
  rw [Rect.mem_set_unit]
  constructor
  · intro h; have := h 0; simp at this; omega
  · intro h a
    fin_cases a
    · simp; omega
    · have := (i 1).isLt; simp; exact this
    · have := (i 2).isLt; simp; exact this

theorem rc_compl : (Finset.univ \ rc0.set : Finset S2x128x256.Idx) = rc1.set := by
  ext i
  rw [Finset.mem_sdiff, mem_rc0, mem_rc1]
  have := (i 0).isLt
  simp only [Finset.mem_univ, true_and]
  show ¬ (i 0).val = 0 ↔ (i 0).val = 1
  have h2 : (i 0).val < 2 := (i 0).isLt
  omega

theorem rc_disjoint : Disjoint (rc0.set : Finset S2x128x256.Idx) rc1.set := by
  rw [Finset.disjoint_left]; intro i h0 h1; rw [mem_rc0] at h0; rw [mem_rc1] at h1; omega

theorem rc_union : (rc0.set ∪ rc1.set : Finset S2x128x256.Idx) = Finset.univ := by
  rw [← rc_compl]; exact Finset.union_sdiff_of_subset (Finset.subset_univ _)

/-! ## What the duties hand over -/

abbrev sLoc (c : Dev nD) : Loc nD τ sig := (c : Thread nD τ).loc cc0_scratch0
abbrev rLoc (c : Dev nD) : Loc nD τ sig := (c : Thread nD τ).loc cc0_scratch1

/-- The partner's signal hands device c the partner's whole receive buffer and that both its receive cells are at round 0. -/
def barPay (c : Dev nD) : sProp 𝕄 :=
  iprop((∃ f : Buf (Elt F) (rLoc (peer c)), (rLoc (peer c)) ↦{fullShare} f) ∗ reached ER (recvCell0 (peer c)) 0 ∗ reached ER (recvCell1 (peer c)) 0)
/-- A landed half of the receive buffer reads as the half the partner stored. -/
def recvPay0 (c : Dev nD) : sProp 𝕄 :=
  iprop(∃ f : Buf (Elt F) (rLoc c), (rLoc c ↦[rc0.set]{fullShare} f) ∗ ⌜rM.view.readAt (Elt F) rc0.toLoadRect f = half0 m ρ (peer c)⌝)
def recvPay1 (c : Dev nD) : sProp 𝕄 :=
  iprop(∃ f : Buf (Elt F) (rLoc c), (rLoc c ↦[rc1.set]{fullShare} f) ∗ ⌜rM.view.readAt (Elt F) rc1.toLoadRect f = half1 m ρ (peer c)⌝)
/-- A half of the send buffer, back after its copy has read it. -/
def sendPay0 (c : Dev nD) : sProp 𝕄 := iprop(∃ f : Buf (Elt F) (sLoc c), sLoc c ↦[rc0.set]{fullShare} f)
def sendPay1 (c : Dev nD) : sProp 𝕄 := iprop(∃ f : Buf (Elt F) (sLoc c), sLoc c ↦[rc1.set]{fullShare} f)

/-! ## The schedule -/

abbrev IsCell (g : GSem nD τ sig) : Prop := g.1.2 = .tc ∧ ∃ k : Fin 5, g.2 = csem k

/-- One round, round 0, one duty per cell: a barrier cell's of one unit, a send or receive cell's of one half's credit. -/
def xRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma sendS0 then sendPay0 g.1.1
    else if g.2 = .dma sendS1 then sendPay1 g.1.1
    else if g.2 = .dma recvS0 then recvPay0 m ρ g.1.1
    else if g.2 = .dma recvS1 then recvPay1 m ρ g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m ρ).payload g r d) := by
  show BI.Storable upEmb (if g.2 = .reg barS then barPay g.1.1
    else if g.2 = .dma sendS0 then sendPay0 g.1.1
    else if g.2 = .dma sendS1 then sendPay1 g.1.1
    else if g.2 = .dma recvS0 then recvPay0 m ρ g.1.1
    else if g.2 = .dma recvS1 then recvPay1 m ρ g.1.1
    else iprop(emp))
  unfold barPay recvPay0 recvPay1 sendPay0 sendPay1
  (repeat' split) <;> infer_instance

section Tables
variable (c : Dev nD)

theorem csem_ne {j k : Fin 5} (h : j ≠ k) : csem j ≠ csem k := fun e => h (csem_injective e)

theorem duties_cell (k : Fin 5) : (xRd (F := F) m ρ).duties (kcell (c, k)) 0 = {()} := by
  dsimp only [xRd]; exact if_pos ⟨rfl, rfl, k, rfl⟩
theorem duties_later (g : GSem nD τ sig) : ∀ r, 1 ≤ r → (xRd (F := F) m ρ).duties g r = ∅ :=
  fun r hr => by dsimp only [xRd]; rw [if_neg fun h => by omega]
theorem mem_duties (k : Fin 5) : () ∈ (xRd (F := F) m ρ).duties (kcell (c, k)) 0 := by
  rw [duties_cell]; exact Finset.mem_singleton_self _

theorem amount_bar (d : Unit) : (xRd (F := F) m ρ).amount (barCell c) 0 d = 1 := by dsimp only [xRd]; exact if_pos rfl
theorem amount_dma (k : Fin 5) (hk : k ≠ 0) (d : Unit) : (xRd (F := F) m ρ).amount (kcell (c, k)) 0 d = N := by
  dsimp only [xRd]; exact if_neg (csem_ne hk)

theorem expect_bar : (xRd (F := F) m ρ).expect (barCell c) 0 = 1 := by
  unfold Schedule.expect Schedule.amountOf; rw [duties_cell, Finset.sum_singleton, amount_bar]
theorem expect_dma (k : Fin 5) (hk : k ≠ 0) : (xRd (F := F) m ρ).expect (kcell (c, k)) 0 = N := by
  unfold Schedule.expect Schedule.amountOf; rw [duties_cell, Finset.sum_singleton, amount_dma m ρ c k hk]

theorem payload_bar (d : Unit) : (xRd (F := F) m ρ).payload (barCell c) 0 d = barPay c := by dsimp only [xRd]; rw [if_pos rfl]
theorem payload_send0 (d : Unit) : (xRd (F := F) m ρ).payload (sendCell0 c) 0 d = sendPay0 c := by
  dsimp only [xRd]; rw [if_neg (csem_ne (j := 1) (k := 0) (by decide)), if_pos rfl]
theorem payload_send1 (d : Unit) : (xRd (F := F) m ρ).payload (sendCell1 c) 0 d = sendPay1 c := by
  dsimp only [xRd]; rw [if_neg (csem_ne (j := 2) (k := 0) (by decide)), if_neg (csem_ne (j := 2) (k := 1) (by decide)), if_pos rfl]
theorem payload_recv0 (d : Unit) : (xRd (F := F) m ρ).payload (recvCell0 c) 0 d = recvPay0 m ρ c := by
  dsimp only [xRd]; rw [if_neg (csem_ne (j := 3) (k := 0) (by decide)), if_neg (csem_ne (j := 3) (k := 1) (by decide)), if_neg (csem_ne (j := 3) (k := 2) (by decide)), if_pos rfl]
theorem payload_recv1 (d : Unit) : (xRd (F := F) m ρ).payload (recvCell1 c) 0 d = recvPay1 m ρ c := by
  dsimp only [xRd]; rw [if_neg (csem_ne (j := 4) (k := 0) (by decide)), if_neg (csem_ne (j := 4) (k := 1) (by decide)), if_neg (csem_ne (j := 4) (k := 2) (by decide)),
    if_neg (csem_ne (j := 4) (k := 3) (by decide)), if_pos rfl]

/-- The rest of the bar cell's round, no duty taken: its one payload. -/
theorem rest_bar : bigSep ((xRd (F := F) m ρ).duties (barCell c) 0 \ ∅) (fun d => (xRd (F := F) m ρ).payload (barCell c) 0 d) = barPay c := by
  rw [Finset.sdiff_empty, duties_cell, bigSep_singleton, payload_bar]
/-- The rest of the send0 cell's round, no duty taken: its one payload. -/
theorem rest_send0 : bigSep ((xRd (F := F) m ρ).duties (sendCell0 c) 0 \ ∅) (fun d => (xRd (F := F) m ρ).payload (sendCell0 c) 0 d) = sendPay0 c := by
  rw [Finset.sdiff_empty, duties_cell, bigSep_singleton, payload_send0]
/-- The rest of the send1 cell's round, no duty taken: its one payload. -/
theorem rest_send1 : bigSep ((xRd (F := F) m ρ).duties (sendCell1 c) 0 \ ∅) (fun d => (xRd (F := F) m ρ).payload (sendCell1 c) 0 d) = sendPay1 c := by
  rw [Finset.sdiff_empty, duties_cell, bigSep_singleton, payload_send1]
/-- The rest of the recv0 cell's round, no duty taken: its one payload. -/
theorem rest_recv0 : bigSep ((xRd (F := F) m ρ).duties (recvCell0 c) 0 \ ∅) (fun d => (xRd (F := F) m ρ).payload (recvCell0 c) 0 d) = recvPay0 m ρ c := by
  rw [Finset.sdiff_empty, duties_cell, bigSep_singleton, payload_recv0]
/-- The rest of the recv1 cell's round, no duty taken: its one payload. -/
theorem rest_recv1 : bigSep ((xRd (F := F) m ρ).duties (recvCell1 c) 0 \ ∅) (fun d => (xRd (F := F) m ρ).payload (recvCell1 c) 0 d) = recvPay1 m ρ c := by
  rw [Finset.sdiff_empty, duties_cell, bigSep_singleton, payload_recv1]

end Tables

end Cert.KernelIdeal.Exch

end
-- ==== Proof.Data.lean ====
/-
  What each device owes at launch, the levels that order the waits, and the proof data of the one grid point.

  Device c owes its partner's barrier cell one unit (its signal) and each of the partner's two receive cells one
  half's credit (its two copies). Barrier cells sit at level 1, receive cells at level 2, everything else at 0:
  a device waits on its barrier cell while it still owes the two copies (level 2 above level 1), and on its
  receive and send cells only once it owes nothing.
-/
import proofs.«900715_g7700000000000716_dist_ar_v7x_xyz2x2x4_y_m256_n256_f32_1_alg».proof.Proof.Sched

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Owed at launch; the levels -/

/-- After its signal device c owes the partner's receive cells their halves' credit (the second half first in
    the sum, so that the first copy peels the last summand). -/
def O₁ (c : Dev nD) : CellTallies nD τ sig Unit := tallyAt (recvCell1 (peer c)) () N + tallyAt (recvCell0 (peer c)) () N
def O₀ (c : Dev nD) : CellTallies nD τ sig Unit := O₁ c + tallyAt (barCell (peer c)) () 1

def L (g : GSem nD τ sig) : Finset Unit := if g.1.2 = .tc then {()} else ∅
def lv (g : GSem nD τ sig) (_ : Unit) : ℕ := if g.2 = .reg barS then 1 else if g.2 = .dma recvS0 ∨ g.2 = .dma recvS1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv0 (c : Dev nD) (u : Unit) : lv (recvCell0 c) u = 2 := by
  dsimp only [lv]; rw [if_neg (csem_ne (j := 3) (k := 0) (by decide)), if_pos (Or.inl rfl)]
theorem lv_recv1 (c : Dev nD) (u : Unit) : lv (recvCell1 c) u = 2 := by
  dsimp only [lv]; rw [if_neg (csem_ne (j := 4) (k := 0) (by decide)), if_pos (Or.inr rfl)]

theorem O₁_pos {c : Dev nD} {g : GSem nD τ sig} {u : Unit} (h : 0 < O₁ c g u) :
    g = recvCell1 (peer c) ∨ g = recvCell0 (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvCell1 (peer c) ∨ g = recvCell0 (peer c) ∨ g = barCell (peer c) := by
  unfold O₀ at h
  rw [Pi.add_apply, Finsupp.add_apply, tallyAt_apply] at h
  by_cases hb : g = barCell (peer c)
  · exact Or.inr (Or.inr hb)
  · rw [if_neg (fun h' => hb h'.1), Nat.add_zero] at h
    rcases O₁_pos h with h1 | h1
    · exact Or.inl h1
    · exact Or.inr (Or.inl h1)

omit [FloatOps F] in
/-- A staging semaphore (level 0) may be waited on while owing everything, or nothing. -/
theorem mayWait_stage (c : Dev nD) (q : DmaSem sig) (hq : ¬ (SemLoc.dma q = .dma recvS0 ∨ SemLoc.dma q = .dma recvS1)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl
        · rw [lv_recv1]; decide
        · rw [lv_recv0]; decide
        · rw [lv_bar]; decide)
  · rw [MayWait_zero]; iintro -; iempintro

omit [FloatOps F] in
/-- At its barrier wait a device owes the partner's receive cells only: above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact Nat.le_of_eq (lv_bar c ()))
    (fun g u hg => by
      rcases O₁_pos hg with rfl | rfl
      · rw [lv_recv1]; decide
      · rw [lv_recv0]; decide)

/-! ## The ghost state of the exchange -/

/-- The persistent part, the same for every device: every cell's invariant under its name, and that every cell has reached round 0. -/
def records (K : Dev nD × Fin 5 → ℕ) : sProp 𝕄 :=
  iprop((bigSep Finset.univ fun ck : Dev nD × Fin 5 => cellInv ER (xRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device c pays: the partner's barrier duty and two receive duties, its own two send duties. -/
def payToks (c : Dev nD) : sProp 𝕄 :=
  iprop(dutyTok ER (barCell (peer c)) 0 () ∗ dutyTok ER (recvCell0 (peer c)) 0 () ∗ dutyTok ER (recvCell1 (peer c)) 0 ()
    ∗ dutyTok ER (sendCell0 c) 0 () ∗ dutyTok ER (sendCell1 c) 0 ())
/-- What stays with device c: its positions at round 0 of its five cells, and those tokens. -/
def linear (c : Dev nD) : sProp 𝕄 :=
  iprop((bigSep Finset.univ fun k : Fin 5 => atPos ER (kcell (c, k)) 0 ∅ 0) ∗ payToks c)

def ghost (K : Dev nD × Fin 5 → ℕ) (c : Dev nD) : sProp 𝕄 := iprop(records m ρ K ∗ linear c)

/-- What device c's body starts from: the ghost state at some names, its launch credit (its barrier's unit, its two
    receive cells' credit) and the level facts. -/
def start (c : Dev nD) : sProp 𝕄 :=
  iprop((∃ K, ghost m ρ K c) ∗ cred (tallyAt (barCell c) () 1) ∗ cred (tallyAt (recvCell0 c) () N) ∗ cred (tallyAt (recvCell1 c) () N) ∗ levAts L lv)

def Φ₀ (c : Dev nD) : sProp 𝕄 :=
  iprop(start m ρ c ∗ (∃ f : Buf (Elt F) (sLoc c), sLoc c ↦{fullShare} f) ∗ (∃ f : Buf (Elt F) (rLoc c), rLoc c ↦{fullShare} f))
/-- After the point: the two scratch buffers whole again at some contents, the four own cells at zero, closed. -/
def Φ₁ (c : Dev nD) : sProp 𝕄 :=
  iprop((∃ f : Buf (Elt F) (sLoc c), sLoc c ↦{fullShare} f) ∗ (∃ f : Buf (Elt F) (rLoc c), rLoc c ↦{fullShare} f)
    ∗ semVal (sendCell0 c) 0 ∗ semVal (sendCell1 c) 0 ∗ semVal (recvCell0 c) 0 ∗ semVal (recvCell1 c) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m ρ 0 c).share w = fullShare := by unfold Dat.share; split <;> rfl

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

end Cert.KernelIdeal.Exch

end
-- ==== Proof.Launch.lean ====
/-
  The launch of the exchange: the second copy of the rounds algebra is funded with the eighty cells of the
  sixteen devices (five each) and one duty token per cell; every device's semaphores, the barrier one included,
  are turned at zero into the cells' invariants in one global step; the duty tokens are dealt so that each device
  holds the tokens of the duties IT pays (its partner's barrier and receive duties, its own send duties); the
  launch credit of a device is what its partner owes its barrier and receive cells. With these the library's
  launch theorem for cores that owe at launch gives the run of the whole program from the body obligation.
-/
import proofs.«900715_g7700000000000716_dist_ar_v7x_xyz2x2x4_y_m256_n256_f32_1_alg».proof.Proof.Data
import Idealize.ShloMosaic.Lib.Pipeline.Launch
import Idealize.ShloMosaic.Lib.Pipeline.Kit
import Idealize.ShloMosaic.Lib.Pipeline.Cells

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

theorem ownSemFacts : Pipeline.OwnSemFacts cfg0.spec osem := by decide

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The eighty cells of the exchange. -/
def xCells : Finset (GSem nD τ sig) := Finset.univ.map ⟨kcell, kcell_injective⟩

/-- One duty token per cell: round 0, the one duty. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own five cells. -/
def toks (c : Dev nD) : sProp 𝕄 :=
  iprop(dutyTok ER (barCell c) 0 () ∗ dutyTok ER (sendCell0 c) 0 () ∗ dutyTok ER (sendCell1 c) 0 ()
    ∗ dutyTok ER (recvCell0 c) 0 () ∗ dutyTok ER (recvCell1 c) 0 ())

/-- What the launch element deals device c. -/
def G (c : Dev nD) : sProp 𝕄 :=
  iprop((bigSep Finset.univ fun k : Fin 5 => roundState ER (xRd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_cells : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's semaphores at zero become the cells' invariants -/

/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendCell0 c) 0 ∗ semVal (sendCell1 c) 0 ∗ semVal (recvCell0 c) 0 ∗ semVal (recvCell1 c) 0) := by
  rw [Pipeline.ownSems0_eq_of_list c osem [0, 1, 2, 3] (by decide) (by decide)]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HV0, HV1⟩, HB⟩
  isplitl [HB]; · iexact HB
  isplitl [HS0]; · iexact HS0
  isplitl [HS1]; · iexact HS1
  isplitl [HV0] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 5 → ℕ) (c : Dev nD) : iprop(records m ρ K ∗ linear c) ⊢ G' m ρ c := by
  unfold G' ghost
  iintro H
  iexists K
  iexact H

/-- The tokens dealt across the pairs: a device's barrier token and its two receive tokens go to its partner, its
    two send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell0 c) 0 () : sProp 𝕄)),
    bigSep_univ_equiv pairing (fun c : Dev nD => (dutyTok ER (recvCell1 c) 0 () : sProp 𝕄))]
  iintro ⟨HB, HS0, HS1, HV0, HV1⟩
  isplitl [HB]; · iexact HB
  isplitl [HV0]; · iexact HV0
  isplitl [HV1]; · iexact HV1
  isplitl [HS0]; · iexact HS0
  iexact HS1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (xRd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_dev_eq {a b : Dev nD} {j k : Fin 5} (h : kcell (a, j) = kcell (b, k)) : a = b :=
  Fin.ext (congrArg (fun g : GSem nD τ sig => g.1.1.val) h)

theorem peer_eq_iff {d c : Dev nD} : peer d = c ↔ d = peer c :=
  ⟨fun h => by rw [← h, peer_peer], fun h => by rw [h, peer_peer]⟩

/-- What device d owes device c's barrier cell: one unit when d is c's partner. -/
theorem owed_bar (d c : Dev nD) : O₀ d (barCell c) () = if d = peer c then 1 else 0 := by
  unfold O₀ O₁
  rw [Pi.add_apply, Finsupp.add_apply, Pi.add_apply, Finsupp.add_apply,
    tallyAt_ne_cell (g := recvCell1 (peer d)) (fun h => csem_ne (j := 0) (k := 4) (by decide) (congrArg Prod.snd h)),
    tallyAt_ne_cell (g := recvCell0 (peer d)) (fun h => csem_ne (j := 0) (k := 3) (by decide) (congrArg Prod.snd h)),
    tallyAt_apply]
  simp only [Finsupp.zero_apply, Nat.zero_add, Nat.add_zero]
  by_cases h : d = peer c
  · subst h; rw [peer_peer, if_pos ⟨rfl, trivial⟩, if_pos rfl]
  · rw [if_neg (fun h' => h (peer_eq_iff.mp (cell_dev_eq h'.1).symm)), if_neg h]

/-- What device d owes device c's first receive cell: one half's credit when d is c's partner. -/
theorem owed_recv0 (d c : Dev nD) : O₀ d (recvCell0 c) () = if d = peer c then N else 0 := by
  unfold O₀ O₁
  rw [Pi.add_apply, Finsupp.add_apply, Pi.add_apply, Finsupp.add_apply,
    tallyAt_ne_cell (g := recvCell1 (peer d)) (fun h => csem_ne (j := 3) (k := 4) (by decide) (congrArg Prod.snd h)),
    tallyAt_ne_cell (g := barCell (peer d)) (fun h => csem_ne (j := 3) (k := 0) (by decide) (congrArg Prod.snd h)),
    tallyAt_apply]
  simp only [Finsupp.zero_apply, Nat.zero_add, Nat.add_zero]
  by_cases h : d = peer c
  · subst h; rw [peer_peer, if_pos ⟨rfl, trivial⟩, if_pos rfl]
  · rw [if_neg (fun h' => h (peer_eq_iff.mp (cell_dev_eq h'.1).symm)), if_neg h]

/-- The same of its second receive cell. -/
theorem owed_recv1 (d c : Dev nD) : O₀ d (recvCell1 c) () = if d = peer c then N else 0 := by
  unfold O₀ O₁
  rw [Pi.add_apply, Finsupp.add_apply, Pi.add_apply, Finsupp.add_apply,
    tallyAt_ne_cell (g := recvCell0 (peer d)) (fun h => csem_ne (j := 4) (k := 3) (by decide) (congrArg Prod.snd h)),
    tallyAt_ne_cell (g := barCell (peer d)) (fun h => csem_ne (j := 4) (k := 0) (by decide) (congrArg Prod.snd h)),
    tallyAt_apply]
  simp only [Finsupp.zero_apply, Nat.zero_add, Nat.add_zero]
  by_cases h : d = peer c
  · subst h; rw [peer_peer, if_pos ⟨rfl, trivial⟩, if_pos rfl]
  · rw [if_neg (fun h' => h (peer_eq_iff.mp (cell_dev_eq h'.1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv0 (c : Dev nD) :
    tallyOn (recvCell0 c) (launchCredit (Pipeline.owing O₀) 0 (recvCell0 c)) = (tallyAt (recvCell0 c) () N : CellTallies nD τ sig Unit) := by
  unfold tallyAt; refine congrArg _ (Finsupp.ext fun u => ?_); cases u
  rw [Pipeline.launchCredit_owing, Finsupp.single_eq_same, Finset.sum_congr rfl fun d _ => owed_recv0 d c,
    Finset.sum_ite_eq' Finset.univ (peer c) fun _ => N, if_pos (Finset.mem_univ _)]

theorem launch_recv1 (c : Dev nD) :
    tallyOn (recvCell1 c) (launchCredit (Pipeline.owing O₀) 0 (recvCell1 c)) = (tallyAt (recvCell1 c) () N : CellTallies nD τ sig Unit) := by
  unfold tallyAt; refine congrArg _ (Finsupp.ext fun u => ?_); cases u
  rw [Pipeline.launchCredit_owing, Finsupp.single_eq_same, Finset.sum_congr rfl fun d _ => owed_recv1 d c,
    Finset.sum_ite_eq' Finset.univ (peer c) fun _ => N, if_pos (Finset.mem_univ _)]

theorem bigSep_subset' {I : Type} [DecidableEq I] {s t : Finset I} (h : t ⊆ s) (Φ : I → sProp 𝕄) :
    bigSep s Φ ⊢ bigSep t Φ := BI.bigSep_subset h
theorem bigSep_insert' {I : Type} [DecidableEq I] {s : Finset I} {i : I} (hi : i ∉ s) (Φ : I → sProp 𝕄) :
    bigSep (insert i s) Φ = iprop(Φ i ∗ bigSep s Φ) := BI.bigSep_insert hi

/-- A device's launch credit: its barrier cell's unit and its two receive cells' credit, all owed by its partner. -/
theorem creds (c : Dev nD) :
    (Pipeline.launchCred O₀ c : sProp 𝕄) ⊢ iprop(cred (tallyAt (barCell c) () 1) ∗ cred (tallyAt (recvCell0 c) () N) ∗ cred (tallyAt (recvCell1 c) () N)) := by
  rw [← launch_bar, ← launch_recv0, ← launch_recv1]
  unfold Pipeline.launchCred
  refine (bigSep_subset' (s := Finset.univ) (t := {SemLoc.reg barS, SemLoc.dma recvS0, SemLoc.dma recvS1}) (Finset.subset_univ _) _).trans ?_
  rw [bigSep_insert' (i := SemLoc.reg barS) (s := {SemLoc.dma recvS0, SemLoc.dma recvS1}) (by decide),
    bigSep_insert' (i := SemLoc.dma recvS0) (s := {SemLoc.dma recvS1}) (by decide), bigSep_singleton]

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hs0, Hs1⟩
  isplitl [Hs]; · iexact Hs
  isplitl [Hs0]; · iexact Hs0
  iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨Hs, Hr, HzS0, HzS1, HzV0, HzV1⟩
  isplitr; · iempintro
  isplitl [HzS0 HzS1 HzV0 HzV1]
  · isplitl [HzS0]; · iexact HzS0
    isplitl [HzS1]; · iexact HzS1
    isplitl [HzV0] <;> iassumption
  isplitl [Hs] <;> iassumption

/-- The pipeline's own waits are on the staging semaphores, at level 0: allowed whatever the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: given the body
    obligation of every device, every weakly fair execution of the program — the devices signalling their partners'
    barrier semaphores, then exchanging the two halves of their narrowed blocks — terminates, and every final state has
    each device's two arrays at the contents the proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the window's block is the whole array and the one point writes it back, so it
    holds what the body left in the staging buffer. -/
theorem finalA_out (c : Dev nD) : finalA m ρ c (1 : Fin 2) = outAt m ρ c := by
  have h := (dats (F := F) m ρ 0 c).arrAt_succ (1 : Fin 2) t₀
  rw [flush0_1 t₀, if_pos rfl] at h
  refine (show finalA m ρ c (1 : Fin 2) = (dats (F := F) m ρ 0 c).arrAt (1 : Fin 2) (t₀.val + 1) from rfl).trans (h.trans ?_)
  exact Memref.write_access_unit_zero_univ (Elt F) main_v1 (off := fun a => win0_1.index t₀ a * win0_1.size a) (funext fun a => Nat.zero_mul _) _ _ _

/-- info: 'Cert.KernelIdeal.Exch.run_main' depends on axioms: [propext, Classical.choice, Quot.sound] -/
#guard_msgs in #print axioms run_main

end Cert.KernelIdeal.Exch

end
-- ==== Proof.ExchK.lean ====
/-
  The pairwise exchange behind the all-reduce along the mesh's second axis.

  Every device c has one partner p = peer c: the device with the same first and third mesh coordinate and
  the other second coordinate (peer is an involution). Device c signals p's barrier semaphore once, writes its
  block of x, narrowed, into its send buffer (two halves of 128 rows), waits for p's signal on its own barrier
  semaphore, copies each half of its send buffer into the same half of p's receive buffer, and after each
  half of ITS receive buffer has landed adds it, widened, to the same rows of its own block of x.

  This module fixes the vocabulary of the protocol: the partner, the five semaphore cells of a device (barrier,
  two send, two receive), the two halves of the two scratch buffers as element sets, and the schedule of the
  cells: one round, one duty per cell.
-/
import proofs.«900715_g7700000000000716_dist_ar_v7x_xyz2x2x4_y_m256_n256_f32_1_alg».proof.Defs
import proofs.«900715_g7700000000000716_dist_ar_v7x_xyz2x2x4_y_m256_n256_f32_1_alg».proof.Proof.Gen.Kernel
import proofs.«900715_g7700000000000716_dist_ar_v7x_xyz2x2x4_y_m256_n256_f32_1_alg».proof.Proof.Gen.Kernel.Skeleton
import proofs.«900715_g7700000000000716_dist_ar_v7x_xyz2x2x4_y_m256_n256_f32_1_alg».proof.Proof.Gen.Kernel.Launch
import proofs.«900715_g7700000000000716_dist_ar_v7x_xyz2x2x4_y_m256_n256_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (one duty per round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- The partner of device c: the second mesh coordinate flipped. -/
def peer (c : Dev nD) : Dev nD := ⟨(8 * (c.val / 8) + (c.val % 4) + 4) - 4 * ((c.val / 4) % 2), by have h : c.val < 16 := c.isLt; show _ < 16; omega⟩

theorem peer_peer (c : Dev nD) : peer (peer c) = c := by revert c; decide
theorem peer_ne (c : Dev nD) : peer c ≠ c := by revert c; decide

/-- The kernel's three device chains all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .f32 := Memref.whole cc0_stg1_0
abbrev sM : Memref sig .tc .vmem S2x128x256 .bf16 := Memref.whole cc0_scratch0
abbrev rM : Memref sig .tc .vmem S2x128x256 .bf16 := Memref.whole cc0_scratch1

abbrev rc0 : Rect S2x128x256 := Rect.unit (s := S2x128x256) ![0, 0, 0] S1x128x256.size inb_S2x128x256_S1x128x256_0_0_0
abbrev rc1 : Rect S2x128x256 := Rect.unit (s := S2x128x256) ![1, 0, 0] S1x128x256.size inb_S2x128x256_S1x128x256_1_0_0

/-- The two halves of the send buffer and of the receive buffer, as the transfers name them. -/
abbrev sH0 : Memref sig .tc .vmem S128x256 .bf16 := (sM.slice rc0 (fun _ => rfl)).squeeze S128x256 squeezes_S1x128x256_S128x256
abbrev sH1 : Memref sig .tc .vmem S128x256 .bf16 := (sM.slice rc1 (fun _ => rfl)).squeeze S128x256 squeezes_S1x128x256_S128x256
abbrev rH0 : Memref sig .tc .vmem S128x256 .bf16 := (rM.slice rc0 (fun _ => rfl)).squeeze S128x256 squeezes_S1x128x256_S128x256
abbrev rH1 : Memref sig .tc .vmem S128x256 .bf16 := (rM.slice rc1 (fun _ => rfl)).squeeze S128x256 squeezes_S1x128x256_S128x256

/-- The barrier semaphore of collective id 0 (unscoped) and the four DMA semaphores of the scratch arrays. -/
abbrev barS : Sem sig := (SemArray.scalar (sig.barrier 0 rfl) : Sems sig S_).sem
abbrev sendS0 : DmaSem sig := ((cc0_scratch2.slice (Rect.unit (s := S2) ![0] S1.size inb_S2_S1_0)).squeeze S_ squeezes_S1_S_).sem
abbrev sendS1 : DmaSem sig := ((cc0_scratch2.slice (Rect.unit (s := S2) ![1] S1.size inb_S2_S1_1)).squeeze S_ squeezes_S1_S_).sem
abbrev recvS0 : DmaSem sig := ((cc0_scratch3.slice (Rect.unit (s := S2) ![0] S1.size inb_S2_S1_0)).squeeze S_ squeezes_S1_S_).sem
abbrev recvS1 : DmaSem sig := ((cc0_scratch3.slice (Rect.unit (s := S2) ![1] S1.size inb_S2_S1_1)).squeeze S_ squeezes_S1_S_).sem

theorem sendS0_eq : sendS0 = (2 : Fin 6) := by decide
theorem sendS1_eq : sendS1 = (3 : Fin 6) := by decide
theorem recvS0_eq : recvS0 = (4 : Fin 6) := by decide
theorem recvS1_eq : recvS1 = (5 : Fin 6) := by decide

/-- A device's five cells: 0 the barrier, 1 and 2 the send halves, 3 and 4 the receive halves. -/
abbrev csem : Fin 5 → SemLoc sig := fun | 0 => .reg barS | 1 => .dma sendS0 | 2 => .dma sendS1 | 3 => .dma recvS0 | 4 => .dma recvS1
abbrev kcell (ck : Dev nD × Fin 5) : GSem nD τ sig := ((ck.1 : Thread nD τ), csem ck.2)
abbrev barCell (c : Dev nD) : GSem nD τ sig := kcell (c, 0)
abbrev sendCell0 (c : Dev nD) : GSem nD τ sig := kcell (c, 1)
abbrev sendCell1 (c : Dev nD) : GSem nD τ sig := kcell (c, 2)
abbrev recvCell0 (c : Dev nD) : GSem nD τ sig := kcell (c, 3)
abbrev recvCell1 (c : Dev nD) : GSem nD τ sig := kcell (c, 4)

/-- The kernel's own (scoped) semaphores, as the launch indexes them. -/
abbrev osem : Fin 4 → SemLoc sig := fun | 0 => .dma sendS0 | 1 => .dma sendS1 | 2 => .dma recvS0 | 3 => .dma recvS1

theorem csem_injective : Function.Injective csem := by decide

/-- The credit of one half's transfer. -/
abbrev N : ℕ := (rH0 : Memref sig .tc .vmem S128x256 .bf16).view.dmaCredit
theorem N_pos : 0 < N := View.dmaCredit_pos _ (by decide)
theorem N_r1 : (rH1 : Memref sig .tc .vmem S128x256 .bf16).view.dmaCredit = N := rfl
theorem N_s0 : (sH0 : Memref sig .tc .vmem S128x256 .bf16).view.dmaCredit = N := rfl
theorem N_s1 : (sH1 : Memref sig .tc .vmem S128x256 .bf16).view.dmaCredit = N := rfl

/-! ## Contents -/

abbrev rx0 : Rect S256x256 := Rect.unit (s := S256x256) ![0, 0] S128x256.size inb_S256x256_S128x256_0_0
abbrev rx1 : Rect S256x256 := Rect.unit (s := S256x256) ![128, 0] S128x256.size inb_S256x256_S128x256_128_0

/-- Device c's block of x as its staging buffer holds it through the body. -/
def xstg (c : Dev nD) : (cc0_stg0_0 : Ref sig .tc).ty.Contents (Elt F) :=
  (win0_0.blk (0 : Fin 1)).view.read (Elt F) ((s₀ m ρ).mem ((c : Thread nD τ).loc main_arg0))

/-- What device c stores into the two halves of its send buffer: rows 0..127 and rows 128..255 of its block, narrowed. -/
def half0 (c : Dev nD) : FVec F S1x128x256 .bf16 := k0_pay2 ((xM : Memref sig .tc .vmem S256x256 .f32).view.readAt (Elt F) rx0.toLoadRect (xstg m ρ c))
def half1 (c : Dev nD) : FVec F S1x128x256 .bf16 := k0_pay3 ((xM : Memref sig .tc .vmem S256x256 .f32).view.readAt (Elt F) rx1.toLoadRect (xstg m ρ c))

/-- The two halves of the result on device c: its own rows plus the partner's narrowed rows, widened. -/
def sum0 (c : Dev nD) : FVec F S128x256 .f32 := k0_pay4 ((xM : Memref sig .tc .vmem S256x256 .f32).view.readAt (Elt F) rx0.toLoadRect (xstg m ρ c)) (half0 m ρ (peer c))
def sum1 (c : Dev nD) : FVec F S128x256 .f32 := k0_pay1 ((xM : Memref sig .tc .vmem S256x256 .f32).view.readAt (Elt F) rx1.toLoadRect (xstg m ρ c)) (half1 m ρ (peer c))

/-- The result staging buffer after the two stores, over contents g. -/
def outOver (c : Dev nD) (g : (cc0_stg1_0 : Ref sig .tc).ty.Contents (Elt F)) : (cc0_stg1_0 : Ref sig .tc).ty.Contents (Elt F) :=
  ((oM : Memref sig .tc .vmem S256x256 .f32).access rx1).write (Elt F) (((oM : Memref sig .tc .vmem S256x256 .f32).access rx0).write (Elt F) g (sum0 m ρ c) Finset.univ) (sum1 m ρ c) Finset.univ

/-- The kernel's result on device c (the two stores cover the buffer: what it held before does not matter). -/
def outAt (c : Dev nD) : (cc0_stg1_0 : Ref sig .tc).ty.Contents (Elt F) := outOver m ρ c (xstg m ρ c)

end Cert.Kernel.Exch

end
-- ==== Proof.SchedK.lean ====
/-
  The schedule of the exchange: the element sets of the buffers' halves, what each cell's one duty hands its
  owner, the amounts, and the per-cell tables.

  A device's barrier cell has one duty, paid by its partner's signal: it hands over the partner's whole receive
  buffer (so that the device may copy into it) and that the partner's two receive cells are at round 0. A receive
  cell's duty is paid by the partner's copy into that half: it hands over the half, holding what the partner
  stored in the same half of its send buffer. A send cell's duty is paid by the device's own copy: it hands the
  half of the send buffer back.
-/
import proofs.«900715_g7700000000000716_dist_ar_v7x_xyz2x2x4_y_m256_n256_f32_1_alg».proof.Proof.ExchK

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The halves as element sets -/

theorem sH0_set : (sH0 : Memref sig .tc .vmem S128x256 .bf16).view.set = rc0.set :=
  (View.set_reshape (v := (View.whole cc0_scratch0).slice rc0) _).trans (View.set_slice_whole cc0_scratch0 rc0)
theorem sH1_set : (sH1 : Memref sig .tc .vmem S128x256 .bf16).view.set = rc1.set :=
  (View.set_reshape (v := (View.whole cc0_scratch0).slice rc1) _).trans (View.set_slice_whole cc0_scratch0 rc1)
theorem rH0_set : (rH0 : Memref sig .tc .vmem S128x256 .bf16).view.set = rc0.set :=
  (View.set_reshape (v := (View.whole cc0_scratch1).slice rc0) _).trans (View.set_slice_whole cc0_scratch1 rc0)
theorem rH1_set : (rH1 : Memref sig .tc .vmem S128x256 .bf16).view.set = rc1.set :=
  (View.set_reshape (v := (View.whole cc0_scratch1).slice rc1) _).trans (View.set_slice_whole cc0_scratch1 rc1)

/-- An index of a two-half buffer is in the first half when its leading coordinate is 0, -/
theorem mem_rc0 (i : S2x128x256.Idx) : i ∈ rc0.set ↔ (i 0).val = 0 := by
  rw [Rect.mem_set_unit]
  constructor
  · intro h; have := h 0; simp at this; omega
  · intro h a
    fin_cases a
    · simp; omega
    · have := (i 1).isLt; simp; exact this
    · have := (i 2).isLt; simp; exact this
/-- in the second when it is 1. -/
theorem mem_rc1 (i : S2x128x256.Idx) : i ∈ rc1.set ↔ (i 0).val = 1 := by
  rw [Rect.mem_set_unit]
  constructor
  · intro h; have := h 0; simp at this; omega
  · intro h a
    fin_cases a
    · simp; omega
    · have := (i 1).isLt; simp; exact this
    · have := (i 2).isLt; simp; exact this

theorem rc_compl : (Finset.univ \ rc0.set : Finset S2x128x256.Idx) = rc1.set := by
  ext i
  rw [Finset.mem_sdiff, mem_rc0, mem_rc1]
  have := (i 0).isLt
  simp only [Finset.mem_univ, true_and]
  show ¬ (i 0).val = 0 ↔ (i 0).val = 1
  have h2 : (i 0).val < 2 := (i 0).isLt
  omega

theorem rc_disjoint : Disjoint (rc0.set : Finset S2x128x256.Idx) rc1.set := by
  rw [Finset.disjoint_left]; intro i h0 h1; rw [mem_rc0] at h0; rw [mem_rc1] at h1; omega

theorem rc_union : (rc0.set ∪ rc1.set : Finset S2x128x256.Idx) = Finset.univ := by
  rw [← rc_compl]; exact Finset.union_sdiff_of_subset (Finset.subset_univ _)

/-! ## What the duties hand over -/

abbrev sLoc (c : Dev nD) : Loc nD τ sig := (c : Thread nD τ).loc cc0_scratch0
abbrev rLoc (c : Dev nD) : Loc nD τ sig := (c : Thread nD τ).loc cc0_scratch1

/-- The partner's signal hands device c the partner's whole receive buffer and that both its receive cells are at round 0. -/
def barPay (c : Dev nD) : sProp 𝕄 :=
  iprop((∃ f : Buf (Elt F) (rLoc (peer c)), (rLoc (peer c)) ↦{fullShare} f) ∗ reached ER (recvCell0 (peer c)) 0 ∗ reached ER (recvCell1 (peer c)) 0)
/-- A landed half of the receive buffer reads as the half the partner stored. -/
def recvPay0 (c : Dev nD) : sProp 𝕄 :=
  iprop(∃ f : Buf (Elt F) (rLoc c), (rLoc c ↦[rc0.set]{fullShare} f) ∗ ⌜rM.view.readAt (Elt F) rc0.toLoadRect f = half0 m ρ (peer c)⌝)
def recvPay1 (c : Dev nD) : sProp 𝕄 :=
  iprop(∃ f : Buf (Elt F) (rLoc c), (rLoc c ↦[rc1.set]{fullShare} f) ∗ ⌜rM.view.readAt (Elt F) rc1.toLoadRect f = half1 m ρ (peer c)⌝)
/-- A half of the send buffer, back after its copy has read it. -/
def sendPay0 (c : Dev nD) : sProp 𝕄 := iprop(∃ f : Buf (Elt F) (sLoc c), sLoc c ↦[rc0.set]{fullShare} f)
def sendPay1 (c : Dev nD) : sProp 𝕄 := iprop(∃ f : Buf (Elt F) (sLoc c), sLoc c ↦[rc1.set]{fullShare} f)

/-! ## The schedule -/

abbrev IsCell (g : GSem nD τ sig) : Prop := g.1.2 = .tc ∧ ∃ k : Fin 5, g.2 = csem k

/-- One round, round 0, one duty per cell: a barrier cell's of one unit, a send or receive cell's of one half's credit. -/
def xRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma sendS0 then sendPay0 g.1.1
    else if g.2 = .dma sendS1 then sendPay1 g.1.1
    else if g.2 = .dma recvS0 then recvPay0 m ρ g.1.1
    else if g.2 = .dma recvS1 then recvPay1 m ρ g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m ρ).payload g r d) := by
  show BI.Storable upEmb (if g.2 = .reg barS then barPay g.1.1
    else if g.2 = .dma sendS0 then sendPay0 g.1.1
    else if g.2 = .dma sendS1 then sendPay1 g.1.1
    else if g.2 = .dma recvS0 then recvPay0 m ρ g.1.1
    else if g.2 = .dma recvS1 then recvPay1 m ρ g.1.1
    else iprop(emp))
  unfold barPay recvPay0 recvPay1 sendPay0 sendPay1
  (repeat' split) <;> infer_instance

section Tables
variable (c : Dev nD)

theorem csem_ne {j k : Fin 5} (h : j ≠ k) : csem j ≠ csem k := fun e => h (csem_injective e)

theorem duties_cell (k : Fin 5) : (xRd (F := F) m ρ).duties (kcell (c, k)) 0 = {()} := by
  dsimp only [xRd]; exact if_pos ⟨rfl, rfl, k, rfl⟩
theorem duties_later (g : GSem nD τ sig) : ∀ r, 1 ≤ r → (xRd (F := F) m ρ).duties g r = ∅ :=
  fun r hr => by dsimp only [xRd]; rw [if_neg fun h => by omega]
theorem mem_duties (k : Fin 5) : () ∈ (xRd (F := F) m ρ).duties (kcell (c, k)) 0 := by
  rw [duties_cell]; exact Finset.mem_singleton_self _

theorem amount_bar (d : Unit) : (xRd (F := F) m ρ).amount (barCell c) 0 d = 1 := by dsimp only [xRd]; exact if_pos rfl
theorem amount_dma (k : Fin 5) (hk : k ≠ 0) (d : Unit) : (xRd (F := F) m ρ).amount (kcell (c, k)) 0 d = N := by
  dsimp only [xRd]; exact if_neg (csem_ne hk)

theorem expect_bar : (xRd (F := F) m ρ).expect (barCell c) 0 = 1 := by
  unfold Schedule.expect Schedule.amountOf; rw [duties_cell, Finset.sum_singleton, amount_bar]
theorem expect_dma (k : Fin 5) (hk : k ≠ 0) : (xRd (F := F) m ρ).expect (kcell (c, k)) 0 = N := by
  unfold Schedule.expect Schedule.amountOf; rw [duties_cell, Finset.sum_singleton, amount_dma m ρ c k hk]

theorem payload_bar (d : Unit) : (xRd (F := F) m ρ).payload (barCell c) 0 d = barPay c := by dsimp only [xRd]; rw [if_pos rfl]
theorem payload_send0 (d : Unit) : (xRd (F := F) m ρ).payload (sendCell0 c) 0 d = sendPay0 c := by
  dsimp only [xRd]; rw [if_neg (csem_ne (j := 1) (k := 0) (by decide)), if_pos rfl]
theorem payload_send1 (d : Unit) : (xRd (F := F) m ρ).payload (sendCell1 c) 0 d = sendPay1 c := by
  dsimp only [xRd]; rw [if_neg (csem_ne (j := 2) (k := 0) (by decide)), if_neg (csem_ne (j := 2) (k := 1) (by decide)), if_pos rfl]
theorem payload_recv0 (d : Unit) : (xRd (F := F) m ρ).payload (recvCell0 c) 0 d = recvPay0 m ρ c := by
  dsimp only [xRd]; rw [if_neg (csem_ne (j := 3) (k := 0) (by decide)), if_neg (csem_ne (j := 3) (k := 1) (by decide)), if_neg (csem_ne (j := 3) (k := 2) (by decide)), if_pos rfl]
theorem payload_recv1 (d : Unit) : (xRd (F := F) m ρ).payload (recvCell1 c) 0 d = recvPay1 m ρ c := by
  dsimp only [xRd]; rw [if_neg (csem_ne (j := 4) (k := 0) (by decide)), if_neg (csem_ne (j := 4) (k := 1) (by decide)), if_neg (csem_ne (j := 4) (k := 2) (by decide)),
    if_neg (csem_ne (j := 4) (k := 3) (by decide)), if_pos rfl]

/-- The rest of the bar cell's round, no duty taken: its one payload. -/
theorem rest_bar : bigSep ((xRd (F := F) m ρ).duties (barCell c) 0 \ ∅) (fun d => (xRd (F := F) m ρ).payload (barCell c) 0 d) = barPay c := by
  rw [Finset.sdiff_empty, duties_cell, bigSep_singleton, payload_bar]
/-- The rest of the send0 cell's round, no duty taken: its one payload. -/
theorem rest_send0 : bigSep ((xRd (F := F) m ρ).duties (sendCell0 c) 0 \ ∅) (fun d => (xRd (F := F) m ρ).payload (sendCell0 c) 0 d) = sendPay0 c := by
  rw [Finset.sdiff_empty, duties_cell, bigSep_singleton, payload_send0]
/-- The rest of the send1 cell's round, no duty taken: its one payload. -/
theorem rest_send1 : bigSep ((xRd (F := F) m ρ).duties (sendCell1 c) 0 \ ∅) (fun d => (xRd (F := F) m ρ).payload (sendCell1 c) 0 d) = sendPay1 c := by
  rw [Finset.sdiff_empty, duties_cell, bigSep_singleton, payload_send1]
/-- The rest of the recv0 cell's round, no duty taken: its one payload. -/
theorem rest_recv0 : bigSep ((xRd (F := F) m ρ).duties (recvCell0 c) 0 \ ∅) (fun d => (xRd (F := F) m ρ).payload (recvCell0 c) 0 d) = recvPay0 m ρ c := by
  rw [Finset.sdiff_empty, duties_cell, bigSep_singleton, payload_recv0]
/-- The rest of the recv1 cell's round, no duty taken: its one payload. -/
theorem rest_recv1 : bigSep ((xRd (F := F) m ρ).duties (recvCell1 c) 0 \ ∅) (fun d => (xRd (F := F) m ρ).payload (recvCell1 c) 0 d) = recvPay1 m ρ c := by
  rw [Finset.sdiff_empty, duties_cell, bigSep_singleton, payload_recv1]

end Tables

end Cert.Kernel.Exch

end
-- ==== Proof.DataK.lean ====
/-
  What each device owes at launch, the levels that order the waits, and the proof data of the one grid point.

  Device c owes its partner's barrier cell one unit (its signal) and each of the partner's two receive cells one
  half's credit (its two copies). Barrier cells sit at level 1, receive cells at level 2, everything else at 0:
  a device waits on its barrier cell while it still owes the two copies (level 2 above level 1), and on its
  receive and send cells only once it owes nothing.
-/
import proofs.«900715_g7700000000000716_dist_ar_v7x_xyz2x2x4_y_m256_n256_f32_1_alg».proof.Proof.SchedK

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Owed at launch; the levels -/

/-- After its signal device c owes the partner's receive cells their halves' credit (the second half first in
    the sum, so that the first copy peels the last summand). -/
def O₁ (c : Dev nD) : CellTallies nD τ sig Unit := tallyAt (recvCell1 (peer c)) () N + tallyAt (recvCell0 (peer c)) () N
def O₀ (c : Dev nD) : CellTallies nD τ sig Unit := O₁ c + tallyAt (barCell (peer c)) () 1

def L (g : GSem nD τ sig) : Finset Unit := if g.1.2 = .tc then {()} else ∅
def lv (g : GSem nD τ sig) (_ : Unit) : ℕ := if g.2 = .reg barS then 1 else if g.2 = .dma recvS0 ∨ g.2 = .dma recvS1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv0 (c : Dev nD) (u : Unit) : lv (recvCell0 c) u = 2 := by
  dsimp only [lv]; rw [if_neg (csem_ne (j := 3) (k := 0) (by decide)), if_pos (Or.inl rfl)]
theorem lv_recv1 (c : Dev nD) (u : Unit) : lv (recvCell1 c) u = 2 := by
  dsimp only [lv]; rw [if_neg (csem_ne (j := 4) (k := 0) (by decide)), if_pos (Or.inr rfl)]

theorem O₁_pos {c : Dev nD} {g : GSem nD τ sig} {u : Unit} (h : 0 < O₁ c g u) :
    g = recvCell1 (peer c) ∨ g = recvCell0 (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvCell1 (peer c) ∨ g = recvCell0 (peer c) ∨ g = barCell (peer c) := by
  unfold O₀ at h
  rw [Pi.add_apply, Finsupp.add_apply, tallyAt_apply] at h
  by_cases hb : g = barCell (peer c)
  · exact Or.inr (Or.inr hb)
  · rw [if_neg (fun h' => hb h'.1), Nat.add_zero] at h
    rcases O₁_pos h with h1 | h1
    · exact Or.inl h1
    · exact Or.inr (Or.inl h1)

omit [FloatOps F] in
/-- A staging semaphore (level 0) may be waited on while owing everything, or nothing. -/
theorem mayWait_stage (c : Dev nD) (q : DmaSem sig) (hq : ¬ (SemLoc.dma q = .dma recvS0 ∨ SemLoc.dma q = .dma recvS1)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl
        · rw [lv_recv1]; decide
        · rw [lv_recv0]; decide
        · rw [lv_bar]; decide)
  · rw [MayWait_zero]; iintro -; iempintro

omit [FloatOps F] in
/-- At its barrier wait a device owes the partner's receive cells only: above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact Nat.le_of_eq (lv_bar c ()))
    (fun g u hg => by
      rcases O₁_pos hg with rfl | rfl
      · rw [lv_recv1]; decide
      · rw [lv_recv0]; decide)

/-! ## The ghost state of the exchange -/

/-- The persistent part, the same for every device: every cell's invariant under its name, and that every cell has reached round 0. -/
def records (K : Dev nD × Fin 5 → ℕ) : sProp 𝕄 :=
  iprop((bigSep Finset.univ fun ck : Dev nD × Fin 5 => cellInv ER (xRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device c pays: the partner's barrier duty and two receive duties, its own two send duties. -/
def payToks (c : Dev nD) : sProp 𝕄 :=
  iprop(dutyTok ER (barCell (peer c)) 0 () ∗ dutyTok ER (recvCell0 (peer c)) 0 () ∗ dutyTok ER (recvCell1 (peer c)) 0 ()
    ∗ dutyTok ER (sendCell0 c) 0 () ∗ dutyTok ER (sendCell1 c) 0 ())
/-- What stays with device c: its positions at round 0 of its five cells, and those tokens. -/
def linear (c : Dev nD) : sProp 𝕄 :=
  iprop((bigSep Finset.univ fun k : Fin 5 => atPos ER (kcell (c, k)) 0 ∅ 0) ∗ payToks c)

def ghost (K : Dev nD × Fin 5 → ℕ) (c : Dev nD) : sProp 𝕄 := iprop(records m ρ K ∗ linear c)

/-- What device c's body starts from: the ghost state at some names, its launch credit (its barrier's unit, its two
    receive cells' credit) and the level facts. -/
def start (c : Dev nD) : sProp 𝕄 :=
  iprop((∃ K, ghost m ρ K c) ∗ cred (tallyAt (barCell c) () 1) ∗ cred (tallyAt (recvCell0 c) () N) ∗ cred (tallyAt (recvCell1 c) () N) ∗ levAts L lv)

def Φ₀ (c : Dev nD) : sProp 𝕄 :=
  iprop(start m ρ c ∗ (∃ f : Buf (Elt F) (sLoc c), sLoc c ↦{fullShare} f) ∗ (∃ f : Buf (Elt F) (rLoc c), rLoc c ↦{fullShare} f))
/-- After the point: the two scratch buffers whole again at some contents, the four own cells at zero, closed. -/
def Φ₁ (c : Dev nD) : sProp 𝕄 :=
  iprop((∃ f : Buf (Elt F) (sLoc c), sLoc c ↦{fullShare} f) ∗ (∃ f : Buf (Elt F) (rLoc c), rLoc c ↦{fullShare} f)
    ∗ semVal (sendCell0 c) 0 ∗ semVal (sendCell1 c) 0 ∗ semVal (recvCell0 c) 0 ∗ semVal (recvCell1 c) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m ρ 0 c).share w = fullShare := by unfold Dat.share; split <;> rfl

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

end Cert.Kernel.Exch

end
-- ==== Proof.LaunchK.lean ====
/-
  The launch of the exchange: the second copy of the rounds algebra is funded with the eighty cells of the
  sixteen devices (five each) and one duty token per cell; every device's semaphores, the barrier one included,
  are turned at zero into the cells' invariants in one global step; the duty tokens are dealt so that each device
  holds the tokens of the duties IT pays (its partner's barrier and receive duties, its own send duties); the
  launch credit of a device is what its partner owes its barrier and receive cells. With these the library's
  launch theorem for cores that owe at launch gives the run of the whole program from the body obligation.
-/
import proofs.«900715_g7700000000000716_dist_ar_v7x_xyz2x2x4_y_m256_n256_f32_1_alg».proof.Proof.DataK
import Idealize.ShloMosaic.Lib.Pipeline.Launch
import Idealize.ShloMosaic.Lib.Pipeline.Kit
import Idealize.ShloMosaic.Lib.Pipeline.Cells

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

theorem ownSemFacts : Pipeline.OwnSemFacts cfg0.spec osem := by decide

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The eighty cells of the exchange. -/
def xCells : Finset (GSem nD τ sig) := Finset.univ.map ⟨kcell, kcell_injective⟩

/-- One duty token per cell: round 0, the one duty. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own five cells. -/
def toks (c : Dev nD) : sProp 𝕄 :=
  iprop(dutyTok ER (barCell c) 0 () ∗ dutyTok ER (sendCell0 c) 0 () ∗ dutyTok ER (sendCell1 c) 0 ()
    ∗ dutyTok ER (recvCell0 c) 0 () ∗ dutyTok ER (recvCell1 c) 0 ())

/-- What the launch element deals device c. -/
def G (c : Dev nD) : sProp 𝕄 :=
  iprop((bigSep Finset.univ fun k : Fin 5 => roundState ER (xRd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_cells : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's semaphores at zero become the cells' invariants -/

/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendCell0 c) 0 ∗ semVal (sendCell1 c) 0 ∗ semVal (recvCell0 c) 0 ∗ semVal (recvCell1 c) 0) := by
  rw [Pipeline.ownSems0_eq_of_list c osem [0, 1, 2, 3] (by decide) (by decide)]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HV0, HV1⟩, HB⟩
  isplitl [HB]; · iexact HB
  isplitl [HS0]; · iexact HS0
  isplitl [HS1]; · iexact HS1
  isplitl [HV0] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 5 → ℕ) (c : Dev nD) : iprop(records m ρ K ∗ linear c) ⊢ G' m ρ c := by
  unfold G' ghost
  iintro H
  iexists K
  iexact H

/-- The tokens dealt across the pairs: a device's barrier token and its two receive tokens go to its partner, its
    two send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell0 c) 0 () : sProp 𝕄)),
    bigSep_univ_equiv pairing (fun c : Dev nD => (dutyTok ER (recvCell1 c) 0 () : sProp 𝕄))]
  iintro ⟨HB, HS0, HS1, HV0, HV1⟩
  isplitl [HB]; · iexact HB
  isplitl [HV0]; · iexact HV0
  isplitl [HV1]; · iexact HV1
  isplitl [HS0]; · iexact HS0
  iexact HS1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (xRd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_dev_eq {a b : Dev nD} {j k : Fin 5} (h : kcell (a, j) = kcell (b, k)) : a = b :=
  Fin.ext (congrArg (fun g : GSem nD τ sig => g.1.1.val) h)

theorem peer_eq_iff {d c : Dev nD} : peer d = c ↔ d = peer c :=
  ⟨fun h => by rw [← h, peer_peer], fun h => by rw [h, peer_peer]⟩

/-- What device d owes device c's barrier cell: one unit when d is c's partner. -/
theorem owed_bar (d c : Dev nD) : O₀ d (barCell c) () = if d = peer c then 1 else 0 := by
  unfold O₀ O₁
  rw [Pi.add_apply, Finsupp.add_apply, Pi.add_apply, Finsupp.add_apply,
    tallyAt_ne_cell (g := recvCell1 (peer d)) (fun h => csem_ne (j := 0) (k := 4) (by decide) (congrArg Prod.snd h)),
    tallyAt_ne_cell (g := recvCell0 (peer d)) (fun h => csem_ne (j := 0) (k := 3) (by decide) (congrArg Prod.snd h)),
    tallyAt_apply]
  simp only [Finsupp.zero_apply, Nat.zero_add, Nat.add_zero]
  by_cases h : d = peer c
  · subst h; rw [peer_peer, if_pos ⟨rfl, trivial⟩, if_pos rfl]
  · rw [if_neg (fun h' => h (peer_eq_iff.mp (cell_dev_eq h'.1).symm)), if_neg h]

/-- What device d owes device c's first receive cell: one half's credit when d is c's partner. -/
theorem owed_recv0 (d c : Dev nD) : O₀ d (recvCell0 c) () = if d = peer c then N else 0 := by
  unfold O₀ O₁
  rw [Pi.add_apply, Finsupp.add_apply, Pi.add_apply, Finsupp.add_apply,
    tallyAt_ne_cell (g := recvCell1 (peer d)) (fun h => csem_ne (j := 3) (k := 4) (by decide) (congrArg Prod.snd h)),
    tallyAt_ne_cell (g := barCell (peer d)) (fun h => csem_ne (j := 3) (k := 0) (by decide) (congrArg Prod.snd h)),
    tallyAt_apply]
  simp only [Finsupp.zero_apply, Nat.zero_add, Nat.add_zero]
  by_cases h : d = peer c
  · subst h; rw [peer_peer, if_pos ⟨rfl, trivial⟩, if_pos rfl]
  · rw [if_neg (fun h' => h (peer_eq_iff.mp (cell_dev_eq h'.1).symm)), if_neg h]

/-- The same of its second receive cell. -/
theorem owed_recv1 (d c : Dev nD) : O₀ d (recvCell1 c) () = if d = peer c then N else 0 := by
  unfold O₀ O₁
  rw [Pi.add_apply, Finsupp.add_apply, Pi.add_apply, Finsupp.add_apply,
    tallyAt_ne_cell (g := recvCell0 (peer d)) (fun h => csem_ne (j := 4) (k := 3) (by decide) (congrArg Prod.snd h)),
    tallyAt_ne_cell (g := barCell (peer d)) (fun h => csem_ne (j := 4) (k := 0) (by decide) (congrArg Prod.snd h)),
    tallyAt_apply]
  simp only [Finsupp.zero_apply, Nat.zero_add, Nat.add_zero]
  by_cases h : d = peer c
  · subst h; rw [peer_peer, if_pos ⟨rfl, trivial⟩, if_pos rfl]
  · rw [if_neg (fun h' => h (peer_eq_iff.mp (cell_dev_eq h'.1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv0 (c : Dev nD) :
    tallyOn (recvCell0 c) (launchCredit (Pipeline.owing O₀) 0 (recvCell0 c)) = (tallyAt (recvCell0 c) () N : CellTallies nD τ sig Unit) := by
  unfold tallyAt; refine congrArg _ (Finsupp.ext fun u => ?_); cases u
  rw [Pipeline.launchCredit_owing, Finsupp.single_eq_same, Finset.sum_congr rfl fun d _ => owed_recv0 d c,
    Finset.sum_ite_eq' Finset.univ (peer c) fun _ => N, if_pos (Finset.mem_univ _)]

theorem launch_recv1 (c : Dev nD) :
    tallyOn (recvCell1 c) (launchCredit (Pipeline.owing O₀) 0 (recvCell1 c)) = (tallyAt (recvCell1 c) () N : CellTallies nD τ sig Unit) := by
  unfold tallyAt; refine congrArg _ (Finsupp.ext fun u => ?_); cases u
  rw [Pipeline.launchCredit_owing, Finsupp.single_eq_same, Finset.sum_congr rfl fun d _ => owed_recv1 d c,
    Finset.sum_ite_eq' Finset.univ (peer c) fun _ => N, if_pos (Finset.mem_univ _)]

theorem bigSep_subset' {I : Type} [DecidableEq I] {s t : Finset I} (h : t ⊆ s) (Φ : I → sProp 𝕄) :
    bigSep s Φ ⊢ bigSep t Φ := BI.bigSep_subset h
theorem bigSep_insert' {I : Type} [DecidableEq I] {s : Finset I} {i : I} (hi : i ∉ s) (Φ : I → sProp 𝕄) :
    bigSep (insert i s) Φ = iprop(Φ i ∗ bigSep s Φ) := BI.bigSep_insert hi

/-- A device's launch credit: its barrier cell's unit and its two receive cells' credit, all owed by its partner. -/
theorem creds (c : Dev nD) :
    (Pipeline.launchCred O₀ c : sProp 𝕄) ⊢ iprop(cred (tallyAt (barCell c) () 1) ∗ cred (tallyAt (recvCell0 c) () N) ∗ cred (tallyAt (recvCell1 c) () N)) := by
  rw [← launch_bar, ← launch_recv0, ← launch_recv1]
  unfold Pipeline.launchCred
  refine (bigSep_subset' (s := Finset.univ) (t := {SemLoc.reg barS, SemLoc.dma recvS0, SemLoc.dma recvS1}) (Finset.subset_univ _) _).trans ?_
  rw [bigSep_insert' (i := SemLoc.reg barS) (s := {SemLoc.dma recvS0, SemLoc.dma recvS1}) (by decide),
    bigSep_insert' (i := SemLoc.dma recvS0) (s := {SemLoc.dma recvS1}) (by decide), bigSep_singleton]

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hs0, Hs1⟩
  isplitl [Hs]; · iexact Hs
  isplitl [Hs0]; · iexact Hs0
  iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨Hs, Hr, HzS0, HzS1, HzV0, HzV1⟩
  isplitr; · iempintro
  isplitl [HzS0 HzS1 HzV0 HzV1]
  · isplitl [HzS0]; · iexact HzS0
    isplitl [HzS1]; · iexact HzS1
    isplitl [HzV0] <;> iassumption
  isplitl [Hs] <;> iassumption

/-- The pipeline's own waits are on the staging semaphores, at level 0: allowed whatever the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: given the body
    obligation of every device, every weakly fair execution of the program — the devices signalling their partners'
    barrier semaphores, then exchanging the two halves of their narrowed blocks — terminates, and every final state has
    each device's two arrays at the contents the proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the window's block is the whole array and the one point writes it back, so it
    holds what the body left in the staging buffer. -/
theorem finalA_out (c : Dev nD) : finalA m ρ c (1 : Fin 2) = outAt m ρ c := by
  have h := (dats (F := F) m ρ 0 c).arrAt_succ (1 : Fin 2) t₀
  rw [flush0_1 t₀, if_pos rfl] at h
  refine (show finalA m ρ c (1 : Fin 2) = (dats (F := F) m ρ 0 c).arrAt (1 : Fin 2) (t₀.val + 1) from rfl).trans (h.trans ?_)
  exact Memref.write_access_unit_zero_univ (Elt F) main_v1 (off := fun a => win0_1.index t₀ a * win0_1.size a) (funext fun a => Nat.zero_mul _) _ _ _

/-- info: 'Cert.Kernel.Exch.run_main' depends on axioms: [propext, Classical.choice, Quot.sound] -/
#guard_msgs in #print axioms run_main

end Cert.Kernel.Exch

end
-- ==== Proof.LandValue.lean ====
/-
  What a copy of one half lands, and what a half of the send buffer holds after the two stores.

  A half of a scratch buffer is named twice: as the rectangle of rows the vector loads and stores go through, and as
  that rectangle with its unit axis dropped, which is what a copy moves. Dropping the axis keeps every element at
  its place and only counts the indices differently, so writing through the second name what was read through the
  second name of another buffer, and reading back through the first name, gives what the first name reads off the
  other buffer. The two halves of the send buffer are disjoint, so after the two stores each half reads its own
  store's payload.
-/
import proofs.«900715_g7700000000000716_dist_ar_v7x_xyz2x2x4_y_m256_n256_f32_1_alg».proof.Proof.Sched
import Idealize.ShloMosaic.Lib.Pipeline.Value

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Writing through a reshaped view, reading through the view itself -/

/-- A reshaped view places index y where the view places the index with the same row-major position, so a
    write through the reshaped view is read back through the view itself at that index. -/
theorem read_write_reshape {sg : RefSig} {κ : Kind} {sp : Space} {s s' : Shape} {e : EltTy} {Val : EltTy → Type}
    (v : View sg κ sp s e) (h : s'.numel = s.numel) (fd : v.ty.Contents Val) (w : s'.Idx → Val e) (x : s.Idx) :
    v.read Val ((v.reshape s' h).write Val fd w Finset.univ) x = w ((Shape.reshapeEquiv h).symm x) := by
  have hx : v.emb x = (v.reshape s' h).emb ((Shape.reshapeEquiv h).symm x) := by
    show v.emb x = v.emb (Shape.reshapeEquiv h ((Shape.reshapeEquiv h).symm x))
    rw [Equiv.apply_symm_apply]
  rw [View.read_apply, hx, View.write_emb_of_mem (v := v.reshape s' h) fd w (Finset.mem_univ _), cast_cast, cast_eq]

/-- A read through a reshaped view is the view's own read at the index with the same row-major position. -/
theorem read_reshape {sg : RefSig} {κ : Kind} {sp : Space} {s s' : Shape} {e : EltTy} {Val : EltTy → Type}
    (v : View sg κ sp s e) (h : s'.numel = s.numel) (fs : v.ty.Contents Val) (y : s'.Idx) :
    (v.reshape s' h).read Val fs y = v.read Val fs (Shape.reshapeEquiv h y) := rfl

/-- Two views under ONE reshape: what the second reads, written through the first reshaped and read back
    through the first, is what the second reads — index for index. -/
theorem read_write_read_reshape {sg : RefSig} {κ : Kind} {sp : Space} {s s' : Shape} {e : EltTy} {Val : EltTy → Type}
    (v v' : View sg κ sp s e) (h : s'.numel = s.numel) (fd : v.ty.Contents Val) (fs : v'.ty.Contents Val) :
    v.read Val ((v.reshape s' h).write Val fd ((v'.reshape s' h).read Val fs) Finset.univ) = v'.read Val fs := by
  funext x
  rw [read_write_reshape, read_reshape, Equiv.apply_symm_apply]

/-! ## What a copy of one half lands -/

theorem land_read0 (fs : (cc0_scratch0 : Ref sig .tc).ty.Contents (Elt F)) (fd : (cc0_scratch1 : Ref sig .tc).ty.Contents (Elt F)) :
    (rM : Memref sig .tc .vmem S2x128x256 .bf16).view.readAt (Elt F) rc0.toLoadRect ((rH0 : Memref sig .tc .vmem S128x256 .bf16).view.write (Elt F) fd ((sH0 : Memref sig .tc .vmem S128x256 .bf16).view.read (Elt F) fs) Finset.univ)
      = (sM : Memref sig .tc .vmem S2x128x256 .bf16).view.readAt (Elt F) rc0.toLoadRect fs :=
  read_write_read_reshape (Val := Elt F) ((rM : Memref sig .tc .vmem S2x128x256 .bf16).view.slice rc0) ((sM : Memref sig .tc .vmem S2x128x256 .bf16).view.slice rc0) _ fd fs

theorem land_read1 (fs : (cc0_scratch0 : Ref sig .tc).ty.Contents (Elt F)) (fd : (cc0_scratch1 : Ref sig .tc).ty.Contents (Elt F)) :
    (rM : Memref sig .tc .vmem S2x128x256 .bf16).view.readAt (Elt F) rc1.toLoadRect ((rH1 : Memref sig .tc .vmem S128x256 .bf16).view.write (Elt F) fd ((sH1 : Memref sig .tc .vmem S128x256 .bf16).view.read (Elt F) fs) Finset.univ)
      = (sM : Memref sig .tc .vmem S2x128x256 .bf16).view.readAt (Elt F) rc1.toLoadRect fs :=
  read_write_read_reshape (Val := Elt F) ((rM : Memref sig .tc .vmem S2x128x256 .bf16).view.slice rc1) ((sM : Memref sig .tc .vmem S2x128x256 .bf16).view.slice rc1) _ fd fs

/-! ## What a half of the send buffer holds after the two stores -/

/-- The second store goes through the other half: the first half still reads the first store's payload. -/
theorem stored_read0 (f0 : (cc0_scratch0 : Ref sig .tc).ty.Contents (Elt F)) (a b : FVec F S1x128x256 .bf16) :
    (sM : Memref sig .tc .vmem S2x128x256 .bf16).view.readAt (Elt F) rc0.toLoadRect (((sM : Memref sig .tc .vmem S2x128x256 .bf16).access rc1).write (Elt F) (((sM : Memref sig .tc .vmem S2x128x256 .bf16).access rc0).write (Elt F) f0 a Finset.univ) b Finset.univ) = a := by
  show ((View.whole cc0_scratch0 : View sig .tc _ _ _).slice rc0).read (Elt F)
      (((View.whole cc0_scratch0 : View sig .tc _ _ _).slice rc1).write (Elt F)
        (((View.whole cc0_scratch0 : View sig .tc _ _ _).slice rc0).write (Elt F) f0 a Finset.univ) b Finset.univ) = a
  refine (View.read_slice_write_slice_of_disjoint (Val := Elt F) (v := (View.whole cc0_scratch0 : View sig .tc _ _ _)) rc0 rc1 _ b Finset.univ ?_).trans ?_
  · rw [View.setOn_univ, View.set_slice_whole, View.set_slice_whole]; exact rc_disjoint
  · exact View.read_write_univ (Val := Elt F) (v := (View.whole cc0_scratch0 : View sig .tc _ _ _).slice rc0) f0 a

/-- The second half reads the second store's payload. -/
theorem stored_read1 (f0 : (cc0_scratch0 : Ref sig .tc).ty.Contents (Elt F)) (a b : FVec F S1x128x256 .bf16) :
    (sM : Memref sig .tc .vmem S2x128x256 .bf16).view.readAt (Elt F) rc1.toLoadRect (((sM : Memref sig .tc .vmem S2x128x256 .bf16).access rc1).write (Elt F) (((sM : Memref sig .tc .vmem S2x128x256 .bf16).access rc0).write (Elt F) f0 a Finset.univ) b Finset.univ) = b := by
  show ((View.whole cc0_scratch0 : View sig .tc _ _ _).slice rc1).read (Elt F)
      (((View.whole cc0_scratch0 : View sig .tc _ _ _).slice rc1).write (Elt F)
        (((View.whole cc0_scratch0 : View sig .tc _ _ _).slice rc0).write (Elt F) f0 a Finset.univ) b Finset.univ) = b
  exact View.read_write_univ (Val := Elt F) (v := (View.whole cc0_scratch0 : View sig .tc _ _ _).slice rc1) _ b

/-- info: 'Cert.KernelIdeal.Exch.land_read0' depends on axioms: [propext, Classical.choice, Quot.sound] -/
#guard_msgs in #print axioms land_read0

/-- info: 'Cert.KernelIdeal.Exch.land_read1' depends on axioms: [propext, Classical.choice, Quot.sound] -/
#guard_msgs in #print axioms land_read1

/-- info: 'Cert.KernelIdeal.Exch.stored_read0' depends on axioms: [propext, Classical.choice, Quot.sound] -/
#guard_msgs in #print axioms stored_read0

/-- info: 'Cert.KernelIdeal.Exch.stored_read1' depends on axioms: [propext, Classical.choice, Quot.sound] -/
#guard_msgs in #print axioms stored_read1

end Cert.KernelIdeal.Exch

end
-- ==== Proof.OutValue.lean ====
/-
  The value of the result buffer of the pairwise exchange, index by index.

  The two stores of a device go through the two halves of its result buffer: rows 0..127 and rows 128..255.
  The halves are disjoint and cover the buffer, so after both stores every element holds what its half's store
  wrote there, whatever the buffer held before. At the ideal instance narrowing and widening are the identity
  and the shape casts keep the row-major position, so the element at (p, q) is the device's own x at (p, q)
  plus its partner's x at (p, q).
-/
import proofs.«900715_g7700000000000716_dist_ar_v7x_xyz2x2x4_y_m256_n256_f32_1_alg».proof.Proof.Exch
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Exch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The two halves of the result buffer -/

/-- Rows 0..127: an index lies in the first half exactly when its row is below 128. -/
theorem mem_rx0 (i : S256x256.Idx) : i ∈ rx0.set ↔ (i 0).val < 128 := by
  rw [Rect.mem_set_unit]
  constructor
  · intro h; have := (h 0).2; simpa using this
  · intro h a
    match a with
    | ⟨0, _⟩ => exact ⟨Nat.zero_le _, by show (i 0).val < 0 + 128; omega⟩
    | ⟨1, _⟩ => exact ⟨Nat.zero_le _, by have := (i 1).isLt; show (i 1).val < 0 + 256; simpa using this⟩

/-- Rows 128..255: an index lies in the second half exactly when its row is 128 or more. -/
theorem mem_rx1 (i : S256x256.Idx) : i ∈ rx1.set ↔ 128 ≤ (i 0).val := by
  rw [Rect.mem_set_unit]
  constructor
  · intro h; have := (h 0).1; simpa using this
  · intro h a
    match a with
    | ⟨0, _⟩ => exact ⟨h, by have := (i 0).isLt; show (i 0).val < 128 + 128; simpa using this⟩
    | ⟨1, _⟩ => exact ⟨Nat.zero_le _, by have := (i 1).isLt; show (i 1).val < 0 + 256; simpa using this⟩

/-- The element sets of the two stores are the two halves. -/
theorem set_o0 : ((oM : Memref sig .tc .vmem S256x256 .f32).access rx0).set = rx0.set := View.set_slice_whole _ _
theorem set_o1 : ((oM : Memref sig .tc .vmem S256x256 .f32).access rx1).set = rx1.set := View.set_slice_whole _ _

/-- The halves are disjoint … -/
theorem rx_disjoint : Disjoint rx0.set rx1.set := Rect.unit_disjoint 0 (.inl (Nat.le_refl _))

/-- … and cover the buffer. -/
theorem rx_cover (i : S256x256.Idx) : i ∈ rx0.set ∨ i ∈ rx1.set := by
  rw [mem_rx0, mem_rx1]; omega

/-- After both stores an element of the first half holds what the first store wrote there: the second
    store goes through the other half and leaves it alone. -/
theorem outOver_emb0 (c : Dev nD) (g : (cc0_stg1_0 : Ref sig .tc).ty.Contents (Elt F)) (x : S128x256.Idx) :
    outOver m ρ c g (((oM : Memref sig .tc .vmem S256x256 .f32).access rx0).emb x)
      = _root_.cast (congrArg (Elt F) ((oM : Memref sig .tc .vmem S256x256 .f32).access rx0).elt_eq.symm) (sum0 m ρ c x) := by
  unfold outOver
  rw [View.write_of_not_mem, View.write_emb_of_mem _ _ (Finset.mem_univ x)]
  rw [View.setOn_univ, set_o1]
  have h0 : ((oM : Memref sig .tc .vmem S256x256 .f32).access rx0).emb x ∈ rx0.set := by
    rw [← set_o0]; exact View.emb_mem_set _ x
  exact fun h1 => Finset.disjoint_left.mp rx_disjoint h0 h1

/-- An element of the second half holds what the second store wrote there. -/
theorem outOver_emb1 (c : Dev nD) (g : (cc0_stg1_0 : Ref sig .tc).ty.Contents (Elt F)) (x : S128x256.Idx) :
    outOver m ρ c g (((oM : Memref sig .tc .vmem S256x256 .f32).access rx1).emb x)
      = _root_.cast (congrArg (Elt F) ((oM : Memref sig .tc .vmem S256x256 .f32).access rx1).elt_eq.symm) (sum1 m ρ c x) := by
  unfold outOver
  rw [View.write_emb_of_mem _ _ (Finset.mem_univ x)]

/-- the two stores cover the buffer: the result does not depend on what the buffer held (generic in F) -/
theorem outOver_indep (c : Dev nD) (g g' : (cc0_stg1_0 : Ref sig .tc).ty.Contents (Elt F)) :
    outOver m ρ c g = outOver m ρ c g' := by
  funext i
  rcases rx_cover i with h | h
  · obtain ⟨x, rfl⟩ := View.exists_emb_of_mem_set ((oM : Memref sig .tc .vmem S256x256 .f32).access rx0) (by rw [set_o0]; exact h)
    rw [outOver_emb0, outOver_emb0]
  · obtain ⟨x, rfl⟩ := View.exists_emb_of_mem_set ((oM : Memref sig .tc .vmem S256x256 .f32).access rx1) (by rw [set_o1]; exact h)
    rw [outOver_emb1, outOver_emb1]

/-! ## The staged block is the array; a load through a half reads that half's rows -/

/-- The window's one block is the whole array: device c's staged block of x is its x. -/
theorem xstg_eq (c : Dev nD) (i : S256x256.Idx) : xstg m ρ c i = m ((c : Thread nD τ).loc main_arg0) i := by
  unfold xstg
  exact congrFun (Memref.read_access_unit_zero (Elt F) main_arg0 (funext fun a => Nat.zero_mul _) _ _) i

/-- A load of the first half reads, at a half's index, the element under it. -/
theorem readAt_rx0 (f : (cc0_stg0_0 : Ref sig .tc).ty.Contents (Elt F)) (x : S128x256.Idx) :
    (xM : Memref sig .tc .vmem S256x256 .f32).view.readAt (Elt F) rx0.toLoadRect f x = f (rx0.emb x) := rfl

theorem readAt_rx1 (f : (cc0_stg0_0 : Ref sig .tc).ty.Contents (Elt F)) (x : S128x256.Idx) :
    (xM : Memref sig .tc .vmem S256x256 .f32).view.readAt (Elt F) rx1.toLoadRect f x = f (rx1.emb x) := rfl

/-! ## The result at the two halves' indices, by coordinates -/

/-- Row p < 128 of the result is row p of the first store's payload. -/
theorem outAt_lo (c : Dev nD) (p : Fin 128) (q : Fin 256) (hp : p.val < 256) :
    outAt m ρ c (ix2 (⟨p.val, hp⟩ : Fin 256) q) = sum0 m ρ c (ix2 p q) := by
  have he : (ix2 (⟨p.val, hp⟩ : Fin 256) q : S256x256.Idx) = ((oM : Memref sig .tc .vmem S256x256 .f32).access rx0).emb (ix2 p q) := by
    funext a; apply Fin.ext
    match a with
    | ⟨0, _⟩ => show p.val = 0 + 1 * p.val; omega
    | ⟨1, _⟩ => show q.val = 0 + 1 * q.val; omega
  unfold outAt
  rw [he, outOver_emb0]; rfl

/-- Row 128 + p of the result is row p of the second store's payload. -/
theorem outAt_hi (c : Dev nD) (p : Fin 128) (q : Fin 256) (hp : 128 + p.val < 256) :
    outAt m ρ c (ix2 (⟨128 + p.val, hp⟩ : Fin 256) q) = sum1 m ρ c (ix2 p q) := by
  have he : (ix2 (⟨128 + p.val, hp⟩ : Fin 256) q : S256x256.Idx) = ((oM : Memref sig .tc .vmem S256x256 .f32).access rx1).emb (ix2 p q) := by
    funext a; apply Fin.ext
    match a with
    | ⟨0, _⟩ => show 128 + p.val = 128 + 1 * p.val; omega
    | ⟨1, _⟩ => show q.val = 0 + 1 * q.val; omega
  unfold outAt
  rw [he, outOver_emb1]; rfl

/-! ## The payloads at the ideal instance -/

section AtIdeal

variable (m : (ℓ : Loc nD τ sig) → Buf (Elt Ideal) ℓ) (ρ : Dev nD → PrngReg)

/-- Narrowing and widening are the identity on extended reals and the shape casts there and back cancel: the
    first store's payload at an index is the device's own element plus its partner's. -/
theorem sum0_apply (c : Dev nD) (x : S128x256.Idx) :
    (show EReal from sum0 (F := Ideal) m ρ c x)
      = (show EReal from xstg (F := Ideal) m ρ c (rx0.emb x)) + (show EReal from xstg (F := Ideal) m ρ (peer c) (rx0.emb x)) := by
  unfold sum0 half0 k0_pay4 k0_pay2
  simp only [shapeCast_self, shapeCast_shapeCast]
  rfl

theorem sum1_apply (c : Dev nD) (x : S128x256.Idx) :
    (show EReal from sum1 (F := Ideal) m ρ c x)
      = (show EReal from xstg (F := Ideal) m ρ c (rx1.emb x)) + (show EReal from xstg (F := Ideal) m ρ (peer c) (rx1.emb x)) := by
  unfold sum1 half1 k0_pay1 k0_pay3
  simp only [shapeCast_self, shapeCast_shapeCast]
  rfl

end AtIdeal

/-! ## The result, entry by entry -/

/-- at the ideal instance the result on device c is, entry by entry, its own block of x plus its partner's (narrowing and widening are the identity there) -/
theorem outAt_apply (m : (ℓ : Loc nD τ sig) → Buf (Elt Ideal) ℓ) (ρ : Dev nD → PrngReg) (c : Dev nD) (i : S256x256.Idx) :
    (show EReal from outAt (F := Ideal) m ρ c i)
      = (show EReal from m ((c : Thread nD τ).loc main_arg0) i) + (show EReal from m ((peer c : Thread nD τ).loc main_arg0) i) := by
  obtain ⟨p, q, rfl⟩ : ∃ (p : Fin 256) (q : Fin 256), i = ix2 p q := ⟨i 0, i 1, eq_ix2 i⟩
  by_cases hp : p.val < 128
  · -- the first half: row p of the first store's payload
    have hr : rx0.emb (ix2 (⟨p.val, hp⟩ : Fin 128) q) = (ix2 p q : S256x256.Idx) := by
      funext a; apply Fin.ext
      match a with
      | ⟨0, _⟩ => show 0 + 1 * p.val = p.val; omega
      | ⟨1, _⟩ => show 0 + 1 * q.val = q.val; omega
    have h1 : outAt (F := Ideal) m ρ c (ix2 p q) = sum0 (F := Ideal) m ρ c (ix2 (⟨p.val, hp⟩ : Fin 128) q) :=
      outAt_lo m ρ c ⟨p.val, hp⟩ q p.isLt
    rw [h1]
    refine (sum0_apply m ρ c _).trans ?_
    rw [hr, xstg_eq, xstg_eq]
  · -- the second half: row p - 128 of the second store's payload
    have hlt : p.val - 128 < 128 := by have := p.isLt; omega
    have hp' : 128 + (⟨p.val - 128, hlt⟩ : Fin 128).val < 256 := by show 128 + (p.val - 128) < 256; have := p.isLt; omega
    have hpe : (⟨128 + (⟨p.val - 128, hlt⟩ : Fin 128).val, hp'⟩ : Fin 256) = p := Fin.ext (by show 128 + (p.val - 128) = p.val; omega)
    have hr : rx1.emb (ix2 (⟨p.val - 128, hlt⟩ : Fin 128) q) = (ix2 p q : S256x256.Idx) := by
      funext a; apply Fin.ext
      match a with
      | ⟨0, _⟩ => show 128 + 1 * (p.val - 128) = p.val; omega
      | ⟨1, _⟩ => show 0 + 1 * q.val = q.val; omega
    have h1 : outAt (F := Ideal) m ρ c (ix2 p q) = sum1 (F := Ideal) m ρ c (ix2 (⟨p.val - 128, hlt⟩ : Fin 128) q) := by
      have := outAt_hi m ρ c ⟨p.val - 128, hlt⟩ q hp'
      rwa [hpe] at this
    rw [h1]
    refine (sum1_apply m ρ c _).trans ?_
    rw [hr, xstg_eq, xstg_eq]

/-- info: 'Cert.KernelIdeal.Exch.outOver_indep' depends on axioms: [propext, Classical.choice, Quot.sound] -/
#guard_msgs in #print axioms outOver_indep

/-- info: 'Cert.KernelIdeal.Exch.outAt_apply' depends on axioms: [propext, Classical.choice, Quot.sound] -/
#guard_msgs in #print axioms outAt_apply

end Cert.KernelIdeal.Exch

end
-- ==== Proof.Body.lean ====
/-
  The body of one device, from the exchange's ghost state at the start of the grid's one point to its exit.

  In program order: the signal to the partner's barrier cell hands over this device's whole receive buffer; the block of x
  is narrowed into the two halves of the send buffer; the wait on the own barrier cell brings the partner's receive buffer,
  which is cut into its two halves; each copy pays the own send cell with its half of the send buffer and the partner's
  receive cell with the half of the partner's receive buffer holding what was stored in the same half of the send buffer
  (a copy through the reshaped half lands, read through the half itself, what the source half reads); each wait on a
  receive cell brings a landed half, which reads as the partner's narrowed rows; these are widened and added to the own
  rows and stored into the result buffer's two halves, which cover it; the waits on the send cells bring the send buffer
  back; the four own cells close at zero.
-/
import proofs.«900715_g7700000000000716_dist_ar_v7x_xyz2x2x4_y_m256_n256_f32_1_alg».proof.Proof.Data
import proofs.«900715_g7700000000000716_dist_ar_v7x_xyz2x2x4_y_m256_n256_f32_1_alg».proof.Proof.LandValue
import proofs.«900715_g7700000000000716_dist_ar_v7x_xyz2x2x4_y_m256_n256_f32_1_alg».proof.Proof.OutValue

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting a two-half buffer and putting it back -/

omit [FloatOps F] in
theorem split_s (c : Dev nD) (f : Buf (Elt F) (sLoc c)) :
    (sLoc c ↦{fullShare} f : sProp 𝕄) ⊣⊢ iprop((sLoc c ↦[rc0.set]{fullShare} f) ∗ (sLoc c ↦[rc1.set]{fullShare} f)) := by
  have h := pointsTo_split_subset (Val := Elt F) (Ix := Unit) (Name := ℕ) (U := UU) (Lvl := ℕ) (ℓ := sLoc c) (q := fullShare) (f := f) (Finset.subset_univ (rc0.set : Finset (Idx (sLoc c))))
  rw [show (Finset.univ \ rc0.set : Finset (Idx (sLoc c))) = rc1.set from rc_compl] at h
  exact h
omit [FloatOps F] in
theorem split_r (c : Dev nD) (f : Buf (Elt F) (rLoc c)) :
    (rLoc c ↦{fullShare} f : sProp 𝕄) ⊣⊢ iprop((rLoc c ↦[rc0.set]{fullShare} f) ∗ (rLoc c ↦[rc1.set]{fullShare} f)) := by
  have h := pointsTo_split_subset (Val := Elt F) (Ix := Unit) (Name := ℕ) (U := UU) (Lvl := ℕ) (ℓ := rLoc c) (q := fullShare) (f := f) (Finset.subset_univ (rc0.set : Finset (Idx (rLoc c))))
  rw [show (Finset.univ \ rc0.set : Finset (Idx (rLoc c))) = rc1.set from rc_compl] at h
  exact h
omit [FloatOps F] in
theorem join_s (c : Dev nD) (f g : Buf (Elt F) (sLoc c)) :
    iprop((sLoc c ↦[rc0.set]{fullShare} f) ∗ (sLoc c ↦[rc1.set]{fullShare} g)) ⊢ (∃ h : Buf (Elt F) (sLoc c), sLoc c ↦{fullShare} h : sProp 𝕄) := by
  have h := pointsTo_join (Val := Elt F) (Ix := Unit) (Name := ℕ) (U := UU) (Lvl := ℕ) (ℓ := sLoc c) (q := fullShare) (f := f) (g := g) (I := (rc0.set : Finset (Idx (sLoc c)))) (J := rc1.set) rc_disjoint
  rw [show ((rc0.set : Finset (Idx (sLoc c))) ∪ rc1.set) = Finset.univ from rc_union] at h
  iintro H; iexists _; iapply h; iexact H
omit [FloatOps F] in
theorem join_r (c : Dev nD) (f g : Buf (Elt F) (rLoc c)) :
    iprop((rLoc c ↦[rc0.set]{fullShare} f) ∗ (rLoc c ↦[rc1.set]{fullShare} g)) ⊢ (∃ h : Buf (Elt F) (rLoc c), rLoc c ↦{fullShare} h : sProp 𝕄) := by
  have h := pointsTo_join (Val := Elt F) (Ix := Unit) (Name := ℕ) (U := UU) (Lvl := ℕ) (ℓ := rLoc c) (q := fullShare) (f := f) (g := g) (I := (rc0.set : Finset (Idx (rLoc c)))) (J := rc1.set) rc_disjoint
  rw [show ((rc0.set : Finset (Idx (rLoc c))) ∪ rc1.set) = Finset.univ from rc_union] at h
  iintro H; iexists _; iapply h; iexact H

omit [FloatOps F] in
theorem sHalf0_eq (c : Dev nD) (f : Buf (Elt F) (sLoc c)) :
    ((sH0 : Memref sig .tc .vmem S128x256 .bf16).view.loc (c : Thread nD τ) ↦[(sH0 : Memref sig .tc .vmem S128x256 .bf16).view.set]{fullShare} f : sProp 𝕄)
      = (sLoc c ↦[rc0.set]{fullShare} f) := by rw [sH0_set]
omit [FloatOps F] in
theorem rHalf0_eq (c : Dev nD) (f : Buf (Elt F) (rLoc c)) :
    ((rH0 : Memref sig .tc .vmem S128x256 .bf16).view.loc (c : Thread nD τ) ↦[(rH0 : Memref sig .tc .vmem S128x256 .bf16).view.set]{fullShare} f : sProp 𝕄)
      = (rLoc c ↦[rc0.set]{fullShare} f) := by rw [rH0_set]
omit [FloatOps F] in
theorem sHalf1_eq (c : Dev nD) (f : Buf (Elt F) (sLoc c)) :
    ((sH1 : Memref sig .tc .vmem S128x256 .bf16).view.loc (c : Thread nD τ) ↦[(sH1 : Memref sig .tc .vmem S128x256 .bf16).view.set]{fullShare} f : sProp 𝕄)
      = (sLoc c ↦[rc1.set]{fullShare} f) := by rw [sH1_set]
omit [FloatOps F] in
theorem rHalf1_eq (c : Dev nD) (f : Buf (Elt F) (rLoc c)) :
    ((rH1 : Memref sig .tc .vmem S128x256 .bf16).view.loc (c : Thread nD τ) ↦[(rH1 : Memref sig .tc .vmem S128x256 .bf16).view.set]{fullShare} f : sProp 𝕄)
      = (rLoc c ↦[rc1.set]{fullShare} f) := by rw [rH1_set]

section Wait
variable (K : Dev nD × Fin 5 → ℕ)

/-- A wait for the whole round of one of the device's own DMA cells, owing nothing: the cell moves to round 1 and its one
    duty's payload comes back. -/
theorem wp_wait_cell (c : Dev nD) (k : Fin 5) (hk0 : k ≠ 0) {w : TpuEff nD τ sig (Elt F) Λ₀ .tc PUnit}
    {n : ℕ} (hn : n = N)
    (hw : ∀ Kc : PUnit → sProp 𝕄, wpE (defs₀ (F := F)) 𝒱₀ (c : Thread nD τ) none Set.univ w Kc = waitSpec (c : Thread nD τ) Set.univ (csem k) n Kc)
    {α : Type} {Q : α → sProp 𝕄} {kk : PUnit → Prog (TpuEff nD τ sig (Elt F) Λ₀ .tc) α} (W : Waits sig Unit)
    (P : sProp 𝕄) (hP : (xRd (F := F) m ρ).payload (kcell (c, k)) 0 () = P) :
    iprop(cellInv ER (xRd m ρ) (K (c, k)) (kcell (c, k)) ∗ cred (tallyAt (kcell (c, k)) () N) ∗ owes (c : Thread nD τ) 0 W ∗ atPos ER (kcell (c, k)) 0 ∅ 0)
      ⊢ iprop(((owes (c : Thread nD τ) 0 (insert (csem k, ()) W) ∗ atPos ER (kcell (c, k)) (0 + 1) ∅ 0 ∗ reached ER (kcell (c, k)) (0 + 1)
              ∗ P) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hn
  have hrest : bigSep ((xRd (F := F) m ρ).duties (kcell (c, k)) 0 \ ∅) (fun d => (xRd (F := F) m ρ).payload (kcell (c, k)) 0 d)
      = P := by
    rw [Finset.sdiff_empty, duties_cell, bigSep_singleton, hP]
  iintro ⟨#HI, Hc, HO, Hat⟩ Hk
  iapply (Rounds.wp_wait_rest_token 𝒱₀ ER (xRd m ρ) (c : Thread nD τ) none (κ := K (c, k)) hw (Set.mem_univ _) () (O := 0) (W := W) (R := 0) (m := 0) (T := ∅)
      (by rw [Nat.zero_add, expect_dma m ρ c k hk0])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  iapply Hk
  isplitl [HO]; · iexact HO
  isplitl [Hat]; · iexact Hat
  isplitl [Hr]; · iexact Hr
  ihave Hpay := (Entails.of_eq hrest) $$ Hpay
  iexact Hpay

theorem wp_wait_recv0 (c : Dev nD) {hsrc : (sH0 : Memref sig .tc .vmem S128x256 .bf16).view.WordExact} {hdst : (rH0 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 3)) (kcell (c, 3)) ∗ cred (tallyAt (kcell (c, 3)) () N) ∗ owes (c : Thread nD τ) 0 W ∗ atPos ER (kcell (c, 3)) 0 ∅ 0)
      ⊢ iprop(((owes (c : Thread nD τ) 0 (insert (csem 3, ()) W) ∗ atPos ER (kcell (c, 3)) (0 + 1) ∅ 0 ∗ reached ER (kcell (c, 3)) (0 + 1)
              ∗ recvPay0 m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 recvS0 sH0 rH0 hsrc hdst) kk) Q) :=
  wp_wait_cell m ρ K c 3 (by decide) (Eq.refl N) (wpE_waitDma2_eq 𝒱₀ (c : Thread nD τ) none Set.univ) W (recvPay0 m ρ c) (payload_recv0 m ρ c ())

theorem wp_wait_recv1 (c : Dev nD) {hsrc : (sH1 : Memref sig .tc .vmem S128x256 .bf16).view.WordExact} {hdst : (rH1 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 4)) (kcell (c, 4)) ∗ cred (tallyAt (kcell (c, 4)) () N) ∗ owes (c : Thread nD τ) 0 W ∗ atPos ER (kcell (c, 4)) 0 ∅ 0)
      ⊢ iprop(((owes (c : Thread nD τ) 0 (insert (csem 4, ()) W) ∗ atPos ER (kcell (c, 4)) (0 + 1) ∅ 0 ∗ reached ER (kcell (c, 4)) (0 + 1)
              ∗ recvPay1 m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 recvS1 sH1 rH1 hsrc hdst) kk) Q) :=
  wp_wait_cell m ρ K c 4 (by decide) (N_r1) (wpE_waitDma2_eq 𝒱₀ (c : Thread nD τ) none Set.univ) W (recvPay1 m ρ c) (payload_recv1 m ρ c ())

theorem wp_wait_send0 (c : Dev nD) {hsrc : (rH0 : Memref sig .tc .vmem S128x256 .bf16).view.WordExact} {hdst : (sH0 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 1)) (kcell (c, 1)) ∗ cred (tallyAt (kcell (c, 1)) () N) ∗ owes (c : Thread nD τ) 0 W ∗ atPos ER (kcell (c, 1)) 0 ∅ 0)
      ⊢ iprop(((owes (c : Thread nD τ) 0 (insert (csem 1, ()) W) ∗ atPos ER (kcell (c, 1)) (0 + 1) ∅ 0 ∗ reached ER (kcell (c, 1)) (0 + 1)
              ∗ sendPay0 c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sendS0 rH0 sH0 hsrc hdst) kk) Q) :=
  wp_wait_cell m ρ K c 1 (by decide) (N_s0) (wpE_waitDma2_eq 𝒱₀ (c : Thread nD τ) none Set.univ) W (sendPay0 c) (payload_send0 m ρ c ())

theorem wp_wait_send1 (c : Dev nD) {hsrc : (rH1 : Memref sig .tc .vmem S128x256 .bf16).view.WordExact} {hdst : (sH1 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 2)) (kcell (c, 2)) ∗ cred (tallyAt (kcell (c, 2)) () N) ∗ owes (c : Thread nD τ) 0 W ∗ atPos ER (kcell (c, 2)) 0 ∅ 0)
      ⊢ iprop(((owes (c : Thread nD τ) 0 (insert (csem 2, ()) W) ∗ atPos ER (kcell (c, 2)) (0 + 1) ∅ 0 ∗ reached ER (kcell (c, 2)) (0 + 1)
              ∗ sendPay1 c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sendS1 rH1 sH1 hsrc hdst) kk) Q) :=
  wp_wait_cell m ρ K c 2 (by decide) (N_s1) (wpE_waitDma2_eq 𝒱₀ (c : Thread nD τ) none Set.univ) W (sendPay1 c) (payload_send1 m ρ c ())

end Wait

/-- The send buffer after the two stores, over contents f. -/
abbrev sbuf (c : Dev nD) (f : Buf (Elt F) (sLoc c)) : Buf (Elt F) (sLoc c) :=
  ((sM : Memref sig .tc .vmem S2x128x256 .bf16).access rc1).write (Elt F) (((sM : Memref sig .tc .vmem S2x128x256 .bf16).access rc0).write (Elt F) f (half0 m ρ c) Finset.univ) (half1 m ρ c) Finset.univ

/-- A returned unit bound to a continuation is the continuation. -/
theorem wp_ret_bind_unit (c : Dev nD) {α : Type} (k : PUnit.{1} → Prog (TpuEff nD τ sig (Elt F) Λ₀ .tc) α) (Q : α → sProp 𝕄) :
    wp frame (wpE (defs₀ (F := F)) 𝒱₀ (c : Thread nD τ) none) Set.univ (k ⟨⟩) Q
      ⊢ wp frame (wpE (defs₀ (F := F)) 𝒱₀ (c : Thread nD τ) none) Set.univ ((Prog.ret PUnit.unit).bind k) Q := BI.Entails.refl _

omit [FloatOps F] in
theorem setOn_rc0 : (rM : Memref sig .tc .vmem S2x128x256 .bf16).view.setOn rc0.toLoadRect.set = rc0.set :=
  (View.set_slice (View.whole cc0_scratch1) rc0).symm.trans (View.set_slice_whole cc0_scratch1 rc0)
omit [FloatOps F] in
theorem setOn_rc1 : (rM : Memref sig .tc .vmem S2x128x256 .bf16).view.setOn rc1.toLoadRect.set = rc1.set :=
  (View.set_slice (View.whole cc0_scratch1) rc1).symm.trans (View.set_slice_whole cc0_scratch1 rc1)

/-- The result buffer after the two stores is the device's result, whatever it held before. -/
theorem out_eq (c : Dev nD) (g : (cc0_stg1_0 : Ref sig .tc).ty.Contents (Elt F)) :
    (oM : Memref sig .tc .vmem S256x256 .f32).view.writes (Elt F) g
      [⟨rx1, k0_pay1 ((xM : Memref sig .tc .vmem S256x256 .f32).view.readAt (Elt F) rx1.toLoadRect (xstg m ρ c)) (half1 m ρ (peer c))⟩,
       ⟨rx0, k0_pay4 ((xM : Memref sig .tc .vmem S256x256 .f32).view.readAt (Elt F) rx0.toLoadRect (xstg m ρ c)) (half0 m ρ (peer c))⟩] = outAt m ρ c :=
  outOver_indep m ρ c g (xstg m ρ c)

section LoadLanded

/-- The load of a landed half through its cell's payload: the value read is the half the partner stored, and the half
    of the receive buffer comes back at some contents. -/
theorem wp_load_recv0 (c : Dev nD) {hl : (rM : Memref sig .tc .vmem S2x128x256 .bf16).view.LoadsAt rc0.toLoadRect} {α : Type} {Q : α → sProp 𝕄}
    {k : (rc0.toLoadRect.shape.Idx → Elt F .bf16) → Prog (TpuEff nD τ sig (Elt F) Λ₀ .tc) α} :
    (recvPay0 m ρ c : sProp 𝕄)
      ⊢ iprop(((∃ f : Buf (Elt F) (rLoc c), rLoc c ↦[rc0.set]{fullShare} f) -∗ wp frame (wpE (defs₀ (F := F)) 𝒱₀ (c : Thread nD τ) none) Set.univ (k (half0 m ρ (peer c))) Q)
          -∗ wp frame (wpE (defs₀ (F := F)) 𝒱₀ (c : Thread nD τ) none) Set.univ (.op (.load (rM : Memref sig .tc .vmem S2x128x256 .bf16) rc0.toLoadRect hl) k) Q) := by
  unfold recvPay0
  iintro ⟨%f, Hr, %hf⟩ Hk
  iapply (wp_load 𝒱₀ (c : Thread nD τ) none Set.univ (m := rM) (S := rc0.set) (f := f) (subset_of_eq setOn_rc0)) $$ Hr; iintro Hr
  rw [hf]
  iapply Hk
  iexists f; iexact Hr

theorem wp_load_recv1 (c : Dev nD) {hl : (rM : Memref sig .tc .vmem S2x128x256 .bf16).view.LoadsAt rc1.toLoadRect} {α : Type} {Q : α → sProp 𝕄}
    {k : (rc1.toLoadRect.shape.Idx → Elt F .bf16) → Prog (TpuEff nD τ sig (Elt F) Λ₀ .tc) α} :
    (recvPay1 m ρ c : sProp 𝕄)
      ⊢ iprop(((∃ f : Buf (Elt F) (rLoc c), rLoc c ↦[rc1.set]{fullShare} f) -∗ wp frame (wpE (defs₀ (F := F)) 𝒱₀ (c : Thread nD τ) none) Set.univ (k (half1 m ρ (peer c))) Q)
          -∗ wp frame (wpE (defs₀ (F := F)) 𝒱₀ (c : Thread nD τ) none) Set.univ (.op (.load (rM : Memref sig .tc .vmem S2x128x256 .bf16) rc1.toLoadRect hl) k) Q) := by
  unfold recvPay1
  iintro ⟨%f, Hr, %hf⟩ Hk
  iapply (wp_load 𝒱₀ (c : Thread nD τ) none Set.univ (m := rM) (S := rc1.set) (f := f) (subset_of_eq setOn_rc1)) $$ Hr; iintro Hr
  rw [hf]
  iapply Hk
  iexists f; iexact Hr

omit [FloatOps F] in
theorem join_r' (c : Dev nD) :
    iprop((∃ f : Buf (Elt F) (rLoc c), rLoc c ↦[rc0.set]{fullShare} f) ∗ (∃ g : Buf (Elt F) (rLoc c), rLoc c ↦[rc1.set]{fullShare} g))
      ⊢ (∃ h : Buf (Elt F) (rLoc c), rLoc c ↦{fullShare} h : sProp 𝕄) := by
  iintro ⟨⟨%f, Hf⟩, ⟨%g, Hg⟩⟩
  iapply (join_r c f g)
  isplitl [Hf] <;> iassumption

omit [FloatOps F] in
/-- The two send cells' payloads are the two halves of the send buffer: together the buffer whole at some contents. -/
theorem send_join (c : Dev nD) :
    iprop((sendPay0 c : sProp 𝕄) ∗ sendPay1 c)
      ⊢ (∃ h : Buf (Elt F) (sLoc c), sLoc c ↦{fullShare} h : sProp 𝕄) := by
  unfold sendPay0 sendPay1
  iintro ⟨⟨%f, Hf⟩, ⟨%g, Hg⟩⟩
  iapply (join_s c f g)
  isplitl [Hf] <;> iassumption

end LoadLanded

section Send
variable (K : Dev nD × Fin 5 → ℕ)

set_option maxHeartbeats 1600000 in
/-- The copy of half 0 to the partner, at the exchange's cells: the partner's receive-0 duty is paid with that half of its
    receive buffer holding what this device stored in the same half of its send buffer. -/
theorem wp_send_half0 (c n : Dev nD) (hn : n = peer c)
    {hsc : (rH0 : Memref sig (Dev.tc n : Thread nD τ).2.kind .vmem S128x256 .bf16).view.ref.isScScratch = false}
    {hsrc : (sH0 : Memref sig .tc .vmem S128x256 .bf16).view.WordExact} {hdst : (rH0 : Memref sig .tc .vmem S128x256 .bf16).view.WordExact}
    {hsem : DmaTarget.Typed .vmem (.dma recvS0) (.remote (Dev.tc n : Thread nD τ) (rH0 : Memref sig .tc .vmem S128x256 .bf16) (.dma sendS0) hsc)}
    {α : Type} {Q : α → sProp 𝕄} {k : PUnit → Prog (TpuEff nD τ sig (Elt F) Λ₀ .tc) α}
    (fs : Buf (Elt F) (sLoc c)) (fd : Buf (Elt F) (rLoc (peer c)))
    (hfs : (sM : Memref sig .tc .vmem S2x128x256 .bf16).view.readAt (Elt F) rc0.toLoadRect fs = half0 m ρ c)
    (O : CellTallies nD τ sig Unit) (W : Waits sig Unit) :
    iprop(cellInv ER (xRd m ρ) (K (c, 1)) (sendCell0 c) ∗ cellInv ER (xRd m ρ) (K (peer c, 3)) (recvCell0 (peer c))
        ∗ (sLoc c ↦[rc0.set]{fullShare} fs) ∗ (rLoc (peer c) ↦[rc0.set]{fullShare} fd)
        ∗ owes (c : Thread nD τ) (O + tallyAt (recvCell0 (peer c)) () N) W
        ∗ dutyTok ER (sendCell0 c) 0 () ∗ reached ER (sendCell0 c) 0
        ∗ dutyTok ER (recvCell0 (peer c)) 0 () ∗ reached ER (recvCell0 (peer c)) 0)
      ⊢ iprop(((cred (tallyAt (sendCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH0 (.remote (Dev.tc n : Thread nD τ) rH0 (.dma sendS0) hsc) (.dma recvS0) hsrc hdst hsem) k) Q) := by
  subst hn
  rw [← sHalf0_eq, ← rHalf0_eq]
  exact Rounds.wp_send_pointsTo 𝒱₀ ER (xRd m ρ) (c : Thread nD τ) none (c' := (peer c : Thread nD τ))
    (src := (sH0 : Memref sig .tc .vmem S128x256 .bf16)) (dst := (rH0 : Memref sig .tc .vmem S128x256 .bf16))
    (sS := .dma sendS0) (sem := .dma recvS0) (q := fullShare) (κ₁ := K (c, 1)) (κ₂ := K (peer c, 3))
    (r₁ := 0) (r₂ := 0) (d₁ := ()) (d₂ := ()) (fs := fs) (fd := fd)
    (mem_duties m ρ c 1) (mem_duties m ρ (peer c) 3)
    () () N rfl (amount_dma m ρ c 1 (by decide) ()) (amount_dma m ρ (peer c) 3 (by decide) ()) O rfl (W := W)
    (by rw [payload_send0, sHalf0_eq]; unfold sendPay0; iintro H; iexists fs; iexact H)
    (by
      rw [payload_recv0, rHalf0_eq]; unfold recvPay0; rw [peer_peer]
      iintro H; iexists _
      isplitl [H]; · iexact H
      ipureintro; rw [land_read0]; exact hfs)

set_option maxHeartbeats 1600000 in
/-- The copy of half 1 to the partner, at the exchange's cells: the partner's receive-1 duty is paid with that half of its
    receive buffer holding what this device stored in the same half of its send buffer. -/
theorem wp_send_half1 (c n : Dev nD) (hn : n = peer c)
    {hsc : (rH1 : Memref sig (Dev.tc n : Thread nD τ).2.kind .vmem S128x256 .bf16).view.ref.isScScratch = false}
    {hsrc : (sH1 : Memref sig .tc .vmem S128x256 .bf16).view.WordExact} {hdst : (rH1 : Memref sig .tc .vmem S128x256 .bf16).view.WordExact}
    {hsem : DmaTarget.Typed .vmem (.dma recvS1) (.remote (Dev.tc n : Thread nD τ) (rH1 : Memref sig .tc .vmem S128x256 .bf16) (.dma sendS1) hsc)}
    {α : Type} {Q : α → sProp 𝕄} {k : PUnit → Prog (TpuEff nD τ sig (Elt F) Λ₀ .tc) α}
    (fs : Buf (Elt F) (sLoc c)) (fd : Buf (Elt F) (rLoc (peer c)))
    (hfs : (sM : Memref sig .tc .vmem S2x128x256 .bf16).view.readAt (Elt F) rc1.toLoadRect fs = half1 m ρ c)
    (O : CellTallies nD τ sig Unit) (W : Waits sig Unit) :
    iprop(cellInv ER (xRd m ρ) (K (c, 2)) (sendCell1 c) ∗ cellInv ER (xRd m ρ) (K (peer c, 4)) (recvCell1 (peer c))
        ∗ (sLoc c ↦[rc1.set]{fullShare} fs) ∗ (rLoc (peer c) ↦[rc1.set]{fullShare} fd)
        ∗ owes (c : Thread nD τ) (O + tallyAt (recvCell1 (peer c)) () N) W
        ∗ dutyTok ER (sendCell1 c) 0 () ∗ reached ER (sendCell1 c) 0
        ∗ dutyTok ER (recvCell1 (peer c)) 0 () ∗ reached ER (recvCell1 (peer c)) 0)
      ⊢ iprop(((cred (tallyAt (sendCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH1 (.remote (Dev.tc n : Thread nD τ) rH1 (.dma sendS1) hsc) (.dma recvS1) hsrc hdst hsem) k) Q) := by
  subst hn
  rw [← sHalf1_eq, ← rHalf1_eq]
  exact Rounds.wp_send_pointsTo 𝒱₀ ER (xRd m ρ) (c : Thread nD τ) none (c' := (peer c : Thread nD τ))
    (src := (sH1 : Memref sig .tc .vmem S128x256 .bf16)) (dst := (rH1 : Memref sig .tc .vmem S128x256 .bf16))
    (sS := .dma sendS1) (sem := .dma recvS1) (q := fullShare) (κ₁ := K (c, 2)) (κ₂ := K (peer c, 4))
    (r₁ := 0) (r₂ := 0) (d₁ := ()) (d₂ := ()) (fs := fs) (fd := fd)
    (mem_duties m ρ c 2) (mem_duties m ρ (peer c) 4)
    () () N rfl (amount_dma m ρ c 2 (by decide) ()) (amount_dma m ρ (peer c) 4 (by decide) ()) O rfl (W := W)
    (by rw [payload_send1, sHalf1_eq]; unfold sendPay1; iintro H; iexists fs; iexact H)
    (by
      rw [payload_recv1, rHalf1_eq]; unfold recvPay1; rw [peer_peer]
      iintro H; iexists _
      isplitl [H]; · iexact H
      ipureintro; rw [land_read1]; exact hfs)

end Send

section Body

theorem payload_bar_peer (c : Dev nD) (d : Unit) :
    (xRd (F := F) m ρ).payload (barCell (peer c)) 0 d
      = iprop((∃ f : Buf (Elt F) (rLoc c), (rM.view.loc (c : Thread nD τ) ↦[rM.view.set]{fullShare} f)) ∗ reached ER (recvCell0 c) 0 ∗ reached ER (recvCell1 c) 0) := by
  rw [payload_bar]; unfold barPay; rw [peer_peer]
  have h : (rM : Memref sig .tc _ _ _).view.set = Finset.univ := View.set_whole _
  rw [h]
theorem payload_bar_own (c : Dev nD) (d : Unit) :
    (xRd (F := F) m ρ).payload (barCell c) 0 d
      = iprop((∃ f : Buf (Elt F) (rLoc (peer c)), (rLoc (peer c)) ↦{fullShare} f) ∗ reached ER (recvCell0 (peer c)) 0 ∗ reached ER (recvCell1 (peer c)) 0) := by
  rw [payload_bar]; rfl

attribute [local sl_rounds] duties_cell amount_bar expect_bar payload_bar_own peer_peer
theorem expect_send0 (c : Dev nD) : (xRd (F := F) m ρ).expect (sendCell0 c) 0 = N := expect_dma m ρ c 1 (by decide)
theorem expect_send1 (c : Dev nD) : (xRd (F := F) m ρ).expect (sendCell1 c) 0 = N := expect_dma m ρ c 2 (by decide)
theorem expect_recv0 (c : Dev nD) : (xRd (F := F) m ρ).expect (recvCell0 c) 0 = N := expect_dma m ρ c 3 (by decide)
theorem expect_recv1 (c : Dev nD) : (xRd (F := F) m ρ).expect (recvCell1 c) 0 = N := expect_dma m ρ c 4 (by decide)
attribute [local sl_rounds] expect_send0 expect_send1 expect_recv0 expect_recv1
attribute [local sl_rounds high] payload_bar_peer

omit [FloatOps F] in
theorem whole_eq (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  have h : (Memref.whole b : Memref sig .tc _ _ _).view.set = Finset.univ := View.set_whole _
  rw [h]
attribute [local sl_canon] dev1_eq dev2_eq dev3_eq

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell0 c) () N) ∗ cred (tallyAt (recvCell1 c) () N) ∗ levAts L lv
      ∗ (∃ f : Buf (Elt F) (sLoc c), sLoc c ↦{fullShare} f) ∗ (∃ f : Buf (Elt F) (rLoc c), rLoc c ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost records linear payToks
  rw [bigSep_fin5]
  iintro ⟨⟨⟨⟨⟨#HI, #HR⟩, ⟨HatB, HatS0, HatS1, HatV0, HatV1⟩, HtB, HtV0, HtV1, HtS0, HtS1⟩, HcB, HcV0, HcV1, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave #HIb := (inv_at m ρ K (c, 0)) $$ HI
  ihave #HIbp := (inv_at m ρ K (peer c, 0)) $$ HI
  ihave #HRbp := (reached_at (F := F) (peer c, 0)) $$ HR
  ihave #HRv0 := (reached_at (F := F) (c, 3)) $$ HR
  ihave #HRv1 := (reached_at (F := F) (c, 4)) $$ HR
  unfold O₀
  ihave Hs := (Entails.of_eq (whole_eq c cc0_scratch0 fs0).symm) $$ Hs
  ihave Hr := (Entails.of_eq (whole_eq c cc0_scratch1 fr0).symm) $$ Hr
  ihave Hx := (Entails.of_eq (whole_eq c cc0_stg0_0 (xstg m ρ c)).symm) $$ Hx
  ihave Hout := (Entails.of_eq (whole_eq c cc0_stg1_0 g1).symm) $$ Hout
  have hmw := mayWait_bar (F := F) c
  sl_exec
  -- the two buffers cut into their halves
  ihave Hs := (Entails.of_eq (whole_eq c cc0_scratch0 _)) $$ Hs
  ihave Hs := (split_s c _).1 $$ Hs
  icases Hs with ⟨Hs0, Hs1⟩
  ihave Hp := (split_r (peer c) _).1 $$ HatB_pay1
  icases Hp with ⟨Hp0, Hp1⟩
  icases HatB_pay2 with #HRpv0
  icases HatB_pay3 with #HRpv1
  ihave #HRs0 := (reached_at (F := F) (c, 1)) $$ HR
  ihave #HRs1 := (reached_at (F := F) (c, 2)) $$ HR
  -- the copy of the first half
  iapply (wp_send_half0 m ρ K c _ (dev2_eq c) (sbuf m ρ c fs0) HatB_pay1_v (stored_read0 fs0 (half0 m ρ c) (half1 m ρ c))
      (tallyAt (recvCell1 (peer c)) () N) (insert (SemLoc.reg barS, ()) W)) $$ [Hs0 Hp0 HO HtS0 HtV0]
  · isplitr; · iapply (inv_at m ρ K (c, 1)); iexact HI
    isplitr; · iapply (inv_at m ρ K (peer c, 3)); iexact HI
    isplitl [Hs0]; · iexact Hs0
    isplitl [Hp0]; · iexact Hp0
    isplitl [HO]; · iexact HO
    isplitl [HtS0]; · iexact HtS0
    isplitr; · iexact HRs0
    isplitl [HtV0]; · iexact HtV0
    iexact HRpv0
  iintro ⟨HcS0, HO⟩
  -- the copy of the second half
  iapply (wp_send_half1 m ρ K c _ (dev3_eq c) (sbuf m ρ c fs0) HatB_pay1_v (stored_read1 fs0 (half0 m ρ c) (half1 m ρ c))
      0 (insert (SemLoc.reg barS, ()) W)) $$ [Hs1 Hp1 HO HtS1 HtV1]
  · isplitr; · iapply (inv_at m ρ K (c, 2)); iexact HI
    isplitr; · iapply (inv_at m ρ K (peer c, 4)); iexact HI
    isplitl [Hs1]; · iexact Hs1
    isplitl [Hp1]; · iexact Hp1
    isplitl [HO]; · rw [zero_add]; iexact HO
    isplitl [HtS1]; · iexact HtS1
    isplitr; · iexact HRs1
    isplitl [HtV1]; · iexact HtV1
    iexact HRpv1
  iintro ⟨HcS1, HO⟩
  iapply (wp_ret_bind_unit c)
  sl_exec
  -- the wait for the first half to land
  iapply (wp_wait_recv0 m ρ K c (insert (SemLoc.reg barS, ()) W)) $$ [HcV0 HO HatV0]
  · isplitr; · iapply (inv_at m ρ K (c, 3)); iexact HI
    isplitl [HcV0]; · iexact HcV0
    isplitl [HO]; · iexact HO
    iexact HatV0
  iintro ⟨HO, HatV0, -, Hpay0⟩
  sl_exec
  iapply (wp_load_recv0 m ρ c) $$ Hpay0; iintro Hr0
  sl_exec
  -- the wait for the second half to land
  iapply (wp_wait_recv1 m ρ K c (insert (csem 3, ()) (insert (SemLoc.reg barS, ()) W))) $$ [HcV1 HO HatV1]
  · isplitr; · iapply (inv_at m ρ K (c, 4)); iexact HI
    isplitl [HcV1]; · iexact HcV1
    isplitl [HO]; · iexact HO
    iexact HatV1
  iintro ⟨HO, HatV1, -, Hpay1⟩
  sl_exec
  iapply (wp_load_recv1 m ρ c) $$ Hpay1; iintro Hr1
  sl_exec
  -- the waits for the two copies to have read the send buffer
  iapply (wp_wait_send0 m ρ K c
      (insert (csem 4, ()) (insert (csem 3, ()) (insert (SemLoc.reg barS, ()) W)))) $$ [HcS0 HO HatS0]
  · isplitr; · iapply (inv_at m ρ K (c, 1)); iexact HI
    isplitl [HcS0]; · iexact HcS0
    isplitl [HO]; · iexact HO
    iexact HatS0
  iintro ⟨HO, HatS0, -, Hq0⟩
  iapply (wp_wait_send1 m ρ K c
      (insert (csem 1, ()) (insert (csem 4, ()) (insert (csem 3, ()) (insert (SemLoc.reg barS, ()) W))))) $$ [HcS1 HO HatS1]
  · isplitr; · iapply (inv_at m ρ K (c, 2)); iexact HI
    isplitl [HcS1]; · iexact HcS1
    isplitl [HO]; · iexact HO
    iexact HatS1
  iintro ⟨HO, HatS1, -, Hq1⟩
  -- the two scratch buffers whole again
  ihave Hs := (send_join (F := F) c) $$ [Hq0 Hq1]
  · isplitl [Hq0] <;> iassumption
  ihave Hr := (join_r' (F := F) c) $$ [Hr0 Hr1]
  · isplitl [Hr0] <;> iassumption
  -- the four own cells close: their counters at zero are the core's again
  imod (Rounds.cell_close ER (xRd m ρ) (Set.mem_univ (K (c, 1))) (fun h => h) (R := 0 + 1) (duties_later m ρ (sendCell0 c))) $$ [HatS0] with HzS0
  · isplitr; · iapply (inv_at m ρ K (c, 1)); iexact HI
    iexact HatS0
  imod (Rounds.cell_close ER (xRd m ρ) (Set.mem_univ (K (c, 2))) (fun h => h) (R := 0 + 1) (duties_later m ρ (sendCell1 c))) $$ [HatS1] with HzS1
  · isplitr; · iapply (inv_at m ρ K (c, 2)); iexact HI
    iexact HatS1
  imod (Rounds.cell_close ER (xRd m ρ) (Set.mem_univ (K (c, 3))) (fun h => h) (R := 0 + 1) (duties_later m ρ (recvCell0 c))) $$ [HatV0] with HzV0
  · isplitr; · iapply (inv_at m ρ K (c, 3)); iexact HI
    iexact HatV0
  imod (Rounds.cell_close ER (xRd m ρ) (Set.mem_univ (K (c, 4))) (fun h => h) (R := 0 + 1) (duties_later m ρ (recvCell1 c))) $$ [HatV1] with HzV1
  · isplitr; · iapply (inv_at m ρ K (c, 4)); iexact HI
    iexact HatV1
  iapply (wp_ret_bind_unit c)
  sl_step
  iapply Hk
  unfold bodyPost Φ₁ Dat.owesAt Pipeline.owesWithin
  rw [show (dats m ρ 0 c).owed t₀.succ = 0 from rfl]
  isplitl [Hs Hr HzS0 HzS1 HzV0 HzV1]
  · isplitl [Hs]; · iexact Hs
    isplitl [Hr]; · iexact Hr
    isplitl [HzS0]; · iexact HzS0
    isplitl [HzS1]; · iexact HzS1
    isplitl [HzV0]; · iexact HzV0
    iexact HzV1
  isplitl [HO]
  · iexists (insert (csem 2, ()) (insert (csem 1, ()) (insert (csem 4, ()) (insert (csem 3, ()) (insert (SemLoc.reg barS, ()) W)))))
    isplitr; · ipureintro; exact fun _ _ => Or.inl trivial
    iexact HO
  isplitl [Hx]
  · iexists _; isplitr; · (ipureintro; rfl)
    iapply (Entails.of_eq (whole_eq c cc0_stg0_0 (xstg m ρ c))); iexact Hx
  iexists _; isplitr
  · ipureintro
    exact out_eq m ρ c g1
  iapply (Entails.of_eq (whole_eq c cc0_stg1_0 _)); iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV0, HcV1, Hlev⟩, Hs, Hr⟩, Ho, Hx, Hout⟩
  iapply (sound_body m ρ K c fun _ => bodyPost m ρ c)
  unfold bodyPre
  isplitr []
  · isplitl [Hg HcB HcV0 HcV1 Hlev Hs Hr]
    · isplitl [Hg]; · iexact Hg
      isplitl [HcB]; · iexact HcB
      isplitl [HcV0]; · iexact HcV0
      isplitl [HcV1]; · iexact HcV1
      isplitl [Hlev]; · iexact Hlev
      isplitl [Hs]; · iexact Hs
      iexact Hr
    isplitl [Ho]; · iexact Ho
    isplitl [Hx] <;> iassumption
  · iintro H; iexact H

end Body

end Cert.KernelIdeal.Exch

end
-- ==== Proof.LandValueK.lean ====
/-
  What a copy of one half lands, and what a half of the send buffer holds after the two stores.

  A half of a scratch buffer is named twice: as the rectangle of rows the vector loads and stores go through, and as
  that rectangle with its unit axis dropped, which is what a copy moves. Dropping the axis keeps every element at
  its place and only counts the indices differently, so writing through the second name what was read through the
  second name of another buffer, and reading back through the first name, gives what the first name reads off the
  other buffer. The two halves of the send buffer are disjoint, so after the two stores each half reads its own
  store's payload.
-/
import proofs.«900715_g7700000000000716_dist_ar_v7x_xyz2x2x4_y_m256_n256_f32_1_alg».proof.Proof.SchedK
import Idealize.ShloMosaic.Lib.Pipeline.Value

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Writing through a reshaped view, reading through the view itself -/

/-- A reshaped view places index y where the view places the index with the same row-major position, so a
    write through the reshaped view is read back through the view itself at that index. -/
theorem read_write_reshape {sg : RefSig} {κ : Kind} {sp : Space} {s s' : Shape} {e : EltTy} {Val : EltTy → Type}
    (v : View sg κ sp s e) (h : s'.numel = s.numel) (fd : v.ty.Contents Val) (w : s'.Idx → Val e) (x : s.Idx) :
    v.read Val ((v.reshape s' h).write Val fd w Finset.univ) x = w ((Shape.reshapeEquiv h).symm x) := by
  have hx : v.emb x = (v.reshape s' h).emb ((Shape.reshapeEquiv h).symm x) := by
    show v.emb x = v.emb (Shape.reshapeEquiv h ((Shape.reshapeEquiv h).symm x))
    rw [Equiv.apply_symm_apply]
  rw [View.read_apply, hx, View.write_emb_of_mem (v := v.reshape s' h) fd w (Finset.mem_univ _), cast_cast, cast_eq]

/-- A read through a reshaped view is the view's own read at the index with the same row-major position. -/
theorem read_reshape {sg : RefSig} {κ : Kind} {sp : Space} {s s' : Shape} {e : EltTy} {Val : EltTy → Type}
    (v : View sg κ sp s e) (h : s'.numel = s.numel) (fs : v.ty.Contents Val) (y : s'.Idx) :
    (v.reshape s' h).read Val fs y = v.read Val fs (Shape.reshapeEquiv h y) := rfl

/-- Two views under ONE reshape: what the second reads, written through the first reshaped and read back
    through the first, is what the second reads — index for index. -/
theorem read_write_read_reshape {sg : RefSig} {κ : Kind} {sp : Space} {s s' : Shape} {e : EltTy} {Val : EltTy → Type}
    (v v' : View sg κ sp s e) (h : s'.numel = s.numel) (fd : v.ty.Contents Val) (fs : v'.ty.Contents Val) :
    v.read Val ((v.reshape s' h).write Val fd ((v'.reshape s' h).read Val fs) Finset.univ) = v'.read Val fs := by
  funext x
  rw [read_write_reshape, read_reshape, Equiv.apply_symm_apply]

/-! ## What a copy of one half lands -/

theorem land_read0 (fs : (cc0_scratch0 : Ref sig .tc).ty.Contents (Elt F)) (fd : (cc0_scratch1 : Ref sig .tc).ty.Contents (Elt F)) :
    (rM : Memref sig .tc .vmem S2x128x256 .bf16).view.readAt (Elt F) rc0.toLoadRect ((rH0 : Memref sig .tc .vmem S128x256 .bf16).view.write (Elt F) fd ((sH0 : Memref sig .tc .vmem S128x256 .bf16).view.read (Elt F) fs) Finset.univ)
      = (sM : Memref sig .tc .vmem S2x128x256 .bf16).view.readAt (Elt F) rc0.toLoadRect fs :=
  read_write_read_reshape (Val := Elt F) ((rM : Memref sig .tc .vmem S2x128x256 .bf16).view.slice rc0) ((sM : Memref sig .tc .vmem S2x128x256 .bf16).view.slice rc0) _ fd fs

theorem land_read1 (fs : (cc0_scratch0 : Ref sig .tc).ty.Contents (Elt F)) (fd : (cc0_scratch1 : Ref sig .tc).ty.Contents (Elt F)) :
    (rM : Memref sig .tc .vmem S2x128x256 .bf16).view.readAt (Elt F) rc1.toLoadRect ((rH1 : Memref sig .tc .vmem S128x256 .bf16).view.write (Elt F) fd ((sH1 : Memref sig .tc .vmem S128x256 .bf16).view.read (Elt F) fs) Finset.univ)
      = (sM : Memref sig .tc .vmem S2x128x256 .bf16).view.readAt (Elt F) rc1.toLoadRect fs :=
  read_write_read_reshape (Val := Elt F) ((rM : Memref sig .tc .vmem S2x128x256 .bf16).view.slice rc1) ((sM : Memref sig .tc .vmem S2x128x256 .bf16).view.slice rc1) _ fd fs

/-! ## What a half of the send buffer holds after the two stores -/

/-- The second store goes through the other half: the first half still reads the first store's payload. -/
theorem stored_read0 (f0 : (cc0_scratch0 : Ref sig .tc).ty.Contents (Elt F)) (a b : FVec F S1x128x256 .bf16) :
    (sM : Memref sig .tc .vmem S2x128x256 .bf16).view.readAt (Elt F) rc0.toLoadRect (((sM : Memref sig .tc .vmem S2x128x256 .bf16).access rc1).write (Elt F) (((sM : Memref sig .tc .vmem S2x128x256 .bf16).access rc0).write (Elt F) f0 a Finset.univ) b Finset.univ) = a := by
  show ((View.whole cc0_scratch0 : View sig .tc _ _ _).slice rc0).read (Elt F)
      (((View.whole cc0_scratch0 : View sig .tc _ _ _).slice rc1).write (Elt F)
        (((View.whole cc0_scratch0 : View sig .tc _ _ _).slice rc0).write (Elt F) f0 a Finset.univ) b Finset.univ) = a
  refine (View.read_slice_write_slice_of_disjoint (Val := Elt F) (v := (View.whole cc0_scratch0 : View sig .tc _ _ _)) rc0 rc1 _ b Finset.univ ?_).trans ?_
  · rw [View.setOn_univ, View.set_slice_whole, View.set_slice_whole]; exact rc_disjoint
  · exact View.read_write_univ (Val := Elt F) (v := (View.whole cc0_scratch0 : View sig .tc _ _ _).slice rc0) f0 a

/-- The second half reads the second store's payload. -/
theorem stored_read1 (f0 : (cc0_scratch0 : Ref sig .tc).ty.Contents (Elt F)) (a b : FVec F S1x128x256 .bf16) :
    (sM : Memref sig .tc .vmem S2x128x256 .bf16).view.readAt (Elt F) rc1.toLoadRect (((sM : Memref sig .tc .vmem S2x128x256 .bf16).access rc1).write (Elt F) (((sM : Memref sig .tc .vmem S2x128x256 .bf16).access rc0).write (Elt F) f0 a Finset.univ) b Finset.univ) = b := by
  show ((View.whole cc0_scratch0 : View sig .tc _ _ _).slice rc1).read (Elt F)
      (((View.whole cc0_scratch0 : View sig .tc _ _ _).slice rc1).write (Elt F)
        (((View.whole cc0_scratch0 : View sig .tc _ _ _).slice rc0).write (Elt F) f0 a Finset.univ) b Finset.univ) = b
  exact View.read_write_univ (Val := Elt F) (v := (View.whole cc0_scratch0 : View sig .tc _ _ _).slice rc1) _ b

/-- info: 'Cert.Kernel.Exch.land_read0' depends on axioms: [propext, Classical.choice, Quot.sound] -/
#guard_msgs in #print axioms land_read0

/-- info: 'Cert.Kernel.Exch.land_read1' depends on axioms: [propext, Classical.choice, Quot.sound] -/
#guard_msgs in #print axioms land_read1

/-- info: 'Cert.Kernel.Exch.stored_read0' depends on axioms: [propext, Classical.choice, Quot.sound] -/
#guard_msgs in #print axioms stored_read0

/-- info: 'Cert.Kernel.Exch.stored_read1' depends on axioms: [propext, Classical.choice, Quot.sound] -/
#guard_msgs in #print axioms stored_read1

end Cert.Kernel.Exch

end
-- ==== Proof.OutValueK.lean ====
/-
  The value of the result buffer of the pairwise exchange, index by index.

  The two stores of a device go through the two halves of its result buffer: rows 0..127 and rows 128..255.
  The halves are disjoint and cover the buffer, so after both stores every element holds what its half's store
  wrote there, whatever the buffer held before. At the ideal instance narrowing and widening are the identity
  and the shape casts keep the row-major position, so the element at (p, q) is the device's own x at (p, q)
  plus its partner's x at (p, q).
-/
import proofs.«900715_g7700000000000716_dist_ar_v7x_xyz2x2x4_y_m256_n256_f32_1_alg».proof.Proof.ExchK
import Idealize.ShloMosaic.Lib.Pipeline.Value
import Idealize.ShloMosaic.Lib.ValueIdx
import Idealize.ShloMosaic.Lib.ValueLayout
import Idealize.ShloMosaic.PureOps.Ideal.Laws

noncomputable section

namespace Cert.Kernel.Exch

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The two halves of the result buffer -/

/-- Rows 0..127: an index lies in the first half exactly when its row is below 128. -/
theorem mem_rx0 (i : S256x256.Idx) : i ∈ rx0.set ↔ (i 0).val < 128 := by
  rw [Rect.mem_set_unit]
  constructor
  · intro h; have := (h 0).2; simpa using this
  · intro h a
    match a with
    | ⟨0, _⟩ => exact ⟨Nat.zero_le _, by show (i 0).val < 0 + 128; omega⟩
    | ⟨1, _⟩ => exact ⟨Nat.zero_le _, by have := (i 1).isLt; show (i 1).val < 0 + 256; simpa using this⟩

/-- Rows 128..255: an index lies in the second half exactly when its row is 128 or more. -/
theorem mem_rx1 (i : S256x256.Idx) : i ∈ rx1.set ↔ 128 ≤ (i 0).val := by
  rw [Rect.mem_set_unit]
  constructor
  · intro h; have := (h 0).1; simpa using this
  · intro h a
    match a with
    | ⟨0, _⟩ => exact ⟨h, by have := (i 0).isLt; show (i 0).val < 128 + 128; simpa using this⟩
    | ⟨1, _⟩ => exact ⟨Nat.zero_le _, by have := (i 1).isLt; show (i 1).val < 0 + 256; simpa using this⟩

/-- The element sets of the two stores are the two halves. -/
theorem set_o0 : ((oM : Memref sig .tc .vmem S256x256 .f32).access rx0).set = rx0.set := View.set_slice_whole _ _
theorem set_o1 : ((oM : Memref sig .tc .vmem S256x256 .f32).access rx1).set = rx1.set := View.set_slice_whole _ _

/-- The halves are disjoint … -/
theorem rx_disjoint : Disjoint rx0.set rx1.set := Rect.unit_disjoint 0 (.inl (Nat.le_refl _))

/-- … and cover the buffer. -/
theorem rx_cover (i : S256x256.Idx) : i ∈ rx0.set ∨ i ∈ rx1.set := by
  rw [mem_rx0, mem_rx1]; omega

/-- After both stores an element of the first half holds what the first store wrote there: the second
    store goes through the other half and leaves it alone. -/
theorem outOver_emb0 (c : Dev nD) (g : (cc0_stg1_0 : Ref sig .tc).ty.Contents (Elt F)) (x : S128x256.Idx) :
    outOver m ρ c g (((oM : Memref sig .tc .vmem S256x256 .f32).access rx0).emb x)
      = _root_.cast (congrArg (Elt F) ((oM : Memref sig .tc .vmem S256x256 .f32).access rx0).elt_eq.symm) (sum0 m ρ c x) := by
  unfold outOver
  rw [View.write_of_not_mem, View.write_emb_of_mem _ _ (Finset.mem_univ x)]
  rw [View.setOn_univ, set_o1]
  have h0 : ((oM : Memref sig .tc .vmem S256x256 .f32).access rx0).emb x ∈ rx0.set := by
    rw [← set_o0]; exact View.emb_mem_set _ x
  exact fun h1 => Finset.disjoint_left.mp rx_disjoint h0 h1

/-- An element of the second half holds what the second store wrote there. -/
theorem outOver_emb1 (c : Dev nD) (g : (cc0_stg1_0 : Ref sig .tc).ty.Contents (Elt F)) (x : S128x256.Idx) :
    outOver m ρ c g (((oM : Memref sig .tc .vmem S256x256 .f32).access rx1).emb x)
      = _root_.cast (congrArg (Elt F) ((oM : Memref sig .tc .vmem S256x256 .f32).access rx1).elt_eq.symm) (sum1 m ρ c x) := by
  unfold outOver
  rw [View.write_emb_of_mem _ _ (Finset.mem_univ x)]

/-- the two stores cover the buffer: the result does not depend on what the buffer held (generic in F) -/
theorem outOver_indep (c : Dev nD) (g g' : (cc0_stg1_0 : Ref sig .tc).ty.Contents (Elt F)) :
    outOver m ρ c g = outOver m ρ c g' := by
  funext i
  rcases rx_cover i with h | h
  · obtain ⟨x, rfl⟩ := View.exists_emb_of_mem_set ((oM : Memref sig .tc .vmem S256x256 .f32).access rx0) (by rw [set_o0]; exact h)
    rw [outOver_emb0, outOver_emb0]
  · obtain ⟨x, rfl⟩ := View.exists_emb_of_mem_set ((oM : Memref sig .tc .vmem S256x256 .f32).access rx1) (by rw [set_o1]; exact h)
    rw [outOver_emb1, outOver_emb1]

/-! ## The staged block is the array; a load through a half reads that half's rows -/

/-- The window's one block is the whole array: device c's staged block of x is its x. -/
theorem xstg_eq (c : Dev nD) (i : S256x256.Idx) : xstg m ρ c i = m ((c : Thread nD τ).loc main_arg0) i := by
  unfold xstg
  exact congrFun (Memref.read_access_unit_zero (Elt F) main_arg0 (funext fun a => Nat.zero_mul _) _ _) i

/-- A load of the first half reads, at a half's index, the element under it. -/
theorem readAt_rx0 (f : (cc0_stg0_0 : Ref sig .tc).ty.Contents (Elt F)) (x : S128x256.Idx) :
    (xM : Memref sig .tc .vmem S256x256 .f32).view.readAt (Elt F) rx0.toLoadRect f x = f (rx0.emb x) := rfl

theorem readAt_rx1 (f : (cc0_stg0_0 : Ref sig .tc).ty.Contents (Elt F)) (x : S128x256.Idx) :
    (xM : Memref sig .tc .vmem S256x256 .f32).view.readAt (Elt F) rx1.toLoadRect f x = f (rx1.emb x) := rfl

/-! ## The result at the two halves' indices, by coordinates -/

/-- Row p < 128 of the result is row p of the first store's payload. -/
theorem outAt_lo (c : Dev nD) (p : Fin 128) (q : Fin 256) (hp : p.val < 256) :
    outAt m ρ c (ix2 (⟨p.val, hp⟩ : Fin 256) q) = sum0 m ρ c (ix2 p q) := by
  have he : (ix2 (⟨p.val, hp⟩ : Fin 256) q : S256x256.Idx) = ((oM : Memref sig .tc .vmem S256x256 .f32).access rx0).emb (ix2 p q) := by
    funext a; apply Fin.ext
    match a with
    | ⟨0, _⟩ => show p.val = 0 + 1 * p.val; omega
    | ⟨1, _⟩ => show q.val = 0 + 1 * q.val; omega
  unfold outAt
  rw [he, outOver_emb0]; rfl

/-- Row 128 + p of the result is row p of the second store's payload. -/
theorem outAt_hi (c : Dev nD) (p : Fin 128) (q : Fin 256) (hp : 128 + p.val < 256) :
    outAt m ρ c (ix2 (⟨128 + p.val, hp⟩ : Fin 256) q) = sum1 m ρ c (ix2 p q) := by
  have he : (ix2 (⟨128 + p.val, hp⟩ : Fin 256) q : S256x256.Idx) = ((oM : Memref sig .tc .vmem S256x256 .f32).access rx1).emb (ix2 p q) := by
    funext a; apply Fin.ext
    match a with
    | ⟨0, _⟩ => show 128 + p.val = 128 + 1 * p.val; omega
    | ⟨1, _⟩ => show q.val = 0 + 1 * q.val; omega
  unfold outAt
  rw [he, outOver_emb1]; rfl

/-! ## The payloads at the ideal instance -/

section AtIdeal

variable (m : (ℓ : Loc nD τ sig) → Buf (Elt Ideal) ℓ) (ρ : Dev nD → PrngReg)

/-- Narrowing and widening are the identity on extended reals and the shape casts there and back cancel: the
    first store's payload at an index is the device's own element plus its partner's. -/
theorem sum0_apply (c : Dev nD) (x : S128x256.Idx) :
    (show EReal from sum0 (F := Ideal) m ρ c x)
      = (show EReal from xstg (F := Ideal) m ρ c (rx0.emb x)) + (show EReal from xstg (F := Ideal) m ρ (peer c) (rx0.emb x)) := by
  unfold sum0 half0 k0_pay4 k0_pay2
  simp only [shapeCast_self, shapeCast_shapeCast]
  rfl

theorem sum1_apply (c : Dev nD) (x : S128x256.Idx) :
    (show EReal from sum1 (F := Ideal) m ρ c x)
      = (show EReal from xstg (F := Ideal) m ρ c (rx1.emb x)) + (show EReal from xstg (F := Ideal) m ρ (peer c) (rx1.emb x)) := by
  unfold sum1 half1 k0_pay1 k0_pay3
  simp only [shapeCast_self, shapeCast_shapeCast]
  rfl

end AtIdeal

/-! ## The result, entry by entry -/

/-- at the ideal instance the result on device c is, entry by entry, its own block of x plus its partner's (narrowing and widening are the identity there) -/
theorem outAt_apply (m : (ℓ : Loc nD τ sig) → Buf (Elt Ideal) ℓ) (ρ : Dev nD → PrngReg) (c : Dev nD) (i : S256x256.Idx) :
    (show EReal from outAt (F := Ideal) m ρ c i)
      = (show EReal from m ((c : Thread nD τ).loc main_arg0) i) + (show EReal from m ((peer c : Thread nD τ).loc main_arg0) i) := by
  obtain ⟨p, q, rfl⟩ : ∃ (p : Fin 256) (q : Fin 256), i = ix2 p q := ⟨i 0, i 1, eq_ix2 i⟩
  by_cases hp : p.val < 128
  · -- the first half: row p of the first store's payload
    have hr : rx0.emb (ix2 (⟨p.val, hp⟩ : Fin 128) q) = (ix2 p q : S256x256.Idx) := by
      funext a; apply Fin.ext
      match a with
      | ⟨0, _⟩ => show 0 + 1 * p.val = p.val; omega
      | ⟨1, _⟩ => show 0 + 1 * q.val = q.val; omega
    have h1 : outAt (F := Ideal) m ρ c (ix2 p q) = sum0 (F := Ideal) m ρ c (ix2 (⟨p.val, hp⟩ : Fin 128) q) :=
      outAt_lo m ρ c ⟨p.val, hp⟩ q p.isLt
    rw [h1]
    refine (sum0_apply m ρ c _).trans ?_
    rw [hr, xstg_eq, xstg_eq]
  · -- the second half: row p - 128 of the second store's payload
    have hlt : p.val - 128 < 128 := by have := p.isLt; omega
    have hp' : 128 + (⟨p.val - 128, hlt⟩ : Fin 128).val < 256 := by show 128 + (p.val - 128) < 256; have := p.isLt; omega
    have hpe : (⟨128 + (⟨p.val - 128, hlt⟩ : Fin 128).val, hp'⟩ : Fin 256) = p := Fin.ext (by show 128 + (p.val - 128) = p.val; omega)
    have hr : rx1.emb (ix2 (⟨p.val - 128, hlt⟩ : Fin 128) q) = (ix2 p q : S256x256.Idx) := by
      funext a; apply Fin.ext
      match a with
      | ⟨0, _⟩ => show 128 + 1 * (p.val - 128) = p.val; omega
      | ⟨1, _⟩ => show 0 + 1 * q.val = q.val; omega
    have h1 : outAt (F := Ideal) m ρ c (ix2 p q) = sum1 (F := Ideal) m ρ c (ix2 (⟨p.val - 128, hlt⟩ : Fin 128) q) := by
      have := outAt_hi m ρ c ⟨p.val - 128, hlt⟩ q hp'
      rwa [hpe] at this
    rw [h1]
    refine (sum1_apply m ρ c _).trans ?_
    rw [hr, xstg_eq, xstg_eq]

/-- info: 'Cert.Kernel.Exch.outOver_indep' depends on axioms: [propext, Classical.choice, Quot.sound] -/
#guard_msgs in #print axioms outOver_indep

/-- info: 'Cert.Kernel.Exch.outAt_apply' depends on axioms: [propext, Classical.choice, Quot.sound] -/
#guard_msgs in #print axioms outAt_apply

end Cert.Kernel.Exch

end
-- ==== Proof.BodyK.lean ====
/-
  The body of one device, from the exchange's ghost state at the start of the grid's one point to its exit.

  In program order: the signal to the partner's barrier cell hands over this device's whole receive buffer; the block of x
  is narrowed into the two halves of the send buffer; the wait on the own barrier cell brings the partner's receive buffer,
  which is cut into its two halves; each copy pays the own send cell with its half of the send buffer and the partner's
  receive cell with the half of the partner's receive buffer holding what was stored in the same half of the send buffer
  (a copy through the reshaped half lands, read through the half itself, what the source half reads); each wait on a
  receive cell brings a landed half, which reads as the partner's narrowed rows; these are widened and added to the own
  rows and stored into the result buffer's two halves, which cover it; the waits on the send cells bring the send buffer
  back; the four own cells close at zero.
-/
import proofs.«900715_g7700000000000716_dist_ar_v7x_xyz2x2x4_y_m256_n256_f32_1_alg».proof.Proof.DataK
import proofs.«900715_g7700000000000716_dist_ar_v7x_xyz2x2x4_y_m256_n256_f32_1_alg».proof.Proof.LandValueK
import proofs.«900715_g7700000000000716_dist_ar_v7x_xyz2x2x4_y_m256_n256_f32_1_alg».proof.Proof.OutValueK

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting a two-half buffer and putting it back -/

omit [FloatOps F] in
theorem split_s (c : Dev nD) (f : Buf (Elt F) (sLoc c)) :
    (sLoc c ↦{fullShare} f : sProp 𝕄) ⊣⊢ iprop((sLoc c ↦[rc0.set]{fullShare} f) ∗ (sLoc c ↦[rc1.set]{fullShare} f)) := by
  have h := pointsTo_split_subset (Val := Elt F) (Ix := Unit) (Name := ℕ) (U := UU) (Lvl := ℕ) (ℓ := sLoc c) (q := fullShare) (f := f) (Finset.subset_univ (rc0.set : Finset (Idx (sLoc c))))
  rw [show (Finset.univ \ rc0.set : Finset (Idx (sLoc c))) = rc1.set from rc_compl] at h
  exact h
omit [FloatOps F] in
theorem split_r (c : Dev nD) (f : Buf (Elt F) (rLoc c)) :
    (rLoc c ↦{fullShare} f : sProp 𝕄) ⊣⊢ iprop((rLoc c ↦[rc0.set]{fullShare} f) ∗ (rLoc c ↦[rc1.set]{fullShare} f)) := by
  have h := pointsTo_split_subset (Val := Elt F) (Ix := Unit) (Name := ℕ) (U := UU) (Lvl := ℕ) (ℓ := rLoc c) (q := fullShare) (f := f) (Finset.subset_univ (rc0.set : Finset (Idx (rLoc c))))
  rw [show (Finset.univ \ rc0.set : Finset (Idx (rLoc c))) = rc1.set from rc_compl] at h
  exact h
omit [FloatOps F] in
theorem join_s (c : Dev nD) (f g : Buf (Elt F) (sLoc c)) :
    iprop((sLoc c ↦[rc0.set]{fullShare} f) ∗ (sLoc c ↦[rc1.set]{fullShare} g)) ⊢ (∃ h : Buf (Elt F) (sLoc c), sLoc c ↦{fullShare} h : sProp 𝕄) := by
  have h := pointsTo_join (Val := Elt F) (Ix := Unit) (Name := ℕ) (U := UU) (Lvl := ℕ) (ℓ := sLoc c) (q := fullShare) (f := f) (g := g) (I := (rc0.set : Finset (Idx (sLoc c)))) (J := rc1.set) rc_disjoint
  rw [show ((rc0.set : Finset (Idx (sLoc c))) ∪ rc1.set) = Finset.univ from rc_union] at h
  iintro H; iexists _; iapply h; iexact H
omit [FloatOps F] in
theorem join_r (c : Dev nD) (f g : Buf (Elt F) (rLoc c)) :
    iprop((rLoc c ↦[rc0.set]{fullShare} f) ∗ (rLoc c ↦[rc1.set]{fullShare} g)) ⊢ (∃ h : Buf (Elt F) (rLoc c), rLoc c ↦{fullShare} h : sProp 𝕄) := by
  have h := pointsTo_join (Val := Elt F) (Ix := Unit) (Name := ℕ) (U := UU) (Lvl := ℕ) (ℓ := rLoc c) (q := fullShare) (f := f) (g := g) (I := (rc0.set : Finset (Idx (rLoc c)))) (J := rc1.set) rc_disjoint
  rw [show ((rc0.set : Finset (Idx (rLoc c))) ∪ rc1.set) = Finset.univ from rc_union] at h
  iintro H; iexists _; iapply h; iexact H

omit [FloatOps F] in
theorem sHalf0_eq (c : Dev nD) (f : Buf (Elt F) (sLoc c)) :
    ((sH0 : Memref sig .tc .vmem S128x256 .bf16).view.loc (c : Thread nD τ) ↦[(sH0 : Memref sig .tc .vmem S128x256 .bf16).view.set]{fullShare} f : sProp 𝕄)
      = (sLoc c ↦[rc0.set]{fullShare} f) := by rw [sH0_set]
omit [FloatOps F] in
theorem rHalf0_eq (c : Dev nD) (f : Buf (Elt F) (rLoc c)) :
    ((rH0 : Memref sig .tc .vmem S128x256 .bf16).view.loc (c : Thread nD τ) ↦[(rH0 : Memref sig .tc .vmem S128x256 .bf16).view.set]{fullShare} f : sProp 𝕄)
      = (rLoc c ↦[rc0.set]{fullShare} f) := by rw [rH0_set]
omit [FloatOps F] in
theorem sHalf1_eq (c : Dev nD) (f : Buf (Elt F) (sLoc c)) :
    ((sH1 : Memref sig .tc .vmem S128x256 .bf16).view.loc (c : Thread nD τ) ↦[(sH1 : Memref sig .tc .vmem S128x256 .bf16).view.set]{fullShare} f : sProp 𝕄)
      = (sLoc c ↦[rc1.set]{fullShare} f) := by rw [sH1_set]
omit [FloatOps F] in
theorem rHalf1_eq (c : Dev nD) (f : Buf (Elt F) (rLoc c)) :
    ((rH1 : Memref sig .tc .vmem S128x256 .bf16).view.loc (c : Thread nD τ) ↦[(rH1 : Memref sig .tc .vmem S128x256 .bf16).view.set]{fullShare} f : sProp 𝕄)
      = (rLoc c ↦[rc1.set]{fullShare} f) := by rw [rH1_set]

section Wait
variable (K : Dev nD × Fin 5 → ℕ)

/-- A wait for the whole round of one of the device's own DMA cells, owing nothing: the cell moves to round 1 and its one
    duty's payload comes back. -/
theorem wp_wait_cell (c : Dev nD) (k : Fin 5) (hk0 : k ≠ 0) {w : TpuEff nD τ sig (Elt F) Λ₀ .tc PUnit}
    {n : ℕ} (hn : n = N)
    (hw : ∀ Kc : PUnit → sProp 𝕄, wpE (defs₀ (F := F)) 𝒱₀ (c : Thread nD τ) none Set.univ w Kc = waitSpec (c : Thread nD τ) Set.univ (csem k) n Kc)
    {α : Type} {Q : α → sProp 𝕄} {kk : PUnit → Prog (TpuEff nD τ sig (Elt F) Λ₀ .tc) α} (W : Waits sig Unit)
    (P : sProp 𝕄) (hP : (xRd (F := F) m ρ).payload (kcell (c, k)) 0 () = P) :
    iprop(cellInv ER (xRd m ρ) (K (c, k)) (kcell (c, k)) ∗ cred (tallyAt (kcell (c, k)) () N) ∗ owes (c : Thread nD τ) 0 W ∗ atPos ER (kcell (c, k)) 0 ∅ 0)
      ⊢ iprop(((owes (c : Thread nD τ) 0 (insert (csem k, ()) W) ∗ atPos ER (kcell (c, k)) (0 + 1) ∅ 0 ∗ reached ER (kcell (c, k)) (0 + 1)
              ∗ P) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hn
  have hrest : bigSep ((xRd (F := F) m ρ).duties (kcell (c, k)) 0 \ ∅) (fun d => (xRd (F := F) m ρ).payload (kcell (c, k)) 0 d)
      = P := by
    rw [Finset.sdiff_empty, duties_cell, bigSep_singleton, hP]
  iintro ⟨#HI, Hc, HO, Hat⟩ Hk
  iapply (Rounds.wp_wait_rest_token 𝒱₀ ER (xRd m ρ) (c : Thread nD τ) none (κ := K (c, k)) hw (Set.mem_univ _) () (O := 0) (W := W) (R := 0) (m := 0) (T := ∅)
      (by rw [Nat.zero_add, expect_dma m ρ c k hk0])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  iapply Hk
  isplitl [HO]; · iexact HO
  isplitl [Hat]; · iexact Hat
  isplitl [Hr]; · iexact Hr
  ihave Hpay := (Entails.of_eq hrest) $$ Hpay
  iexact Hpay

theorem wp_wait_recv0 (c : Dev nD) {hsrc : (sH0 : Memref sig .tc .vmem S128x256 .bf16).view.WordExact} {hdst : (rH0 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 3)) (kcell (c, 3)) ∗ cred (tallyAt (kcell (c, 3)) () N) ∗ owes (c : Thread nD τ) 0 W ∗ atPos ER (kcell (c, 3)) 0 ∅ 0)
      ⊢ iprop(((owes (c : Thread nD τ) 0 (insert (csem 3, ()) W) ∗ atPos ER (kcell (c, 3)) (0 + 1) ∅ 0 ∗ reached ER (kcell (c, 3)) (0 + 1)
              ∗ recvPay0 m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 recvS0 sH0 rH0 hsrc hdst) kk) Q) :=
  wp_wait_cell m ρ K c 3 (by decide) (Eq.refl N) (wpE_waitDma2_eq 𝒱₀ (c : Thread nD τ) none Set.univ) W (recvPay0 m ρ c) (payload_recv0 m ρ c ())

theorem wp_wait_recv1 (c : Dev nD) {hsrc : (sH1 : Memref sig .tc .vmem S128x256 .bf16).view.WordExact} {hdst : (rH1 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 4)) (kcell (c, 4)) ∗ cred (tallyAt (kcell (c, 4)) () N) ∗ owes (c : Thread nD τ) 0 W ∗ atPos ER (kcell (c, 4)) 0 ∅ 0)
      ⊢ iprop(((owes (c : Thread nD τ) 0 (insert (csem 4, ()) W) ∗ atPos ER (kcell (c, 4)) (0 + 1) ∅ 0 ∗ reached ER (kcell (c, 4)) (0 + 1)
              ∗ recvPay1 m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 recvS1 sH1 rH1 hsrc hdst) kk) Q) :=
  wp_wait_cell m ρ K c 4 (by decide) (N_r1) (wpE_waitDma2_eq 𝒱₀ (c : Thread nD τ) none Set.univ) W (recvPay1 m ρ c) (payload_recv1 m ρ c ())

theorem wp_wait_send0 (c : Dev nD) {hsrc : (rH0 : Memref sig .tc .vmem S128x256 .bf16).view.WordExact} {hdst : (sH0 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 1)) (kcell (c, 1)) ∗ cred (tallyAt (kcell (c, 1)) () N) ∗ owes (c : Thread nD τ) 0 W ∗ atPos ER (kcell (c, 1)) 0 ∅ 0)
      ⊢ iprop(((owes (c : Thread nD τ) 0 (insert (csem 1, ()) W) ∗ atPos ER (kcell (c, 1)) (0 + 1) ∅ 0 ∗ reached ER (kcell (c, 1)) (0 + 1)
              ∗ sendPay0 c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sendS0 rH0 sH0 hsrc hdst) kk) Q) :=
  wp_wait_cell m ρ K c 1 (by decide) (N_s0) (wpE_waitDma2_eq 𝒱₀ (c : Thread nD τ) none Set.univ) W (sendPay0 c) (payload_send0 m ρ c ())

theorem wp_wait_send1 (c : Dev nD) {hsrc : (rH1 : Memref sig .tc .vmem S128x256 .bf16).view.WordExact} {hdst : (sH1 : Memref sig .tc .vmem S128x256 .bf16).view.WordExact}
    {α : Type} {Q : α → sProp 𝕄} {kk : PUnit → Prog (TpuEff nD τ sig (Elt F) Λ₀ .tc) α} (W : Waits sig Unit) :
    iprop(cellInv ER (xRd m ρ) (K (c, 2)) (kcell (c, 2)) ∗ cred (tallyAt (kcell (c, 2)) () N) ∗ owes (c : Thread nD τ) 0 W ∗ atPos ER (kcell (c, 2)) 0 ∅ 0)
      ⊢ iprop(((owes (c : Thread nD τ) 0 (insert (csem 2, ()) W) ∗ atPos ER (kcell (c, 2)) (0 + 1) ∅ 0 ∗ reached ER (kcell (c, 2)) (0 + 1)
              ∗ sendPay1 c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sendS1 rH1 sH1 hsrc hdst) kk) Q) :=
  wp_wait_cell m ρ K c 2 (by decide) (N_s1) (wpE_waitDma2_eq 𝒱₀ (c : Thread nD τ) none Set.univ) W (sendPay1 c) (payload_send1 m ρ c ())

end Wait

/-- The send buffer after the two stores, over contents f. -/
abbrev sbuf (c : Dev nD) (f : Buf (Elt F) (sLoc c)) : Buf (Elt F) (sLoc c) :=
  ((sM : Memref sig .tc .vmem S2x128x256 .bf16).access rc1).write (Elt F) (((sM : Memref sig .tc .vmem S2x128x256 .bf16).access rc0).write (Elt F) f (half0 m ρ c) Finset.univ) (half1 m ρ c) Finset.univ

/-- A returned unit bound to a continuation is the continuation. -/
theorem wp_ret_bind_unit (c : Dev nD) {α : Type} (k : PUnit.{1} → Prog (TpuEff nD τ sig (Elt F) Λ₀ .tc) α) (Q : α → sProp 𝕄) :
    wp frame (wpE (defs₀ (F := F)) 𝒱₀ (c : Thread nD τ) none) Set.univ (k ⟨⟩) Q
      ⊢ wp frame (wpE (defs₀ (F := F)) 𝒱₀ (c : Thread nD τ) none) Set.univ ((Prog.ret PUnit.unit).bind k) Q := BI.Entails.refl _

omit [FloatOps F] in
theorem setOn_rc0 : (rM : Memref sig .tc .vmem S2x128x256 .bf16).view.setOn rc0.toLoadRect.set = rc0.set :=
  (View.set_slice (View.whole cc0_scratch1) rc0).symm.trans (View.set_slice_whole cc0_scratch1 rc0)
omit [FloatOps F] in
theorem setOn_rc1 : (rM : Memref sig .tc .vmem S2x128x256 .bf16).view.setOn rc1.toLoadRect.set = rc1.set :=
  (View.set_slice (View.whole cc0_scratch1) rc1).symm.trans (View.set_slice_whole cc0_scratch1 rc1)

/-- The result buffer after the two stores is the device's result, whatever it held before. -/
theorem out_eq (c : Dev nD) (g : (cc0_stg1_0 : Ref sig .tc).ty.Contents (Elt F)) :
    (oM : Memref sig .tc .vmem S256x256 .f32).view.writes (Elt F) g
      [⟨rx1, k0_pay1 ((xM : Memref sig .tc .vmem S256x256 .f32).view.readAt (Elt F) rx1.toLoadRect (xstg m ρ c)) (half1 m ρ (peer c))⟩,
       ⟨rx0, k0_pay4 ((xM : Memref sig .tc .vmem S256x256 .f32).view.readAt (Elt F) rx0.toLoadRect (xstg m ρ c)) (half0 m ρ (peer c))⟩] = outAt m ρ c :=
  outOver_indep m ρ c g (xstg m ρ c)

section LoadLanded

/-- The load of a landed half through its cell's payload: the value read is the half the partner stored, and the half
    of the receive buffer comes back at some contents. -/
theorem wp_load_recv0 (c : Dev nD) {hl : (rM : Memref sig .tc .vmem S2x128x256 .bf16).view.LoadsAt rc0.toLoadRect} {α : Type} {Q : α → sProp 𝕄}
    {k : (rc0.toLoadRect.shape.Idx → Elt F .bf16) → Prog (TpuEff nD τ sig (Elt F) Λ₀ .tc) α} :
    (recvPay0 m ρ c : sProp 𝕄)
      ⊢ iprop(((∃ f : Buf (Elt F) (rLoc c), rLoc c ↦[rc0.set]{fullShare} f) -∗ wp frame (wpE (defs₀ (F := F)) 𝒱₀ (c : Thread nD τ) none) Set.univ (k (half0 m ρ (peer c))) Q)
          -∗ wp frame (wpE (defs₀ (F := F)) 𝒱₀ (c : Thread nD τ) none) Set.univ (.op (.load (rM : Memref sig .tc .vmem S2x128x256 .bf16) rc0.toLoadRect hl) k) Q) := by
  unfold recvPay0
  iintro ⟨%f, Hr, %hf⟩ Hk
  iapply (wp_load 𝒱₀ (c : Thread nD τ) none Set.univ (m := rM) (S := rc0.set) (f := f) (subset_of_eq setOn_rc0)) $$ Hr; iintro Hr
  rw [hf]
  iapply Hk
  iexists f; iexact Hr

theorem wp_load_recv1 (c : Dev nD) {hl : (rM : Memref sig .tc .vmem S2x128x256 .bf16).view.LoadsAt rc1.toLoadRect} {α : Type} {Q : α → sProp 𝕄}
    {k : (rc1.toLoadRect.shape.Idx → Elt F .bf16) → Prog (TpuEff nD τ sig (Elt F) Λ₀ .tc) α} :
    (recvPay1 m ρ c : sProp 𝕄)
      ⊢ iprop(((∃ f : Buf (Elt F) (rLoc c), rLoc c ↦[rc1.set]{fullShare} f) -∗ wp frame (wpE (defs₀ (F := F)) 𝒱₀ (c : Thread nD τ) none) Set.univ (k (half1 m ρ (peer c))) Q)
          -∗ wp frame (wpE (defs₀ (F := F)) 𝒱₀ (c : Thread nD τ) none) Set.univ (.op (.load (rM : Memref sig .tc .vmem S2x128x256 .bf16) rc1.toLoadRect hl) k) Q) := by
  unfold recvPay1
  iintro ⟨%f, Hr, %hf⟩ Hk
  iapply (wp_load 𝒱₀ (c : Thread nD τ) none Set.univ (m := rM) (S := rc1.set) (f := f) (subset_of_eq setOn_rc1)) $$ Hr; iintro Hr
  rw [hf]
  iapply Hk
  iexists f; iexact Hr

omit [FloatOps F] in
theorem join_r' (c : Dev nD) :
    iprop((∃ f : Buf (Elt F) (rLoc c), rLoc c ↦[rc0.set]{fullShare} f) ∗ (∃ g : Buf (Elt F) (rLoc c), rLoc c ↦[rc1.set]{fullShare} g))
      ⊢ (∃ h : Buf (Elt F) (rLoc c), rLoc c ↦{fullShare} h : sProp 𝕄) := by
  iintro ⟨⟨%f, Hf⟩, ⟨%g, Hg⟩⟩
  iapply (join_r c f g)
  isplitl [Hf] <;> iassumption

omit [FloatOps F] in
/-- The two send cells' payloads are the two halves of the send buffer: together the buffer whole at some contents. -/
theorem send_join (c : Dev nD) :
    iprop((sendPay0 c : sProp 𝕄) ∗ sendPay1 c)
      ⊢ (∃ h : Buf (Elt F) (sLoc c), sLoc c ↦{fullShare} h : sProp 𝕄) := by
  unfold sendPay0 sendPay1
  iintro ⟨⟨%f, Hf⟩, ⟨%g, Hg⟩⟩
  iapply (join_s c f g)
  isplitl [Hf] <;> iassumption

end LoadLanded

section Send
variable (K : Dev nD × Fin 5 → ℕ)

set_option maxHeartbeats 1600000 in
/-- The copy of half 0 to the partner, at the exchange's cells: the partner's receive-0 duty is paid with that half of its
    receive buffer holding what this device stored in the same half of its send buffer. -/
theorem wp_send_half0 (c n : Dev nD) (hn : n = peer c)
    {hsc : (rH0 : Memref sig (Dev.tc n : Thread nD τ).2.kind .vmem S128x256 .bf16).view.ref.isScScratch = false}
    {hsrc : (sH0 : Memref sig .tc .vmem S128x256 .bf16).view.WordExact} {hdst : (rH0 : Memref sig .tc .vmem S128x256 .bf16).view.WordExact}
    {hsem : DmaTarget.Typed .vmem (.dma recvS0) (.remote (Dev.tc n : Thread nD τ) (rH0 : Memref sig .tc .vmem S128x256 .bf16) (.dma sendS0) hsc)}
    {α : Type} {Q : α → sProp 𝕄} {k : PUnit → Prog (TpuEff nD τ sig (Elt F) Λ₀ .tc) α}
    (fs : Buf (Elt F) (sLoc c)) (fd : Buf (Elt F) (rLoc (peer c)))
    (hfs : (sM : Memref sig .tc .vmem S2x128x256 .bf16).view.readAt (Elt F) rc0.toLoadRect fs = half0 m ρ c)
    (O : CellTallies nD τ sig Unit) (W : Waits sig Unit) :
    iprop(cellInv ER (xRd m ρ) (K (c, 1)) (sendCell0 c) ∗ cellInv ER (xRd m ρ) (K (peer c, 3)) (recvCell0 (peer c))
        ∗ (sLoc c ↦[rc0.set]{fullShare} fs) ∗ (rLoc (peer c) ↦[rc0.set]{fullShare} fd)
        ∗ owes (c : Thread nD τ) (O + tallyAt (recvCell0 (peer c)) () N) W
        ∗ dutyTok ER (sendCell0 c) 0 () ∗ reached ER (sendCell0 c) 0
        ∗ dutyTok ER (recvCell0 (peer c)) 0 () ∗ reached ER (recvCell0 (peer c)) 0)
      ⊢ iprop(((cred (tallyAt (sendCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH0 (.remote (Dev.tc n : Thread nD τ) rH0 (.dma sendS0) hsc) (.dma recvS0) hsrc hdst hsem) k) Q) := by
  subst hn
  rw [← sHalf0_eq, ← rHalf0_eq]
  exact Rounds.wp_send_pointsTo 𝒱₀ ER (xRd m ρ) (c : Thread nD τ) none (c' := (peer c : Thread nD τ))
    (src := (sH0 : Memref sig .tc .vmem S128x256 .bf16)) (dst := (rH0 : Memref sig .tc .vmem S128x256 .bf16))
    (sS := .dma sendS0) (sem := .dma recvS0) (q := fullShare) (κ₁ := K (c, 1)) (κ₂ := K (peer c, 3))
    (r₁ := 0) (r₂ := 0) (d₁ := ()) (d₂ := ()) (fs := fs) (fd := fd)
    (mem_duties m ρ c 1) (mem_duties m ρ (peer c) 3)
    () () N rfl (amount_dma m ρ c 1 (by decide) ()) (amount_dma m ρ (peer c) 3 (by decide) ()) O rfl (W := W)
    (by rw [payload_send0, sHalf0_eq]; unfold sendPay0; iintro H; iexists fs; iexact H)
    (by
      rw [payload_recv0, rHalf0_eq]; unfold recvPay0; rw [peer_peer]
      iintro H; iexists _
      isplitl [H]; · iexact H
      ipureintro; rw [land_read0]; exact hfs)

set_option maxHeartbeats 1600000 in
/-- The copy of half 1 to the partner, at the exchange's cells: the partner's receive-1 duty is paid with that half of its
    receive buffer holding what this device stored in the same half of its send buffer. -/
theorem wp_send_half1 (c n : Dev nD) (hn : n = peer c)
    {hsc : (rH1 : Memref sig (Dev.tc n : Thread nD τ).2.kind .vmem S128x256 .bf16).view.ref.isScScratch = false}
    {hsrc : (sH1 : Memref sig .tc .vmem S128x256 .bf16).view.WordExact} {hdst : (rH1 : Memref sig .tc .vmem S128x256 .bf16).view.WordExact}
    {hsem : DmaTarget.Typed .vmem (.dma recvS1) (.remote (Dev.tc n : Thread nD τ) (rH1 : Memref sig .tc .vmem S128x256 .bf16) (.dma sendS1) hsc)}
    {α : Type} {Q : α → sProp 𝕄} {k : PUnit → Prog (TpuEff nD τ sig (Elt F) Λ₀ .tc) α}
    (fs : Buf (Elt F) (sLoc c)) (fd : Buf (Elt F) (rLoc (peer c)))
    (hfs : (sM : Memref sig .tc .vmem S2x128x256 .bf16).view.readAt (Elt F) rc1.toLoadRect fs = half1 m ρ c)
    (O : CellTallies nD τ sig Unit) (W : Waits sig Unit) :
    iprop(cellInv ER (xRd m ρ) (K (c, 2)) (sendCell1 c) ∗ cellInv ER (xRd m ρ) (K (peer c, 4)) (recvCell1 (peer c))
        ∗ (sLoc c ↦[rc1.set]{fullShare} fs) ∗ (rLoc (peer c) ↦[rc1.set]{fullShare} fd)
        ∗ owes (c : Thread nD τ) (O + tallyAt (recvCell1 (peer c)) () N) W
        ∗ dutyTok ER (sendCell1 c) 0 () ∗ reached ER (sendCell1 c) 0
        ∗ dutyTok ER (recvCell1 (peer c)) 0 () ∗ reached ER (recvCell1 (peer c)) 0)
      ⊢ iprop(((cred (tallyAt (sendCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH1 (.remote (Dev.tc n : Thread nD τ) rH1 (.dma sendS1) hsc) (.dma recvS1) hsrc hdst hsem) k) Q) := by
  subst hn
  rw [← sHalf1_eq, ← rHalf1_eq]
  exact Rounds.wp_send_pointsTo 𝒱₀ ER (xRd m ρ) (c : Thread nD τ) none (c' := (peer c : Thread nD τ))
    (src := (sH1 : Memref sig .tc .vmem S128x256 .bf16)) (dst := (rH1 : Memref sig .tc .vmem S128x256 .bf16))
    (sS := .dma sendS1) (sem := .dma recvS1) (q := fullShare) (κ₁ := K (c, 2)) (κ₂ := K (peer c, 4))
    (r₁ := 0) (r₂ := 0) (d₁ := ()) (d₂ := ()) (fs := fs) (fd := fd)
    (mem_duties m ρ c 2) (mem_duties m ρ (peer c) 4)
    () () N rfl (amount_dma m ρ c 2 (by decide) ()) (amount_dma m ρ (peer c) 4 (by decide) ()) O rfl (W := W)
    (by rw [payload_send1, sHalf1_eq]; unfold sendPay1; iintro H; iexists fs; iexact H)
    (by
      rw [payload_recv1, rHalf1_eq]; unfold recvPay1; rw [peer_peer]
      iintro H; iexists _
      isplitl [H]; · iexact H
      ipureintro; rw [land_read1]; exact hfs)

end Send

section Body

theorem payload_bar_peer (c : Dev nD) (d : Unit) :
    (xRd (F := F) m ρ).payload (barCell (peer c)) 0 d
      = iprop((∃ f : Buf (Elt F) (rLoc c), (rM.view.loc (c : Thread nD τ) ↦[rM.view.set]{fullShare} f)) ∗ reached ER (recvCell0 c) 0 ∗ reached ER (recvCell1 c) 0) := by
  rw [payload_bar]; unfold barPay; rw [peer_peer]
  have h : (rM : Memref sig .tc _ _ _).view.set = Finset.univ := View.set_whole _
  rw [h]
theorem payload_bar_own (c : Dev nD) (d : Unit) :
    (xRd (F := F) m ρ).payload (barCell c) 0 d
      = iprop((∃ f : Buf (Elt F) (rLoc (peer c)), (rLoc (peer c)) ↦{fullShare} f) ∗ reached ER (recvCell0 (peer c)) 0 ∗ reached ER (recvCell1 (peer c)) 0) := by
  rw [payload_bar]; rfl

attribute [local sl_rounds] duties_cell amount_bar expect_bar payload_bar_own peer_peer
theorem expect_send0 (c : Dev nD) : (xRd (F := F) m ρ).expect (sendCell0 c) 0 = N := expect_dma m ρ c 1 (by decide)
theorem expect_send1 (c : Dev nD) : (xRd (F := F) m ρ).expect (sendCell1 c) 0 = N := expect_dma m ρ c 2 (by decide)
theorem expect_recv0 (c : Dev nD) : (xRd (F := F) m ρ).expect (recvCell0 c) 0 = N := expect_dma m ρ c 3 (by decide)
theorem expect_recv1 (c : Dev nD) : (xRd (F := F) m ρ).expect (recvCell1 c) 0 = N := expect_dma m ρ c 4 (by decide)
attribute [local sl_rounds] expect_send0 expect_send1 expect_recv0 expect_recv1
attribute [local sl_rounds high] payload_bar_peer

omit [FloatOps F] in
theorem whole_eq (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  have h : (Memref.whole b : Memref sig .tc _ _ _).view.set = Finset.univ := View.set_whole _
  rw [h]
attribute [local sl_canon] dev1_eq dev2_eq dev3_eq

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell0 c) () N) ∗ cred (tallyAt (recvCell1 c) () N) ∗ levAts L lv
      ∗ (∃ f : Buf (Elt F) (sLoc c), sLoc c ↦{fullShare} f) ∗ (∃ f : Buf (Elt F) (rLoc c), rLoc c ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost records linear payToks
  rw [bigSep_fin5]
  iintro ⟨⟨⟨⟨⟨#HI, #HR⟩, ⟨HatB, HatS0, HatS1, HatV0, HatV1⟩, HtB, HtV0, HtV1, HtS0, HtS1⟩, HcB, HcV0, HcV1, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave #HIb := (inv_at m ρ K (c, 0)) $$ HI
  ihave #HIbp := (inv_at m ρ K (peer c, 0)) $$ HI
  ihave #HRbp := (reached_at (F := F) (peer c, 0)) $$ HR
  ihave #HRv0 := (reached_at (F := F) (c, 3)) $$ HR
  ihave #HRv1 := (reached_at (F := F) (c, 4)) $$ HR
  unfold O₀
  ihave Hs := (Entails.of_eq (whole_eq c cc0_scratch0 fs0).symm) $$ Hs
  ihave Hr := (Entails.of_eq (whole_eq c cc0_scratch1 fr0).symm) $$ Hr
  ihave Hx := (Entails.of_eq (whole_eq c cc0_stg0_0 (xstg m ρ c)).symm) $$ Hx
  ihave Hout := (Entails.of_eq (whole_eq c cc0_stg1_0 g1).symm) $$ Hout
  have hmw := mayWait_bar (F := F) c
  sl_exec
  -- the two buffers cut into their halves
  ihave Hs := (Entails.of_eq (whole_eq c cc0_scratch0 _)) $$ Hs
  ihave Hs := (split_s c _).1 $$ Hs
  icases Hs with ⟨Hs0, Hs1⟩
  ihave Hp := (split_r (peer c) _).1 $$ HatB_pay1
  icases Hp with ⟨Hp0, Hp1⟩
  icases HatB_pay2 with #HRpv0
  icases HatB_pay3 with #HRpv1
  ihave #HRs0 := (reached_at (F := F) (c, 1)) $$ HR
  ihave #HRs1 := (reached_at (F := F) (c, 2)) $$ HR
  -- the copy of the first half
  iapply (wp_send_half0 m ρ K c _ (dev2_eq c) (sbuf m ρ c fs0) HatB_pay1_v (stored_read0 fs0 (half0 m ρ c) (half1 m ρ c))
      (tallyAt (recvCell1 (peer c)) () N) (insert (SemLoc.reg barS, ()) W)) $$ [Hs0 Hp0 HO HtS0 HtV0]
  · isplitr; · iapply (inv_at m ρ K (c, 1)); iexact HI
    isplitr; · iapply (inv_at m ρ K (peer c, 3)); iexact HI
    isplitl [Hs0]; · iexact Hs0
    isplitl [Hp0]; · iexact Hp0
    isplitl [HO]; · iexact HO
    isplitl [HtS0]; · iexact HtS0
    isplitr; · iexact HRs0
    isplitl [HtV0]; · iexact HtV0
    iexact HRpv0
  iintro ⟨HcS0, HO⟩
  -- the copy of the second half
  iapply (wp_send_half1 m ρ K c _ (dev3_eq c) (sbuf m ρ c fs0) HatB_pay1_v (stored_read1 fs0 (half0 m ρ c) (half1 m ρ c))
      0 (insert (SemLoc.reg barS, ()) W)) $$ [Hs1 Hp1 HO HtS1 HtV1]
  · isplitr; · iapply (inv_at m ρ K (c, 2)); iexact HI
    isplitr; · iapply (inv_at m ρ K (peer c, 4)); iexact HI
    isplitl [Hs1]; · iexact Hs1
    isplitl [Hp1]; · iexact Hp1
    isplitl [HO]; · rw [zero_add]; iexact HO
    isplitl [HtS1]; · iexact HtS1
    isplitr; · iexact HRs1
    isplitl [HtV1]; · iexact HtV1
    iexact HRpv1
  iintro ⟨HcS1, HO⟩
  iapply (wp_ret_bind_unit c)
  sl_exec
  -- the wait for the first half to land
  iapply (wp_wait_recv0 m ρ K c (insert (SemLoc.reg barS, ()) W)) $$ [HcV0 HO HatV0]
  · isplitr; · iapply (inv_at m ρ K (c, 3)); iexact HI
    isplitl [HcV0]; · iexact HcV0
    isplitl [HO]; · iexact HO
    iexact HatV0
  iintro ⟨HO, HatV0, -, Hpay0⟩
  sl_exec
  iapply (wp_load_recv0 m ρ c) $$ Hpay0; iintro Hr0
  sl_exec
  -- the wait for the second half to land
  iapply (wp_wait_recv1 m ρ K c (insert (csem 3, ()) (insert (SemLoc.reg barS, ()) W))) $$ [HcV1 HO HatV1]
  · isplitr; · iapply (inv_at m ρ K (c, 4)); iexact HI
    isplitl [HcV1]; · iexact HcV1
    isplitl [HO]; · iexact HO
    iexact HatV1
  iintro ⟨HO, HatV1, -, Hpay1⟩
  sl_exec
  iapply (wp_load_recv1 m ρ c) $$ Hpay1; iintro Hr1
  sl_exec
  -- the waits for the two copies to have read the send buffer
  iapply (wp_wait_send0 m ρ K c
      (insert (csem 4, ()) (insert (csem 3, ()) (insert (SemLoc.reg barS, ()) W)))) $$ [HcS0 HO HatS0]
  · isplitr; · iapply (inv_at m ρ K (c, 1)); iexact HI
    isplitl [HcS0]; · iexact HcS0
    isplitl [HO]; · iexact HO
    iexact HatS0
  iintro ⟨HO, HatS0, -, Hq0⟩
  iapply (wp_wait_send1 m ρ K c
      (insert (csem 1, ()) (insert (csem 4, ()) (insert (csem 3, ()) (insert (SemLoc.reg barS, ()) W))))) $$ [HcS1 HO HatS1]
  · isplitr; · iapply (inv_at m ρ K (c, 2)); iexact HI
    isplitl [HcS1]; · iexact HcS1
    isplitl [HO]; · iexact HO
    iexact HatS1
  iintro ⟨HO, HatS1, -, Hq1⟩
  -- the two scratch buffers whole again
  ihave Hs := (send_join (F := F) c) $$ [Hq0 Hq1]
  · isplitl [Hq0] <;> iassumption
  ihave Hr := (join_r' (F := F) c) $$ [Hr0 Hr1]
  · isplitl [Hr0] <;> iassumption
  -- the four own cells close: their counters at zero are the core's again
  imod (Rounds.cell_close ER (xRd m ρ) (Set.mem_univ (K (c, 1))) (fun h => h) (R := 0 + 1) (duties_later m ρ (sendCell0 c))) $$ [HatS0] with HzS0
  · isplitr; · iapply (inv_at m ρ K (c, 1)); iexact HI
    iexact HatS0
  imod (Rounds.cell_close ER (xRd m ρ) (Set.mem_univ (K (c, 2))) (fun h => h) (R := 0 + 1) (duties_later m ρ (sendCell1 c))) $$ [HatS1] with HzS1
  · isplitr; · iapply (inv_at m ρ K (c, 2)); iexact HI
    iexact HatS1
  imod (Rounds.cell_close ER (xRd m ρ) (Set.mem_univ (K (c, 3))) (fun h => h) (R := 0 + 1) (duties_later m ρ (recvCell0 c))) $$ [HatV0] with HzV0
  · isplitr; · iapply (inv_at m ρ K (c, 3)); iexact HI
    iexact HatV0
  imod (Rounds.cell_close ER (xRd m ρ) (Set.mem_univ (K (c, 4))) (fun h => h) (R := 0 + 1) (duties_later m ρ (recvCell1 c))) $$ [HatV1] with HzV1
  · isplitr; · iapply (inv_at m ρ K (c, 4)); iexact HI
    iexact HatV1
  iapply (wp_ret_bind_unit c)
  sl_step
  iapply Hk
  unfold bodyPost Φ₁ Dat.owesAt Pipeline.owesWithin
  rw [show (dats m ρ 0 c).owed t₀.succ = 0 from rfl]
  isplitl [Hs Hr HzS0 HzS1 HzV0 HzV1]
  · isplitl [Hs]; · iexact Hs
    isplitl [Hr]; · iexact Hr
    isplitl [HzS0]; · iexact HzS0
    isplitl [HzS1]; · iexact HzS1
    isplitl [HzV0]; · iexact HzV0
    iexact HzV1
  isplitl [HO]
  · iexists (insert (csem 2, ()) (insert (csem 1, ()) (insert (csem 4, ()) (insert (csem 3, ()) (insert (SemLoc.reg barS, ()) W)))))
    isplitr; · ipureintro; exact fun _ _ => Or.inl trivial
    iexact HO
  isplitl [Hx]
  · iexists _; isplitr; · (ipureintro; rfl)
    iapply (Entails.of_eq (whole_eq c cc0_stg0_0 (xstg m ρ c))); iexact Hx
  iexists _; isplitr
  · ipureintro
    exact out_eq m ρ c g1
  iapply (Entails.of_eq (whole_eq c cc0_stg1_0 _)); iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV0, HcV1, Hlev⟩, Hs, Hr⟩, Ho, Hx, Hout⟩
  iapply (sound_body m ρ K c fun _ => bodyPost m ρ c)
  unfold bodyPre
  isplitr []
  · isplitl [Hg HcB HcV0 HcV1 Hlev Hs Hr]
    · isplitl [Hg]; · iexact Hg
      isplitl [HcB]; · iexact HcB
      isplitl [HcV0]; · iexact HcV0
      isplitl [HcV1]; · iexact HcV1
      isplitl [Hlev]; · iexact Hlev
      isplitl [Hs]; · iexact Hs
      iexact Hr
    isplitl [Ho]; · iexact Ho
    isplitl [Hx] <;> iassumption
  · iintro H; iexact H

end Body

end Cert.Kernel.Exch

end
-- ==== Proof.RefSide.lean ====
/- The reference side of the certificate: the one-device reference's run read back as one
   index-by-index function of the whole input, and the layout arithmetic that joins two
   devices' blocks of the input to it. -/
import proofs.«900715_g7700000000000716_dist_ar_v7x_xyz2x2x4_y_m256_n256_f32_1_alg».proof.Defs
import proofs.«900715_g7700000000000716_dist_ar_v7x_xyz2x2x4_y_m256_n256_f32_1_alg».proof.Proof.Gen.ReferenceIdeal
import proofs.«900715_g7700000000000716_dist_ar_v7x_xyz2x2x4_y_m256_n256_f32_1_alg».proof.Proof.Gen.ReferenceIdeal.Run
import proofs.«900715_g7700000000000716_dist_ar_v7x_xyz2x2x4_y_m256_n256_f32_1_alg».proof.Proof.Gen.ReferenceIdeal.Read
import proofs.«900715_g7700000000000716_dist_ar_v7x_xyz2x2x4_y_m256_n256_f32_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws

noncomputable section

namespace Cert.RefSide

open Idealize.ShloMosaic Idealize.SL.Sem
open Idealize.ShloMosaic.ValueIdx

abbrev refLoc0 := (((0 : Dev Cert.ReferenceIdeal.nD).tc : Thread Cert.ReferenceIdeal.nD Cert.ReferenceIdeal.τ).loc Cert.ReferenceIdeal.main_arg0)
abbrev refLoc1 := (((0 : Dev Cert.ReferenceIdeal.nD).tc : Thread Cert.ReferenceIdeal.nD Cert.ReferenceIdeal.τ).loc Cert.ReferenceIdeal.main_v1)

/-- The whole input's shape: 512 rows of 256 columns. -/
abbrev SX : Shape := ⟨2, ![512, 256]⟩
/-- The result's shape, and each device's block of the input: 256 rows of 256 columns. -/
abbrev SO : Shape := ⟨2, ![256, 256]⟩

/-- Entry (r, l) of the result sits under entry (r, l) of the input's upper half … -/
def upper (i : SO.Idx) : SX.Idx :=
  ix2 (⟨(i 0).val, by have := idx2_lt0 i; omega⟩ : Fin 512) (⟨(i 1).val, idx2_lt1 i⟩ : Fin 256)
/-- … and entry (256 + r, l) of its lower half. -/
def lower (i : SO.Idx) : SX.Idx :=
  ix2 (⟨256 + (i 0).val, by have := idx2_lt0 i; omega⟩ : Fin 512) (⟨(i 1).val, idx2_lt1 i⟩ : Fin 256)

/-- The two halves of the rows added: out(r, l) = X(r, l) + X(256 + r, l). -/
def foldRows (X : SX.Idx → EReal) : SO.Idx → EReal := fun i => X (upper i) + X (lower i)

/-- the reference's result as one function of the whole input -/
def refOut (X : Buf (Elt Ideal) refLoc0) : Buf (Elt Ideal) refLoc1 := foldRows X

theorem refOut_apply (X : Buf (Elt Ideal) refLoc0) (i : SO.Idx) :
    refOut X i = (show EReal from X (upper i)) + (show EReal from X (lower i)) := rfl

/-! ## The reference's run -/

open Cert.ReferenceIdeal.Read in
/-- Row `k` of the reshaped [2, 256, 256] array at (r, l) is row `256·k + r` of the input: `k = 0` the upper half, -/
theorem reshaped_zero (i : SO.Idx) : idx_main_v0 (idx_main_v1 i 0) = upper i := by
  have h0 := idx2_lt0 i; have h1 := idx2_lt1 i
  funext a
  match a with
  | ⟨0, _⟩ => exact Fin.ext (by show ((0 * 256 + (i 0).val) * 256 + (i 1).val) / 256 = (i 0).val; omega)
  | ⟨1, _⟩ => exact Fin.ext (by show ((0 * 256 + (i 0).val) * 256 + (i 1).val) % 256 = (i 1).val; omega)

open Cert.ReferenceIdeal.Read in
/-- `k = 1` the lower half. -/
theorem reshaped_one (i : SO.Idx) : idx_main_v0 (idx_main_v1 i 1) = lower i := by
  have h0 := idx2_lt0 i; have h1 := idx2_lt1 i
  funext a
  match a with
  | ⟨0, _⟩ => exact Fin.ext (by show ((1 * 256 + (i 0).val) * 256 + (i 1).val) / 256 = 256 + (i 0).val; omega)
  | ⟨1, _⟩ => exact Fin.ext (by show ((1 * 256 + (i 0).val) * 256 + (i 1).val) % 256 = (i 1).val; omega)

open Cert.ReferenceIdeal.Read in
/-- The reference's composed term — reshape to [2, 256, 256], then the sum over the leading axis from the
    initial value 0 — is the two halves added: 0 + (X(r, l) + X(256 + r, l)). -/
theorem ref_val (X : SX.Idx → EReal) : val_main_v1 (F := Ideal) X = foldRows X := by
  funext i
  rw [val_main_v1_apply, Fin.sum_univ_two, val_main_v0_apply, val_main_v0_apply, val_main_cst_apply,
    reshaped_zero, reshaped_one]
  show Ideal.ofBits .f32 0x00000000#32 + _ = _
  rw [Ideal.ofBits_zero_f32, zero_add]
  rfl

theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => r.2.mem refLoc1 = refOut (m' refLoc0) ∧ r.2.mem refLoc0 = m' refLoc0) :=
  (θ_run (Cert.ReferenceIdeal.defs (F := Ideal)) _ _).mono
    (fun _ h => ⟨(h 0).1.trans (ref_val (m' refLoc0)), (h 0).2⟩)
    (Cert.ReferenceIdeal.Value.run (F := Ideal) m' g')

/-- The reference runs to the end and leaves its input as it was: its run with the result dropped. -/
theorem frame_ref : Cert.frame_ReferenceIdeal :=
  fun m ρ _ => (θ_run (Cert.ReferenceIdeal.defs (F := Ideal)) _ _).mono (fun _ h c => (h c).2)
    (Cert.ReferenceIdeal.Value.run (F := Ideal) m ρ)

/-! ## The blocks of the input

  The mesh is 2 × 2 × 4 and the input is cut along its rows by the middle axis, so device `c` holds block
  `(c / 4) % 2` of the two: the upper half of the rows when that is 0, the lower half when it is 1. -/

/-- Device `c`'s block coordinate along the rows is its coordinate on the middle mesh axis; -/
theorem rowBlock_val : ∀ c : Fin 16, ((Layout.meshBlock [2, 2, 4] ![[1], []] c) 0).val = (c.val / 4) % 2 := by decide

/-- along the columns there is one block. -/
theorem colBlock_val : ∀ c : Fin 16, ((Layout.meshBlock [2, 2, 4] ![[1], []] c) 1).val = 0 := by decide

/-- A device on the middle axis's coordinate 0 holds the upper half of the rows, -/
theorem block_upper (X : SX.Idx → EReal) (c : Fin 16) (hc : (c.val / 4) % 2 = 0) (i : SO.Idx) :
    (Layout.blockN SO SX (Layout.meshBlock [2, 2, 4] ![[1], []] c) X) i = X (upper i) := by
  rw [Layout.blockN_apply]
  refine congrArg X (funext fun a => ?_)
  match a with
  | ⟨0, _⟩ =>
    exact Fin.ext (by
      show ((Layout.meshBlock [2, 2, 4] ![[1], []] c) 0).val * 256 + (i 0).val = (i 0).val
      have := rowBlock_val c; omega)
  | ⟨1, _⟩ =>
    exact Fin.ext (by
      show ((Layout.meshBlock [2, 2, 4] ![[1], []] c) 1).val * 256 + (i 1).val = (i 1).val
      have := colBlock_val c; omega)

/-- one on coordinate 1 the lower half. -/
theorem block_lower (X : SX.Idx → EReal) (c : Fin 16) (hc : (c.val / 4) % 2 = 1) (i : SO.Idx) :
    (Layout.blockN SO SX (Layout.meshBlock [2, 2, 4] ![[1], []] c) X) i = X (lower i) := by
  rw [Layout.blockN_apply]
  refine congrArg X (funext fun a => ?_)
  match a with
  | ⟨0, _⟩ =>
    exact Fin.ext (by
      show ((Layout.meshBlock [2, 2, 4] ![[1], []] c) 0).val * 256 + (i 0).val = 256 + (i 0).val
      have := rowBlock_val c; omega)
  | ⟨1, _⟩ =>
    exact Fin.ext (by
      show ((Layout.meshBlock [2, 2, 4] ![[1], []] c) 1).val * 256 + (i 1).val = (i 1).val
      have := colBlock_val c; omega)

/-- A device's block plus the block of the device across the middle mesh axis (the same outer and inner
    coordinates, the middle one flipped) is the two halves of the rows added — in that order on
    coordinate 0, the other way round on coordinate 1, which is the same sum. -/
theorem sum_blocks (X : Buf (Elt Ideal) refLoc0) (c p : Fin 16) (hp : p.val = (8 * (c.val / 8) + (c.val % 4) + 4) - 4 * ((c.val / 4) % 2)) (i : (⟨2, ![256, 256]⟩ : Shape).Idx) :
    (show EReal from (Layout.blockN ⟨2, ![256, 256]⟩ ⟨2, ![512, 256]⟩ (Layout.meshBlock [2, 2, 4] ![[1], []] c) X) i) + (show EReal from (Layout.blockN ⟨2, ![256, 256]⟩ ⟨2, ![512, 256]⟩ (Layout.meshBlock [2, 2, 4] ![[1], []] p) X) i) = refOut X i := by
  have hc := c.isLt
  rcases Nat.mod_two_eq_zero_or_one (c.val / 4) with h0 | h1
  · have hp' : (p.val / 4) % 2 = 1 := by omega
    exact (congrArg₂ (· + ·) (block_upper X c h0 i) (block_lower X p hp' i))
  · have hp' : (p.val / 4) % 2 = 0 := by omega
    exact (congrArg₂ (· + ·) (block_lower X c h1 i) (block_upper X p hp' i)).trans (add_comm (G := EReal) _ _)

/-- info: 'Cert.RefSide.ref_run' depends on axioms: [propext, Classical.choice, Quot.sound] -/
#guard_msgs in #print axioms ref_run

/-- info: 'Cert.RefSide.sum_blocks' depends on axioms: [propext, Classical.choice, Quot.sound] -/
#guard_msgs in #print axioms sum_blocks

end Cert.RefSide

end
-- ==== Proof.lean ====
/- Each device adds its partner's block of x to its own: the partner is the device across the middle mesh axis, and
   the two halves of the narrowed block travel to it while its halves arrive. At the ideal instance narrowing and
   widening are the identity, so every device ends with block 0 + block 1 of x: the reference's sum over the
   leading axis of the array reshaped to [2, 256, 256]. -/
import proofs.«900715_g7700000000000716_dist_ar_v7x_xyz2x2x4_y_m256_n256_f32_1_alg».proof.Defs
import proofs.«900715_g7700000000000716_dist_ar_v7x_xyz2x2x4_y_m256_n256_f32_1_alg».proof.Proof.Gen.Kernel
import proofs.«900715_g7700000000000716_dist_ar_v7x_xyz2x2x4_y_m256_n256_f32_1_alg».proof.Proof.Gen.Kernel.Skeleton
import proofs.«900715_g7700000000000716_dist_ar_v7x_xyz2x2x4_y_m256_n256_f32_1_alg».proof.Proof.Gen.Kernel.Launch
import proofs.«900715_g7700000000000716_dist_ar_v7x_xyz2x2x4_y_m256_n256_f32_1_alg».proof.Proof.Gen.Kernel.Points
import proofs.«900715_g7700000000000716_dist_ar_v7x_xyz2x2x4_y_m256_n256_f32_1_alg».proof.Proof.Gen.Kernel.Frame
import proofs.«900715_g7700000000000716_dist_ar_v7x_xyz2x2x4_y_m256_n256_f32_1_alg».proof.Proof.Gen.KernelIdeal
import proofs.«900715_g7700000000000716_dist_ar_v7x_xyz2x2x4_y_m256_n256_f32_1_alg».proof.Proof.Gen.KernelIdeal.Skeleton
import proofs.«900715_g7700000000000716_dist_ar_v7x_xyz2x2x4_y_m256_n256_f32_1_alg».proof.Proof.Gen.KernelIdeal.Launch
import proofs.«900715_g7700000000000716_dist_ar_v7x_xyz2x2x4_y_m256_n256_f32_1_alg».proof.Proof.Gen.KernelIdeal.Points
import proofs.«900715_g7700000000000716_dist_ar_v7x_xyz2x2x4_y_m256_n256_f32_1_alg».proof.Proof.Gen.KernelIdeal.Frame
import proofs.«900715_g7700000000000716_dist_ar_v7x_xyz2x2x4_y_m256_n256_f32_1_alg».proof.Proof.Gen.ReferenceIdeal
import proofs.«900715_g7700000000000716_dist_ar_v7x_xyz2x2x4_y_m256_n256_f32_1_alg».proof.Proof.Gen.Pre_finite_inputs_Kernel
import proofs.«900715_g7700000000000716_dist_ar_v7x_xyz2x2x4_y_m256_n256_f32_1_alg».proof.Proof.Gen.Pre_finite_inputs_ReferenceIdeal
import proofs.«900715_g7700000000000716_dist_ar_v7x_xyz2x2x4_y_m256_n256_f32_1_alg».proof.Proof.Launch
import proofs.«900715_g7700000000000716_dist_ar_v7x_xyz2x2x4_y_m256_n256_f32_1_alg».proof.Proof.LaunchK
import proofs.«900715_g7700000000000716_dist_ar_v7x_xyz2x2x4_y_m256_n256_f32_1_alg».proof.Proof.Body
import proofs.«900715_g7700000000000716_dist_ar_v7x_xyz2x2x4_y_m256_n256_f32_1_alg».proof.Proof.BodyK
import proofs.«900715_g7700000000000716_dist_ar_v7x_xyz2x2x4_y_m256_n256_f32_1_alg».proof.Proof.OutValue
import proofs.«900715_g7700000000000716_dist_ar_v7x_xyz2x2x4_y_m256_n256_f32_1_alg».proof.Proof.RefSide
import Idealize.ShloMosaic.Adequacy
import Idealize.ShloMosaic.Init

noncomputable section

namespace Cert.Proof

open Idealize.ShloMosaic Idealize.SL.Sem Cert.Kernel

/-- The word-level program runs to the end on all sixteen devices and every device's block of x ends as it was:
    x is an input window, never written back. -/
theorem frame_Kernel : Cert.frame_Kernel := fun m ρ _ =>
  (θ_run _ _ _).mono (fun r h c => ((h c 0).trans (Cert.Kernel.Exch.finalA_x m ρ c)))
    (Cert.Kernel.Exch.run_main (F := Bits) m ρ (Cert.Kernel.Exch.body_obligation m ρ))

/-- The same of the program read at the ideal instance. -/
theorem frame_KernelIdeal : Cert.frame_KernelIdeal := fun m ρ _ =>
  (θ_run _ _ _).mono (fun r h c => ((h c 0).trans (Cert.KernelIdeal.Exch.finalA_x m ρ c)))
    (Cert.KernelIdeal.Exch.run_main (F := Ideal) m ρ (Cert.KernelIdeal.Exch.body_obligation m ρ))

/-- When every device's x is its block of the whole array X, a device's result — its own block plus its partner's,
    entry by entry — is the two halves of X's rows added: the reference's result. -/
theorem out_eq_ref (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[1], []] c) (m' Cert.RefSide.refLoc0))
    (c : Dev Cert.KernelIdeal.nD) :
    Cert.KernelIdeal.Exch.outAt (F := Ideal) m ρ c = Cert.RefSide.refOut (m' Cert.RefSide.refLoc0) := by
  funext i
  have h := Cert.KernelIdeal.Exch.outAt_apply m ρ c i
  rw [hagree c, hagree (Cert.KernelIdeal.Exch.peer c)] at h
  exact h.trans (Cert.RefSide.sum_blocks _ c (Cert.KernelIdeal.Exch.peer c) rfl i)

/-- At the ideal instance, from memories where each device holds its block of the reference's input: both programs
    run, every device's result ends as the reference's result, and both leave their inputs as they were. -/
theorem algebraic : Cert.algebraic_KernelIdeal_ReferenceIdeal := fun m ρ m' ρ' _ hagree =>
  ⟨Cert.RefSide.refOut (m' Cert.RefSide.refLoc0),
    (θ_run _ _ _).mono
      (fun r h c => ⟨((h c 1).trans (Cert.KernelIdeal.Exch.finalA_out m ρ c)).trans (out_eq_ref m ρ m' hagree c),
        (h c 0).trans (Cert.KernelIdeal.Exch.finalA_x m ρ c)⟩)
      (Cert.KernelIdeal.Exch.run_main (F := Ideal) m ρ (Cert.KernelIdeal.Exch.body_obligation m ρ)),
    Cert.RefSide.ref_run m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, frame_Kernel, frame_KernelIdeal, Cert.RefSide.frame_ref, trivial, algebraic⟩

end Cert.Proof

end
